-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S2x5000000 : Shape := ⟨2, ![2, 5000000]⟩
abbrev S2x16x16 : Shape := ⟨3, ![2, 16, 16]⟩
abbrev S2x16 : Shape := ⟨2, ![2, 16]⟩
abbrev S16x16 : Shape := ⟨2, ![16, 16]⟩
abbrev S16 : Shape := ⟨1, ![16]⟩
abbrev S8x8 : Shape := ⟨2, ![8, 8]⟩
abbrev S8 : Shape := ⟨1, ![8]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S2x16x16 : S_.BroadcastsInDim S2x16x16 (![] : Fin 0 → Fin S2x16x16.rank)
  reducesTo_S2x16x16_S_d0_1_2 : S2x16x16.ReducesTo [0, 1, 2] S_
  bcast_S_S2x16 : S_.BroadcastsInDim S2x16 (![] : Fin 0 → Fin S2x16.rank)
  reducesTo_S2x16_S_d0_1 : S2x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg8 : FVec F S16x16 .f32) (main_arg9 : FVec F S16 .f32) (main_arg10 : FVec F S8x8 .f32) (main_arg11 : FVec F S8 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S8x8 .f32 := Host.absf main_arg10
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg5 : FVec F S2x16x16 .f32) (main_arg6 : FVec F S2x16 .f32) (main_arg7 : FVec F S2x16x16 .f32) (main_arg8 : FVec F S16x16 .f32) (main_arg9 : FVec F S16 .f32) (main_arg10 : FVec F S8x8 .f32) (main_arg11 : FVec F S8 .f32) (main_v13 : IVec S_ 1) (main_v16 : IVec S2x16x16 1) : IVec S_ 1 :=
  let main_c_5 : IVec S_ 1 := constantI S_ 1 1#1
  let main_v17 : IVec S_ 1 := (fun x v => Host.reduce IntOp.andi x v reducesTo_S2x16x16_S_d0_1_2 h_S_) main_v16 main_c_5
  let main_v18 : IVec S_ 1 := andi main_v13 main_v17
  let main_v19 : FVec F S2x16x16 .f32 := Host.absf main_arg5
  let main_cst_6 : FVec F S_ .f32 := constant S_ .f32 0x7F800000#32
  let main_v20 : FVec F S2x16x16 .f32 := broadcastInDim S2x16x16 ![] bcast_S_S2x16x16 main_cst_6
  let main_v21 : IVec S2x16x16 1 := cmpf .olt main_v19 main_v20
  let main_c_7 : IVec S_ 1 := constantI S_ 1 1#1
  let main_v22 : IVec S_ 1 := (fun x v => Host.reduce IntOp.andi x v reducesTo_S2x16x16_S_d0_1_2 h_S_) main_v21 main_c_7
  let main_v23 : IVec S_ 1 := andi main_v18 main_v22
  let main_v24 : FVec F S2x16 .f32 := Host.absf main_arg6
  let main_cst_8 : FVec F S_ .f32 := constant S_ .f32 0x7F800000#32
  let main_v25 : FVec F S2x16 .f32 := broadcastInDim S2x16 ![] bcast_S_S2x16 main_cst_8
  let main_v26 : IVec S2x16 1 := cmpf .olt main_v24 main_v25
  let main_c_9 : IVec S_ 1 := constantI S_ 1 1#1
  let main_v27 : IVec S_ 1 := (fun x v => Host.reduce IntOp.andi x v reducesTo_S2x16_S_d0_1 h_S_) main_v26 main_c_9
  let main_v28 : IVec S_ 1 := andi main_v23 main_v27
  let main_v29 : FVec F S2x16x16 .f32 := Host.absf main_arg7
  let main_cst_10 : FVec F S_ .f32 := constant S_ .f32 0x7F800000#32
  let main_v30 : FVec F S2x16x16 .f32 := broadcastInDim S2x16x16 ![] bcast_S_S2x16x16 main_cst_10
  let main_v31 : IVec S2x16x16 1 := cmpf .olt main_v29 main_v30
  let main_c_11 : IVec S_ 1 := constantI S_ 1 1#1
  let main_v32 : IVec S_ 1 := (fun x v => Host.reduce IntOp.andi x v reducesTo_S2x16x16_S_d0_1_2 h_S_) main_v31 main_c_11
  let main_v33 : IVec S_ 1 := andi main_v28 main_v32
  fn_part2 (F := F) main_arg8 main_arg9 main_arg10 main_arg11 main_v33

def fn {F : FTy → Type} [FloatOps F] (main_arg0 : FVec F S200000x16 .f32) (main_arg1 : IVec S2x5000000 32) (main_arg2 : FVec F S2x16x16 .f32) (main_arg3 : FVec F S2x16 .f32) (main_arg4 : FVec F S2x16x16 .f32) (main_arg5 : FVec F S2x16x16 .f32) (main_arg6 : FVec F S2x16 .f32) (main_arg7 : FVec F S2x16x16 .f32) (main_arg8 : FVec F S16x16 .f32) (main_arg9 : FVec F S16 .f32) (main_arg10 : FVec F S8x8 .f32) (main_arg11 : FVec F S8 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S2x16x16 .f32 := Host.absf main_arg2
  let main_cst_0 : FVec F S_ .f32 := constant S_ .f32 0x7F800000#32
  let main_v5 : FVec F S2x16x16 .f32 := broadcastInDim S2x16x16 ![] bcast_S_S2x16x16 main_cst_0
  let main_v6 : IVec S2x16x16 1 := cmpf .olt main_v4 main_v5
  let main_c_1 : IVec S_ 1 := constantI S_ 1 1#1
  let main_v7 : IVec S_ 1 := (fun x v => Host.reduce IntOp.andi x v reducesTo_S2x16x16_S_d0_1_2 h_S_) main_v6 main_c_1
  let main_v8 : IVec S_ 1 := andi main_v3 main_v7
  let main_v9 : FVec F S2x16 .f32 := Host.absf main_arg3
  let main_cst_2 : FVec F S_ .f32 := constant S_ .f32 0x7F800000#32
  let main_v10 : FVec F S2x16 .f32 := broadcastInDim S2x16 ![] bcast_S_S2x16 main_cst_2
  let main_v11 : IVec S2x16 1 := cmpf .olt main_v9 main_v10
  let main_c_3 : IVec S_ 1 := constantI S_ 1 1#1
  let main_v12 : IVec S_ 1 := (fun x v => Host.reduce IntOp.andi x v reducesTo_S2x16_S_d0_1 h_S_) main_v11 main_c_3
  let main_v13 : IVec S_ 1 := andi main_v8 main_v12
  let main_v14 : FVec F S2x16x16 .f32 := Host.absf main_arg4
  let main_cst_4 : FVec F S_ .f32 := constant S_ .f32 0x7F800000#32
  let main_v15 : FVec F S2x16x16 .f32 := broadcastInDim S2x16x16 ![] bcast_S_S2x16x16 main_cst_4
  let main_v16 : IVec S2x16x16 1 := cmpf .olt main_v14 main_v15
  fn_part1 (F := F) main_arg5 main_arg6 main_arg7 main_arg8 main_arg9 main_arg10 main_arg11 main_v13 main_v16
-- ==== Kernel.lean ====
abbrev S200000x16 : Shape := ⟨2, ![200000, 16]⟩
abbrev S2x5000000 : Shape := ⟨2, ![2, 5000000]⟩
abbrev S2x16x16 : Shape := ⟨3, ![2, 16, 16]⟩
abbrev S2x16 : Shape := ⟨2, ![2, 16]⟩
abbrev S16x16 : Shape := ⟨2, ![16, 16]⟩
abbrev S16 : Shape := ⟨1, ![16]⟩
abbrev S8x8 : Shape := ⟨2, ![8, 8]⟩
abbrev S8 : Shape := ⟨1, ![8]⟩
abbrev S1x5000000 : Shape := ⟨2, ![1, 5000000]⟩
abbrev S5000000 : Shape := ⟨1, ![5000000]⟩
abbrev S_ : Shape := ⟨0, ![]⟩
abbrev S200000 : Shape := ⟨1, ![200000]⟩
abbrev S5000000x1 : Shape := ⟨2, ![5000000, 1]⟩
abbrev S200000x1 : Shape := ⟨2, ![200000, 1]⟩
abbrev S5000000x16 : Shape := ⟨2, ![5000000, 16]⟩
abbrev S1x16x16 : Shape := ⟨3, ![1, 16, 16]⟩
abbrev S1x16 : Shape := ⟨2, ![1, 16]⟩
abbrev S5000x16 : Shape := ⟨2, ![5000, 16]⟩
abbrev S5000x1 : Shape := ⟨2, ![5000, 1]⟩
abbrev S1x8 : Shape := ⟨2, ![1, 8]⟩
abbrev S200000x8 : Shape := ⟨2, ![200000, 8]⟩
abbrev S5000x8 : Shape := ⟨2, ![5000, 8]⟩
abbrev S5000 : Shape := ⟨1, ![5000]⟩

abbrev nBuf : Space → Nat
  | .hbm => 118
  | .vmem => 48
  | .smem => 0
  | _ => 0

abbrev bufTy : (tb : Table) → Fin (tcTables nBuf tb) → BufTy
  | .hbm, ⟨0, _⟩ => ⟨S200000x16, .f32⟩
  | .hbm, ⟨1, _⟩ => ⟨S2x5000000, .i32⟩
  | .hbm, ⟨2, _⟩ => ⟨S2x16x16, .f32⟩
  | .hbm, ⟨3, _⟩ => ⟨S2x16, .f32⟩
  | .hbm, ⟨4, _⟩ => ⟨S2x16x16, .f32⟩
  | .hbm, ⟨5, _⟩ => ⟨S2x16x16, .f32⟩
  | .hbm, ⟨6, _⟩ => ⟨S2x16, .f32⟩
  | .hbm, ⟨7, _⟩ => ⟨S2x16x16, .f32⟩
  | .hbm, ⟨8, _⟩ => ⟨S16x16, .f32⟩
  | .hbm, ⟨9, _⟩ => ⟨S16, .f32⟩
  | .hbm, ⟨10, _⟩ => ⟨S8x8, .f32⟩
  | .hbm, ⟨11, _⟩ => ⟨S8, .f32⟩
  | .hbm, ⟨12, _⟩ => ⟨S1x5000000, .i32⟩
  | .hbm, ⟨13, _⟩ => ⟨S5000000, .i32⟩
  | .hbm, ⟨14, _⟩ => ⟨S1x5000000, .i32⟩
  | .hbm, ⟨15, _⟩ => ⟨S5000000, .i32⟩
  | .hbm, ⟨16, _⟩ => ⟨S_, .f32⟩
  | .hbm, ⟨17, _⟩ => ⟨S5000000, .f32⟩
  | .hbm, ⟨18, _⟩ => ⟨S_, .f32⟩
  | .hbm, ⟨19, _⟩ => ⟨S200000, .f32⟩
  | .hbm, ⟨20, _⟩ => ⟨S5000000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S200000x1, .f32⟩
  | .hbm, ⟨29, _⟩ => ⟨S_, .i32⟩
  | .hbm, ⟨30, _⟩ => ⟨S5000000, .i32⟩
  | .hbm, ⟨31, _⟩ => ⟨S5000000, .i1⟩
  | .hbm, ⟨32, _⟩ => ⟨S_, .i32⟩
  | .hbm, ⟨33, _⟩ => ⟨S5000000, .i32⟩
  | .hbm, ⟨34, _⟩ => ⟨S5000000, .i32⟩
  | .hbm, ⟨35, _⟩ => ⟨S5000000, .i32⟩
  | .hbm, ⟨36, _⟩ => ⟨S5000000x1, .i32⟩
  | .hbm, ⟨37, _⟩ => ⟨S5000000x16, .f32⟩
  | .hbm, ⟨38, _⟩ => ⟨S_, .f32⟩
  | .hbm, ⟨39, _⟩ => ⟨S200000x16, .f32⟩
  | .hbm, ⟨40, _⟩ => ⟨S5000000x1, .i32⟩
  | .hbm, ⟨41, _⟩ => ⟨S200000x16, .f32⟩
  | .hbm, ⟨42, _⟩ => ⟨S1x16x16, .f32⟩
  | .hbm, ⟨43, _⟩ => ⟨S16x16, .f32⟩
  | .hbm, ⟨44, _⟩ => ⟨S1x16, .f32⟩
  | .hbm, ⟨45, _⟩ => ⟨S16, .f32⟩
  | .hbm, ⟨46, _⟩ => ⟨S1x16x16, .f32⟩
  | .hbm, ⟨47, _⟩ => ⟨S16x16, .f32⟩
  | .hbm, ⟨48, _⟩ => ⟨S1x16, .f32⟩
  | .hbm, ⟨49, _⟩ => ⟨S200000x16, .bf16⟩
  | .hbm, ⟨50, _⟩ => ⟨S_, .i32⟩
  | .hbm, ⟨51, _⟩ => ⟨S5000000, .i32⟩
  | .hbm, ⟨52, _⟩ => ⟨S5000000, .i1⟩
  | .hbm, ⟨53, _⟩ => ⟨S_, .i32⟩
  | .hbm, ⟨54, _⟩ => ⟨S5000000, .i32⟩
  | .hbm, ⟨55, _⟩ => ⟨S5000000, .i32⟩
  | .hbm, ⟨56, _⟩ => ⟨S5000000, .i32⟩
  | .hbm, ⟨57, _⟩ => ⟨S5000000x1, .i32⟩
  | .hbm, ⟨58, _⟩ => ⟨S5000000x16, .bf16⟩
  | .hbm, ⟨59, _⟩ => ⟨S5000000x16, .f32⟩
  | .hbm, ⟨60, _⟩ => ⟨S_, .f32⟩
  | .hbm, ⟨61, _⟩ => ⟨S200000x16, .f32⟩
  | .hbm, ⟨62, _⟩ => ⟨S5000000x1, .i32⟩
  | .hbm, ⟨63, _⟩ => ⟨S200000x16, .f32⟩
  | .hbm, ⟨64, _⟩ => ⟨S1x16x16, .f32⟩
  | .hbm, ⟨65, _⟩ => ⟨S16x16, .f32⟩
  | .hbm, ⟨66, _⟩ => ⟨S1x16, .f32⟩
  | .hbm, ⟨67, _⟩ => ⟨S16, .f32⟩
  | .hbm, ⟨68, _⟩ => ⟨S1x16x16, .f32⟩
  | .hbm, ⟨69, _⟩ => ⟨S16x16, .f32⟩
  | .hbm, ⟨70, _⟩ => ⟨S1x16, .f32⟩
  | .hbm, ⟨71, _⟩ => ⟨S1x16, .f32⟩
  | .hbm, ⟨72, _⟩ => ⟨S200000x16, .bf16⟩
  | .hbm, ⟨73, _⟩ => ⟨S_, .i32⟩
  | .hbm, ⟨74, _⟩ => ⟨S5000000, .i32⟩
  | .hbm, ⟨75, _⟩ => ⟨S5000000, .i1⟩
  | .hbm, ⟨76, _⟩ => ⟨S_, .i32⟩
  | .hbm, ⟨77, _⟩ => ⟨S5000000, .i32⟩
  | .hbm, ⟨78, _⟩ => ⟨S5000000, .i32⟩
  | .hbm, ⟨79, _⟩ => ⟨S5000000, .i32⟩
  | .hbm, ⟨80, _⟩ => ⟨S5000000x1, .i32⟩
  | .hbm, ⟨81, _⟩ => ⟨S5000000x16, .bf16⟩
  | .hbm, ⟨82, _⟩ => ⟨S5000000x16, .f32⟩
  | .hbm, ⟨83, _⟩ => ⟨S_, .f32⟩
  | .hbm, ⟨84, _⟩ => ⟨S200000x16, .f32⟩
  | .hbm, ⟨85, _⟩ => ⟨S5000000x1, .i32⟩
  | .hbm, ⟨86, _⟩ => ⟨S200000x16, .f32⟩
  | .hbm, ⟨87, _⟩ => ⟨S1x16x16, .f32⟩
  | .hbm, ⟨88, _⟩ => ⟨S16x16, .f32⟩
  | .hbm, ⟨89, _⟩ => ⟨S1x16, .f32⟩
  | .hbm, ⟨90, _⟩ => ⟨S16, .f32⟩
  | .hbm, ⟨91, _⟩ => ⟨S1x16x16, .f32⟩
  | .hbm, ⟨92, _⟩ => ⟨S16x16, .f32⟩
  | .hbm, ⟨93, _⟩ => ⟨S1x16, .f32⟩
  | .hbm, ⟨94, _⟩ => ⟨S200000x16, .bf16⟩
  | .hbm, ⟨95, _⟩ => ⟨S_, .i32⟩
  | .hbm, ⟨96, _⟩ => ⟨S5000000, .i32⟩
  | .hbm, ⟨97, _⟩ => ⟨S5000000, .i1⟩
  | .hbm, ⟨98, _⟩ => ⟨S_, .i32⟩
  | .hbm, ⟨99, _⟩ => ⟨S5000000, .i32⟩
  | .hbm, ⟨100, _⟩ => ⟨S5000000, .i32⟩
  | .hbm, ⟨101, _⟩ => ⟨S5000000, .i32⟩
  | .hbm, ⟨102, _⟩ => ⟨S5000000x1, .i32⟩
  | .hbm, ⟨103, _⟩ => ⟨S5000000x16, .bf16⟩
  | .hbm, ⟨104, _⟩ => ⟨S5000000x16, .f32⟩
  | .hbm, ⟨105, _⟩ => ⟨S_, .f32⟩
  | .hbm, ⟨106, _⟩ => ⟨S200000x16, .f32⟩
  | .hbm, ⟨107, _⟩ => ⟨S5000000x1, .i32⟩
  | .hbm, ⟨108, _⟩ => ⟨S200000x16, .f32⟩
  | .hbm, ⟨109, _⟩ => ⟨S1x16x16, .f32⟩
  | .hbm, ⟨110, _⟩ => ⟨S16x16, .f32⟩
  | .hbm, ⟨111, _⟩ => ⟨S1x16, .f32⟩
  | .hbm, ⟨112, _⟩ => ⟨S16, .f32⟩
  | .hbm, ⟨113, _⟩ => ⟨S1x16x16, .f32⟩
  | .hbm, ⟨114, _⟩ => ⟨S16x16, .f32⟩
  | .hbm, ⟨115, _⟩ => ⟨S1x16, .f32⟩
  | .hbm, ⟨116, _⟩ => ⟨S1x8, .f32⟩
  | .hbm, ⟨117, _⟩ => ⟨S200000x8, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S5000x1, .f32⟩
  | .local _ .vmem, ⟨5, _⟩ => ⟨S5000x1, .f32⟩
  | .local _ .vmem, ⟨6, _⟩ => ⟨S16x16, .f32⟩
  | .local _ .vmem, ⟨7, _⟩ => ⟨S1x16, .f32⟩
  | .local _ .vmem, ⟨8, _⟩ => ⟨S16x16, .f32⟩
  | .local _ .vmem, ⟨9, _⟩ => ⟨S5000x16, .bf16⟩
  | .local _ .vmem, ⟨10, _⟩ => ⟨S5000x16, .bf16⟩
  | .local _ .vmem, ⟨11, _⟩ => ⟨S5000x16, .f32⟩
  | .local _ .vmem, ⟨12, _⟩ => ⟨S5000x16, .f32⟩
  | .local _ .vmem, ⟨13, _⟩ => ⟨S5000x16, .bf16⟩
  | .local _ .vmem, ⟨14, _⟩ => ⟨S5000x16, .bf16⟩
  | .local _ .vmem, ⟨15, _⟩ => ⟨S5000x1, .f32⟩
  | .local _ .vmem, ⟨16, _⟩ => ⟨S5000x1, .f32⟩
  | .local _ .vmem, ⟨17, _⟩ => ⟨S16x16, .f32⟩
  | .local _ .vmem, ⟨18, _⟩ => ⟨S1x16, .f32⟩
  | .local _ .vmem, ⟨19, _⟩ => ⟨S16x16, .f32⟩
  | .local _ .vmem, ⟨20, _⟩ => ⟨S16x16, .f32⟩
  | .local _ .vmem, ⟨21, _⟩ => ⟨S1x16, .f32⟩
  | .local _ .vmem, ⟨22, _⟩ => ⟨S5000x16, .bf16⟩
  | .local _ .vmem, ⟨23, _⟩ => ⟨S5000x16, .bf16⟩
  | .local _ .vmem, ⟨24, _⟩ => ⟨S5000x16, .f32⟩
  | .local _ .vmem, ⟨25, _⟩ => ⟨S5000x16, .f32⟩
  | .local _ .vmem, ⟨26, _⟩ => ⟨S5000x16, .bf16⟩
  | .local _ .vmem, ⟨27, _⟩ => ⟨S5000x16, .bf16⟩
  | .local _ .vmem, ⟨28, _⟩ => ⟨S5000x1, .f32⟩
  | .local _ .vmem, ⟨29, _⟩ => ⟨S5000x1, .f32⟩
  | .local _ .vmem, ⟨30, _⟩ => ⟨S16x16, .f32⟩
  | .local _ .vmem, ⟨31, _⟩ => ⟨S1x16, .f32⟩
  | .local _ .vmem, ⟨32, _⟩ => ⟨S16x16, .f32⟩
  | .local _ .vmem, ⟨33, _⟩ => ⟨S5000x16, .bf16⟩
  | .local _ .vmem, ⟨34, _⟩ => ⟨S5000x16, .bf16⟩
  | .local _ .vmem, ⟨35, _⟩ => ⟨S5000x16, .f32⟩
  | .local _ .vmem, ⟨36, _⟩ => ⟨S5000x16, .f32⟩
  | .local _ .vmem, ⟨37, _⟩ => ⟨S5000x16, .bf16⟩
  | .local _ .vmem, ⟨38, _⟩ => ⟨S5000x16, .bf16⟩
  | .local _ .vmem, ⟨39, _⟩ => ⟨S5000x1, .f32⟩
  | .local _ .vmem, ⟨40, _⟩ => ⟨S5000x1, .f32⟩
  | .local _ .vmem, ⟨41, _⟩ => ⟨S16x16, .f32⟩
  | .local _ .vmem, ⟨42, _⟩ => ⟨S1x16, .f32⟩
  | .local _ .vmem, ⟨43, _⟩ => ⟨S16x16, .f32⟩
  | .local _ .vmem, ⟨44, _⟩ => ⟨S8x8, .f32⟩
  | .local _ .vmem, ⟨45, _⟩ => ⟨S1x8, .f32⟩
  | .local _ .vmem, ⟨46, _⟩ => ⟨S5000x8, .f32⟩
  | .local _ .vmem, ⟨47, _⟩ => ⟨S5000x8, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_11 : Ref sig .tc := ⟨.hbm, 95, rfl⟩
abbrev main_v70 : Ref sig .tc := ⟨.hbm, 96, rfl⟩
abbrev main_v71 : Ref sig .tc := ⟨.hbm, 97, rfl⟩
abbrev main_c_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x16 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x16 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x8 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S5000000 : S_.BroadcastsInDim S5000000 (![] : Fin 0 → Fin S5000000.rank)
  bcast_S_S200000 : S_.BroadcastsInDim S200000 (![] : Fin 0 → Fin S200000.rank)
  bcast_S5000000_S5000000x1_0 : S5000000.BroadcastsInDim S5000000x1 (![0] : Fin 1 → Fin S5000000x1.rank)
  shapeCasts_S200000_S200000x1 : S200000.ShapeCasts S200000x1
  bcast_S_S200000x16 : S_.BroadcastsInDim S200000x16 (![] : Fin 0 → Fin S200000x16.rank)
  slices_S2x16x16_S1x16x16_0_0_0 : S2x16x16.Slices ![0, 0, 0] S1x16x16
  shapeCasts_S1x16x16_S16x16 : S1x16x16.ShapeCasts S16x16
  slices_S2x16_S1x16_0_0 : S2x16.Slices ![0, 0] S1x16
  shapeCasts_S1x16_S16 : S1x16.ShapeCasts S16
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  transposes_S16x16_p1_0_S16x16 : S16x16.Transposes [1, 0] S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  packedbf16_S5000x16_S5000x16_0_0 : (Rect.unit (s := S5000x16) ![0, 0] S5000x16.size inb_S5000x16_S5000x16_0_0).PackedRows (EltTy.packing .bf16)
  slices_S2x16x16_S1x16x16_1_0_0 : S2x16x16.Slices ![1, 0, 0] S1x16x16
  slices_S2x16_S1x16_1_0 : S2x16.Slices ![1, 0] S1x16
  shapeCasts_S8_S1x8 : S8.ShapeCasts S1x8
  slices_S5000x16_o0_0_S5000x8 : S5000x16.Slices ![0, 0] S5000x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S200000_S5000000x1_S5000000_n_0_0_1_wf : ScatterDims.WF S200000 S5000000x1 S5000000 [] [0] [0] 1
  gather_S200000x16_S5000000x1_S5000000x16_1_0_n_n_0_1_116_wf : GatherDims.WF S200000x16 S5000000x1 S5000000x16 [1] [0] [] [0] [] 1 ![1, 16]
  scatter_S200000x16_S5000000x1_S5000000x16_1_0_0_1_wf : ScatterDims.WF S200000x16 S5000000x1 S5000000x16 [1] [0] [0] 1
  dot_S5000x16_S16x16_S5000x16_1_0_0_1_n_n_wf : DotDims.WF S5000x16 S16x16 S5000x16 [1] [0] [0] [1] [] []
  dot_S5000x8_S8x8_S5000x8_1_0_0_1_n_n_wf : DotDims.WF S5000x8 S8x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S200000x16.size a
  hwx0_0 : ∀ i : grid0.Coords, EltTy.bits .f32 = 32 ∨ (Rect.block (s := S200000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S200000x16.size a
  hwx0_1 : ∀ i : grid0.Coords, EltTy.bits .f32 = 32 ∨ (Rect.block (s := S200000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S200000x1.size a
  hwx0_2 : ∀ i : grid0.Coords, EltTy.bits .f32 = 32 ∨ (Rect.block (s := S200000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S200000x16.size a
  hwx0_6 : ∀ i : grid0.Coords, EltTy.bits .bf16 = 32 ∨ (Rect.block (s := S200000x16) S5000x16.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S200000x16.size a
  hwx1_1 : ∀ i : grid1.Coords, EltTy.bits .bf16 = 32 ∨ (Rect.block (s := S200000x16) S5000x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x16.size a ≤ S16x16.size a
  hwx1_6 : ∀ i : grid1.Coords, EltTy.bits .f32 = 32 ∨ (Rect.block (s := S16x16) S16x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x16.size a ≤ S200000x16.size a
  hwx1_8 : ∀ i : grid1.Coords, EltTy.bits .bf16 = 32 ∨ (Rect.block (s := S200000x16) S5000x16.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S200000x16.size a
  hwx2_0 : ∀ i : grid2.Coords, EltTy.bits .f32 = 32 ∨ (Rect.block (s := S200000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S200000x16.size a
  hwx2_1 : ∀ i : grid2.Coords, EltTy.bits .bf16 = 32 ∨ (Rect.block (s := S200000x16) S5000x16.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S200000x1.size a
  hwx2_2 : ∀ i : grid2.Coords, EltTy.bits .f32 = 32 ∨ (Rect.block (s := S200000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x16.size a ≤ S16x16.size a
  hwx2_5 : ∀ i : grid2.Coords, EltTy.bits .f32 = 32 ∨ (Rect.block (s := S16x16) S16x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S200000x16.size a
  hwx2_6 : ∀ i : grid2.Coords, EltTy.bits .bf16 = 32 ∨ (Rect.block (s := S200000x16) S5000x16.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S200000x16.size a
  hwx3_0 : ∀ i : grid3.Coords, EltTy.bits .f32 = 32 ∨ (Rect.block (s := S200000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S200000x16.size a
  hwx3_1 : ∀ i : grid3.Coords, EltTy.bits .bf16 = 32 ∨ (Rect.block (s := S200000x16) S5000x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S200000x1.size a
  hwx3_2 : ∀ i : grid3.Coords, EltTy.bits .f32 = 32 ∨ (Rect.block (s := S200000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x16.size a ≤ S16x16.size a
  hwx3_5 : ∀ i : grid3.Coords, EltTy.bits .f32 = 32 ∨ (Rect.block (s := S16x16) S16x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S8x8.size a ≤ S8x8.size a
  hwx3_6 : ∀ i : grid3.Coords, EltTy.bits .f32 = 32 ∨ (Rect.block (s := S8x8) S8x8.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x8.size a ≤ S1x8.size a
  hwx3_7 : ∀ i : grid3.Coords, EltTy.bits .f32 = 32 ∨ (Rect.block (s := S1x8) S1x8.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x8.size a ≤ S200000x8.size a
  hwx3_8 : ∀ i : grid3.Coords, EltTy.bits .f32 = 32 ∨ (Rect.block (s := S200000x8) S5000x8.size (cc3_transform_8 i) (hinb3_8 i)).WholeWords (EltTy.packing .f32)

variable [Facts₀]

def scatter_S200000_S5000000x1_S5000000_n_0_0_1 : ScatterDims S200000 S5000000x1 S5000000 where
  updateWindowDims := []
  insertedWindowDims := [0]
  scatterDimsToOperandDims := [0]
  indexVectorDim := 1
  wf := scatter_S200000_S5000000x1_S5000000_n_0_0_1_wf
def gather_S200000x16_S5000000x1_S5000000x16_1_0_n_n_0_1_116 : GatherDims S200000x16 S5000000x1 S5000000x16 where
  offsetDims := [1]
  collapsedSliceDims := [0]
  operandBatchingDims := []
  startIndicesBatchingDims := []
  startIndexMap := [0]
  indexVectorDim := 1
  sliceSizes := ![1, 16]
  wf := gather_S200000x16_S5000000x1_S5000000x16_1_0_n_n_0_1_116_wf
def scatter_S200000x16_S5000000x1_S5000000x16_1_0_0_1 : ScatterDims S200000x16 S5000000x1 S5000000x16 where
  updateWindowDims := [1]
  insertedWindowDims := [0]
  scatterDimsToOperandDims := [0]
  indexVectorDim := 1
  wf := scatter_S200000x16_S5000000x1_S5000000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x8_S8x8_S5000x8_1_0_0_1_n_n : DotDims S5000x8 S8x8 S5000x8 where
  lhsContracting := [1]
  rhsContracting := [0]
  lhsNonContracting := [0]
  rhsNonContracting := [1]
  lhsBatch := []
  rhsBatch := []
  wf := dot_S5000x8_S8x8_S5000x8_1_0_0_1_n_n_wf

abbrev win0_0 : Pipeline.Window sig grid0 :=
  Pipeline.Window.ofSpec (Memref.whole main_v22) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S16x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S5000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v61) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S16x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S5000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v80) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S16x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg10) S8x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v88) S1x8.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v89) S5000x8.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S200000x16 : Shape := ⟨2, ![200000, 16]⟩
abbrev S2x5000000 : Shape := ⟨2, ![2, 5000000]⟩
abbrev S2x16x16 : Shape := ⟨3, ![2, 16, 16]⟩
abbrev S2x16 : Shape := ⟨2, ![2, 16]⟩
abbrev S16x16 : Shape := ⟨2, ![16, 16]⟩
abbrev S16 : Shape := ⟨1, ![16]⟩
abbrev S8x8 : Shape := ⟨2, ![8, 8]⟩
abbrev S8 : Shape := ⟨1, ![8]⟩
abbrev S1x5000000 : Shape := ⟨2, ![1, 5000000]⟩
abbrev S5000000 : Shape := ⟨1, ![5000000]⟩
abbrev S1x16x16 : Shape := ⟨3, ![1, 16, 16]⟩
abbrev S1x16 : Shape := ⟨2, ![1, 16]⟩
abbrev S_ : Shape := ⟨0, ![]⟩
abbrev S5000000x1 : Shape := ⟨2, ![5000000, 1]⟩
abbrev S5000000x16 : Shape := ⟨2, ![5000000, 16]⟩
abbrev S200000 : Shape := ⟨1, ![200000]⟩
abbrev S200000x1 : Shape := ⟨2, ![200000, 1]⟩
abbrev S200000x8 : Shape := ⟨2, ![200000, 8]⟩
abbrev S1x8 : Shape := ⟨2, ![1, 8]⟩

abbrev nBuf : Space → Nat
  | .hbm => 215
  | .vmem => 0
  | .smem => 0
  | _ => 0

abbrev hbmTy0_0 (i : Nat) : BufTy := match i % 128 with
  | 0 => ⟨S200000x16, .f32⟩
  | 1 => ⟨S2x5000000, .i32⟩
  | 2 => ⟨S2x16x16, .f32⟩
  | 3 => ⟨S2x16, .f32⟩
  | 4 => ⟨S2x16x16, .f32⟩
  | 5 => ⟨S2x16x16, .f32⟩
  | 6 => ⟨S2x16, .f32⟩
  | 7 => ⟨S2x16x16, .f32⟩
  | 8 => ⟨S16x16, .f32⟩
  | 9 => ⟨S16, .f32⟩
  | 10 => ⟨S8x8, .f32⟩
  | 11 => ⟨S8, .f32⟩
  | 12 => ⟨S1x5000000, .i32⟩
  | 13 => ⟨S5000000, .i32⟩
  | 14 => ⟨S1x5000000, .i32⟩
  | 15 => ⟨S5000000, .i32⟩
  | 16 => ⟨S1x16x16, .f32⟩
  | 17 => ⟨S16x16, .f32⟩
  | 18 => ⟨S1x16, .f32⟩
  | 19 => ⟨S16, .f32⟩
  | 20 => ⟨S1x16x16, .f32⟩
  | 21 => ⟨S16x16, .f32⟩
  | 22 => ⟨S_, .i32⟩
  | 23 => ⟨S5000000, .i32⟩
  | 24 => ⟨S5000000, .i1⟩
  | 25 => ⟨S_, .i32⟩
  | 26 => ⟨S5000000, .i32⟩
  | 27 => ⟨S5000000, .i32⟩
  | 28 => ⟨S5000000, .i32⟩
  | 29 => ⟨S5000000x1, .i32⟩
  | 30 => ⟨S5000000x16, .f32⟩
  | 31 => ⟨S_, .f32⟩
  | 32 => ⟨S200000x16, .f32⟩
  | 33 => ⟨S5000000x1, .i32⟩
  | 34 => ⟨S200000x16, .f32⟩
  | 35 => ⟨S_, .f32⟩
  | 36 => ⟨S5000000, .f32⟩
  | 37 => ⟨S_, .f32⟩
  | 38 => ⟨S200000, .f32⟩
  | 39 => ⟨S5000000x1, .i32⟩
  | 40 => ⟨S200000, .f32⟩
  | 41 => ⟨S_, .f32⟩
  | 42 => ⟨S200000, .f32⟩
  | 43 => ⟨S200000, .f32⟩
  | 44 => ⟨S200000x1, .f32⟩
  | 45 => ⟨S200000x16, .f32⟩
  | 46 => ⟨S200000x16, .f32⟩
  | 47 => ⟨S16x16, .f32⟩
  | 48 => ⟨S200000x16, .f32⟩
  | 49 => ⟨S1x16, .f32⟩
  | 50 => ⟨S200000x16, .f32⟩
  | 51 => ⟨S200000x16, .f32⟩
  | 52 => ⟨S16x16, .f32⟩
  | 53 => ⟨S200000x16, .f32⟩
  | 54 => ⟨S200000x16, .f32⟩
  | 55 => ⟨S_, .f32⟩
  | 56 => ⟨S200000x16, .f32⟩
  | 57 => ⟨S200000x16, .f32⟩
  | 58 => ⟨S1x16x16, .f32⟩
  | 59 => ⟨S16x16, .f32⟩
  | 60 => ⟨S1x16, .f32⟩
  | 61 => ⟨S16, .f32⟩
  | 62 => ⟨S1x16x16, .f32⟩
  | 63 => ⟨S16x16, .f32⟩
  | 64 => ⟨S_, .i32⟩
  | 65 => ⟨S5000000, .i32⟩
  | 66 => ⟨S5000000, .i1⟩
  | 67 => ⟨S_, .i32⟩
  | 68 => ⟨S5000000, .i32⟩
  | 69 => ⟨S5000000, .i32⟩
  | 70 => ⟨S5000000, .i32⟩
  | 71 => ⟨S5000000x1, .i32⟩
  | 72 => ⟨S5000000x16, .f32⟩
  | 73 => ⟨S_, .f32⟩
  | 74 => ⟨S200000x16, .f32⟩
  | 75 => ⟨S5000000x1, .i32⟩
  | 76 => ⟨S200000x16, .f32⟩
  | 77 => ⟨S_, .f32⟩
  | 78 => ⟨S5000000, .f32⟩
  | 79 => ⟨S_, .f32⟩
  | 80 => ⟨S200000, .f32⟩
  | 81 => ⟨S5000000x1, .i32⟩
  | 82 => ⟨S200000, .f32⟩
  | 83 => ⟨S_, .f32⟩
  | 84 => ⟨S200000, .f32⟩
  | 85 => ⟨S200000, .f32⟩
  | 86 => ⟨S200000x1, .f32⟩
  | 87 => ⟨S200000x16, .f32⟩
  | 88 => ⟨S200000x16, .f32⟩
  | 89 => ⟨S16x16, .f32⟩
  | 90 => ⟨S200000x16, .f32⟩
  | 91 => ⟨S1x16, .f32⟩
  | 92 => ⟨S200000x16, .f32⟩
  | 93 => ⟨S200000x16, .f32⟩
  | 94 => ⟨S16x16, .f32⟩
  | 95 => ⟨S200000x16, .f32⟩
  | 96 => ⟨S200000x16, .f32⟩
  | 97 => ⟨S_, .f32⟩
  | 98 => ⟨S200000x16, .f32⟩
  | 99 => ⟨S200000x16, .f32⟩
  | 100 => ⟨S16x16, .f32⟩
  | 101 => ⟨S200000x16, .f32⟩
  | 102 => ⟨S1x16, .f32⟩
  | 103 => ⟨S200000x16, .f32⟩
  | 104 => ⟨S200000x16, .f32⟩
  | 105 => ⟨S_, .f32⟩
  | 106 => ⟨S200000x16, .f32⟩
  | 107 => ⟨S200000x16, .f32⟩
  | 108 => ⟨S1x16x16, .f32⟩
  | 109 => ⟨S16x16, .f32⟩
  | 110 => ⟨S1x16, .f32⟩
  | 111 => ⟨S16, .f32⟩
  | 112 => ⟨S1x16x16, .f32⟩
  | 113 => ⟨S16x16, .f32⟩
  | 114 => ⟨S_, .i32⟩
  | 115 => ⟨S5000000, .i32⟩
  | 116 => ⟨S5000000, .i1⟩
  | 117 => ⟨S_, .i32⟩
  | 118 => ⟨S5000000, .i32⟩
  | 119 => ⟨S5000000, .i32⟩
  | 120 => ⟨S5000000, .i32⟩
  | 121 => ⟨S5000000x1, .i32⟩
  | 122 => ⟨S5000000x16, .f32⟩
  | 123 => ⟨S_, .f32⟩
  | 124 => ⟨S200000x16, .f32⟩
  | 125 => ⟨S5000000x1, .i32⟩
  | 126 => ⟨S200000x16, .f32⟩
  | 127 => ⟨S_, .f32⟩
  | _ => ⟨S200000x16, .f32⟩

abbrev hbmTy0_1 (i : Nat) : BufTy := match i % 128 with
  | 0 => ⟨S5000000, .f32⟩
  | 1 => ⟨S_, .f32⟩
  | 2 => ⟨S200000, .f32⟩
  | 3 => ⟨S5000000x1, .i32⟩
  | 4 => ⟨S200000, .f32⟩
  | 5 => ⟨S_, .f32⟩
  | 6 => ⟨S200000, .f32⟩
  | 7 => ⟨S200000, .f32⟩
  | 8 => ⟨S200000x1, .f32⟩
  | 9 => ⟨S200000x16, .f32⟩
  | 10 => ⟨S200000x16, .f32⟩
  | 11 => ⟨S16x16, .f32⟩
  | 12 => ⟨S200000x16, .f32⟩
  | 13 => ⟨S1x16, .f32⟩
  | 14 => ⟨S200000x16, .f32⟩
  | 15 => ⟨S200000x16, .f32⟩
  | 16 => ⟨S16x16, .f32⟩
  | 17 => ⟨S200000x16, .f32⟩
  | 18 => ⟨S200000x16, .f32⟩
  | 19 => ⟨S_, .f32⟩
  | 20 => ⟨S200000x16, .f32⟩
  | 21 => ⟨S200000x16, .f32⟩
  | 22 => ⟨S1x16x16, .f32⟩
  | 23 => ⟨S16x16, .f32⟩
  | 24 => ⟨S1x16, .f32⟩
  | 25 => ⟨S16, .f32⟩
  | 26 => ⟨S1x16x16, .f32⟩
  | 27 => ⟨S16x16, .f32⟩
  | 28 => ⟨S_, .i32⟩
  | 29 => ⟨S5000000, .i32⟩
  | 30 => ⟨S5000000, .i1⟩
  | 31 => ⟨S_, .i32⟩
  | 32 => ⟨S5000000, .i32⟩
  | 33 => ⟨S5000000, .i32⟩
  | 34 => ⟨S5000000, .i32⟩
  | 35 => ⟨S5000000x1, .i32⟩
  | 36 => ⟨S5000000x16, .f32⟩
  | 37 => ⟨S_, .f32⟩
  | 38 => ⟨S200000x16, .f32⟩
  | 39 => ⟨S5000000x1, .i32⟩
  | 40 => ⟨S200000x16, .f32⟩
  | 41 => ⟨S_, .f32⟩
  | 42 => ⟨S5000000, .f32⟩
  | 43 => ⟨S_, .f32⟩
  | 44 => ⟨S200000, .f32⟩
  | 45 => ⟨S5000000x1, .i32⟩
  | 46 => ⟨S200000, .f32⟩
  | 47 => ⟨S_, .f32⟩
  | 48 => ⟨S200000, .f32⟩
  | 49 => ⟨S200000, .f32⟩
  | 50 => ⟨S200000x1, .f32⟩
  | 51 => ⟨S200000x16, .f32⟩
  | 52 => ⟨S200000x16, .f32⟩
  | 53 => ⟨S16x16, .f32⟩
  | 54 => ⟨S200000x16, .f32⟩
  | 55 => ⟨S1x16, .f32⟩
  | 56 => ⟨S200000x16, .f32⟩
  | 57 => ⟨S200000x16, .f32⟩
  | 58 => ⟨S16x16, .f32⟩
  | 59 => ⟨S200000x16, .f32⟩
  | 60 => ⟨S200000x16, .f32⟩
  | 61 => ⟨S_, .f32⟩
  | 62 => ⟨S200000x16, .f32⟩
  | 63 => ⟨S200000x16, .f32⟩
  | 64 => ⟨S200000x8, .f32⟩
  | 65 => ⟨S8x8, .f32⟩
  | 66 => ⟨S200000x8, .f32⟩
  | 67 => ⟨S1x8, .f32⟩
  | 68 => ⟨S200000x8, .f32⟩
  | 69 => ⟨S200000x8, .f32⟩
  | 70 => ⟨S_, .f32⟩
  | 71 => ⟨S200000x8, .f32⟩
  | 72 => ⟨S200000x8, .f32⟩
  | 73 => ⟨S_, .f32⟩
  | 74 => ⟨S200000, .f32⟩
  | 75 => ⟨S_, .f32⟩
  | 76 => ⟨S200000, .f32⟩
  | 77 => ⟨S200000, .f32⟩
  | 78 => ⟨S200000x1, .f32⟩
  | 79 => ⟨S200000x8, .f32⟩
  | 80 => ⟨S200000x8, .f32⟩
  | 81 => ⟨S200000x8, .f32⟩
  | 82 => ⟨S_, .f32⟩
  | 83 => ⟨S200000, .f32⟩
  | 84 => ⟨S200000x1, .f32⟩
  | 85 => ⟨S200000x8, .f32⟩
  | 86 => ⟨S200000x8, .f32⟩
  | _ => ⟨S200000x16, .f32⟩

abbrev hbmTy (i : Nat) : BufTy := match i / 128 with
  | 0 => hbmTy0_0 i
  | 1 => hbmTy0_1 i
  | _ => ⟨S200000x16, .f32⟩

abbrev bufTy : (tb : Table) → Fin (tcTables nBuf tb) → BufTy
  | .hbm, ⟨i, _⟩ => hbmTy i
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_4 : Ref sig .tc := ⟨.hbm, 64, rfl⟩
abbrev main_v44 : Ref sig .tc := ⟨.hbm, 65, rfl⟩
abbrev main_v45 : Ref sig .tc := ⟨.hbm, 66, rfl⟩
abbrev main_c_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call2_cst : Ref sig .tc := ⟨.hbm, 105, rfl⟩
abbrev main_call2_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_10 : Ref sig .tc := ⟨.hbm, 114, rfl⟩
abbrev main_v84 : Ref sig .tc := ⟨.hbm, 115, rfl⟩
abbrev main_v85 : Ref sig .tc := ⟨.hbm, 116, rfl⟩
abbrev main_c_11 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_12 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_13 : Ref sig .tc := ⟨.hbm, 127, rfl⟩
abbrev main_v94 : Ref sig .tc := ⟨.hbm, 128, rfl⟩
abbrev main_cst_14 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_15 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call3_cst : Ref sig .tc := ⟨.hbm, 147, rfl⟩
abbrev main_call3_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_c_16 : Ref sig .tc := ⟨.hbm, 156, rfl⟩
abbrev main_v118 : Ref sig .tc := ⟨.hbm, 157, rfl⟩
abbrev main_v119 : Ref sig .tc := ⟨.hbm, 158, rfl⟩
abbrev main_c_17 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_18 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_19 : Ref sig .tc := ⟨.hbm, 169, rfl⟩
abbrev main_v128 : Ref sig .tc := ⟨.hbm, 170, rfl⟩
abbrev main_cst_20 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_21 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_call4_cst : Ref sig .tc := ⟨.hbm, 189, rfl⟩
abbrev main_call4_v0 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_call5_cst : Ref sig .tc := ⟨.hbm, 198, rfl⟩
abbrev main_call5_v0 : Ref sig .tc := ⟨.hbm, 199, rfl⟩
abbrev main_v152 : Ref sig .tc := ⟨.hbm, 200, rfl⟩
abbrev main_cst_22 : Ref sig .tc := ⟨.hbm, 201, rfl⟩
abbrev main_v153 : Ref sig .tc := ⟨.hbm, 202, rfl⟩
abbrev main_cst_23 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_24 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  slices_S2x16x16_S1x16x16_0_0_0 : S2x16x16.Slices ![0, 0, 0] S1x16x16
  shapeCasts_S1x16x16_S16x16 : S1x16x16.ShapeCasts S16x16
  slices_S2x16_S1x16_0_0 : S2x16.Slices ![0, 0] S1x16
  shapeCasts_S1x16_S16 : S1x16.ShapeCasts S16
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S200000x16 : S_.BroadcastsInDim S200000x16 (![] : Fin 0 → Fin S200000x16.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  transposes_S16x16_S16x16_1_0 : S16x16.Transposes [1, 0] S16x16
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  slices_S2x16x16_S1x16x16_1_0_0 : S2x16x16.Slices ![1, 0, 0] S1x16x16
  slices_S2x16_S1x16_1_0 : S2x16.Slices ![1, 0] S1x16
  slices_S200000x16_S200000x8_0_0 : S200000x16.Slices ![0, 0] S200000x8
  transposes_S8x8_S8x8_1_0 : S8x8.Transposes [1, 0] S8x8
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S_S200000x8 : S_.BroadcastsInDim S200000x8 (![] : Fin 0 → Fin S200000x8.rank)
  reducesTo_S200000x8_S200000_d1 : S200000x8.ReducesTo [1] S200000
  h_S_ : 0 < S_.numel
  bcast_S200000x1_S200000x8_0_1 : S200000x1.BroadcastsInDim S200000x8 (![0, 1] : Fin 2 → Fin S200000x8.rank)
  gather_S200000x16_S5000000x1_S5000000x16_1_0_n_n_0_1_116_wf : GatherDims.WF S200000x16 S5000000x1 S5000000x16 [1] [0] [] [0] [] 1 ![1, 16]
  scatter_S200000x16_S5000000x1_S5000000x16_1_0_0_1_wf : ScatterDims.WF S200000x16 S5000000x1 S5000000x16 [1] [0] [0] 1
  scatter_S200000_S5000000x1_S5000000_n_0_0_1_wf : ScatterDims.WF S200000 S5000000x1 S5000000 [] [0] [0] 1
  dot_S200000x16_S16x16_S200000x16_1_0_0_1_n_n_wf : DotDims.WF S200000x16 S16x16 S200000x16 [1] [0] [0] [1] [] []
  dot_S200000x8_S8x8_S200000x8_1_0_0_1_n_n_wf : DotDims.WF S200000x8 S8x8 S200000x8 [1] [0] [0] [1] [] []

variable [Facts₀]

def gather_S200000x16_S5000000x1_S5000000x16_1_0_n_n_0_1_116 : GatherDims S200000x16 S5000000x1 S5000000x16 where
  offsetDims := [1]
  collapsedSliceDims := [0]
  operandBatchingDims := []
  startIndicesBatchingDims := []
  startIndexMap := [0]
  indexVectorDim := 1
  sliceSizes := ![1, 16]
  wf := gather_S200000x16_S5000000x1_S5000000x16_1_0_n_n_0_1_116_wf
def scatter_S200000x16_S5000000x1_S5000000x16_1_0_0_1 : ScatterDims S200000x16 S5000000x1 S5000000x16 where
  updateWindowDims := [1]
  insertedWindowDims := [0]
  scatterDimsToOperandDims := [0]
  indexVectorDim := 1
  wf := scatter_S200000x16_S5000000x1_S5000000x16_1_0_0_1_wf
def scatter_S200000_S5000000x1_S5000000_n_0_0_1 : ScatterDims S200000 S5000000x1 S5000000 where
  updateWindowDims := []
  insertedWindowDims := [0]
  scatterDimsToOperandDims := [0]
  indexVectorDim := 1
  wf := scatter_S200000_S5000000x1_S5000000_n_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x8_S8x8_S200000x8_1_0_0_1_n_n : DotDims S200000x8 S8x8 S200000x8 where
  lhsContracting := [1]
  rhsContracting := [0]
  lhsNonContracting := [0]
  rhsNonContracting := [1]
  lhsBatch := []
  rhsBatch := []
  wf := dot_S200000x8_S8x8_S200000x8_1_0_0_1_n_n_wf

class Facts : Prop extends Facts₀ where

variable [Facts]
-- ==== Proof.Spec.lean ====
/-
  The network both programs compute, as functions on the extended reals, and the one law on which they differ.

  A node's new features in one layer are  relu(μ·Wlᵀ + b + x·Wrᵀ): μ the mean of the node's in-neighbours' features
  (their sum divided by max(in-degree, 1)), x the node's own features, Wl and Wr 16×16 (output feature, input feature).
  The second layer of the first stack is followed by a dense 16→16 layer with relu; the second layer of the second
  stack by a restriction to the first 8 features, a dense 8→8 layer with relu, and a softmax over the 8 features.
  Every function here works on one node's row at a time; the array forms read row `i 0` and output feature `i 1`.

  The two programs form the mean differently: one multiplies the neighbour sum by the reciprocal 1 / max(deg, 1), the
  other divides by max(deg, 1). On the extended reals a quotient by a NONZERO divisor is the product with its inverse
  (`Ideal.div`), so the two agree wherever the divisor is not zero — and max(deg, 1) ≥ 1.
-/
import Idealize.ShloMosaic.PureOps.Ideal
import Idealize.ShloMosaic.PureOps.Ideal.Laws
import Idealize.ShloMosaic.Lib.ValueIdx

noncomputable section

open scoped BigOperators

namespace Cert.SageNet

open Idealize.ShloMosaic Idealize.ShloMosaic.ValueIdx

/-- node features, 16 per node -/
abbrev SN16 : Shape := ⟨2, ![200000, 16]⟩
/-- node features, 8 per node -/
abbrev SN8 : Shape := ⟨2, ![200000, 8]⟩
/-- one number per node, as a column -/
abbrev SN1 : Shape := ⟨2, ![200000, 1]⟩
/-- one number per node -/
abbrev SN : Shape := ⟨1, ![200000]⟩
abbrev SW16 : Shape := ⟨2, ![16, 16]⟩
abbrev SW8 : Shape := ⟨2, ![8, 8]⟩

/-! ## One node's row -/

/-- Output feature `j` of one layer at one node: `relu(Σₖ μₖ·Wl[j,k] + b[j] + Σₖ xₖ·Wr[j,k])`. -/
def sageRow (μ x : Fin 16 → EReal) (Wl Wr : SW16.Idx → EReal) (b : Fin 16 → EReal) (j : Fin 16) : EReal :=
  max (((∑ k : Fin 16, μ k * Wl (ix2 j k)) + b j) + ∑ k : Fin 16, x k * Wr (ix2 j k)) 0

/-- Output feature `j` of a dense 16→16 layer with relu at one node. -/
def dense16Row (h : Fin 16 → EReal) (W : SW16.Idx → EReal) (b : Fin 16 → EReal) (j : Fin 16) : EReal :=
  max ((∑ k : Fin 16, h k * W (ix2 j k)) + b j) 0

/-- Output feature `j` of a dense 8→8 layer with relu at one node. -/
def dense8Row (h : Fin 8 → EReal) (W : SW8.Idx → EReal) (b : Fin 8 → EReal) (j : Fin 8) : EReal :=
  max ((∑ k : Fin 8, h k * W (ix2 j k)) + b j) 0

/-- The largest of a node's 8 values (the fold of `max` from -∞). -/
def rowMax (z : Fin 8 → EReal) : EReal := (Finset.univ : Finset (Fin 8)).fold max ⊥ z

/-- Softmax over a node's 8 values, shifted by their maximum. -/
def softmaxRow (z : Fin 8 → EReal) (j : Fin 8) : EReal :=
  Ideal.div (Ideal.exp (z j - rowMax z)) (∑ k : Fin 8, Ideal.exp (z k - rowMax z))

/-- The first 8 of a node's 16 features. -/
def first8 (h : Fin 16 → EReal) : Fin 8 → EReal := fun k => h (Fin.castLE (by decide) k)

/-! ## The layers on whole arrays -/

/-- Row `r` of an array of node features. -/
abbrev rowOf (A : SN16.Idx → EReal) (r : Fin 200000) : Fin 16 → EReal := fun k => A (ix2 r k)

/-- One layer: every node's row through `sageRow`, from the array of means `M` and the array of own features `X`. -/
def layer (M X : SN16.Idx → EReal) (Wl Wr : SW16.Idx → EReal) (b : Fin 16 → EReal) : SN16.Idx → EReal :=
  fun i => sageRow (rowOf M (i 0)) (rowOf X (i 0)) Wl Wr b (i 1)

/-- One layer followed by the dense 16→16 layer with relu. -/
def layerDense (M X : SN16.Idx → EReal) (Wl Wr : SW16.Idx → EReal) (b : Fin 16 → EReal)
    (W1 : SW16.Idx → EReal) (b1 : Fin 16 → EReal) : SN16.Idx → EReal :=
  fun i => dense16Row (sageRow (rowOf M (i 0)) (rowOf X (i 0)) Wl Wr b) W1 b1 (i 1)

/-- One layer followed by the first 8 features, the dense 8→8 layer with relu, and the softmax. -/
def layerHead (M X : SN16.Idx → EReal) (Wl Wr : SW16.Idx → EReal) (b : Fin 16 → EReal)
    (W2 : SW8.Idx → EReal) (b2 : Fin 8 → EReal) : SN8.Idx → EReal :=
  fun i => softmaxRow (dense8Row (first8 (sageRow (rowOf M (i 0)) (rowOf X (i 0)) Wl Wr b)) W2 b2) (i 1)

/-! ## The mean of the neighbours, two ways -/

/-- The neighbour sums `A` times a per-node factor `S` (a column). -/
def meanMul (A : SN16.Idx → EReal) (S : SN1.Idx → EReal) : SN16.Idx → EReal :=
  fun i => A i * S (ix2 (i 0) 0)

/-- The neighbour sums `A` divided by a per-node divisor `D`. -/
def meanDiv (A : SN16.Idx → EReal) (D : SN.Idx → EReal) : SN16.Idx → EReal :=
  fun i => Ideal.div (A i) (D (ix1 (i 0)))

/-- The column of reciprocals `1 / D`. -/
def recipCol (D : SN.Idx → EReal) : SN1.Idx → EReal := fun i => Ideal.div 1 (D (ix1 (i 0)))

/-- Off zero, `x / y = x · (1 / y)` on the extended reals: both are `x · y⁻¹`. -/
theorem mul_div_one {x y : EReal} (hy : y ≠ 0) : x * Ideal.div 1 y = Ideal.div x y := by
  unfold Ideal.div
  rw [if_neg hy, if_neg hy, one_mul]

/-- The largest of a value and 1 is not zero. -/
theorem max_one_ne_zero (x : EReal) : max x 1 ≠ 0 :=
  ne_of_gt (lt_of_lt_of_le zero_lt_one (le_max_right x 1))

/-- THE LAW: multiplying by the reciprocals of nonzero divisors is dividing by them. -/
theorem meanMul_recipCol (A : SN16.Idx → EReal) (D : SN.Idx → EReal) (hD : ∀ r, D r ≠ 0) :
    meanMul A (recipCol D) = meanDiv A D := by
  funext i
  exact mul_div_one (hD _)

end Cert.SageNet

end
-- ==== Proof.HostWalk.lean ====
/-
  What the kernel program's buffers hold at each boundary between its host stretches and its four pallas_calls, read back to
  the launch memory. The index vectors (sources, destinations), the column of reciprocals 1 / max(deg, 1) and the argument
  arrays are written once (or never) and then only read: a host stretch keeps every buffer it does not write, a pallas_call
  keeps every buffer that is not one of its arrays and every array it only reads. Each stretch's own results are the
  reference's stages of the same operations on the same operands — the sliced weights and biases, and the neighbour sums
  `scatter-add(gather(h, src), dst)` of whatever features `h` the pallas_call before it left.
-/
import proofs.«414788_j17016660427424_3_alg».proof.Proof.Gen.KernelIdeal.Frame
import proofs.«414788_j17016660427424_3_alg».proof.Proof.Gen.ReferenceIdeal.Read
import proofs.«414788_j17016660427424_3_alg».proof.Proof.Spec
import Idealize.ShloMosaic.Lib.StableHlo.Run

set_option maxRecDepth 16384

noncomputable section

namespace Cert.KernelIdeal.Walk

open Cert.KernelIdeal Cert.KernelIdeal.Gen Cert.SageNet
open Idealize.ShloMosaic Idealize.ShloMosaic.TcCoe Idealize.SL.Sem Idealize.ShloMosaic.StableHlo Idealize.ShloMosaic.ValueIdx
open Idealize.ShloMosaic.Pipeline (Dat)
open Cert.ReferenceIdeal.Read

/-! ## The shared host terms -/

/-- The neighbour sums of node features `h`: every edge's source row gathered, and scatter-added at the edge's destination
    (the reference's first-layer operations, at any features). -/
def aggOf (h : FVec Ideal Cert.ReferenceIdeal.S200000x16 .f32)
    (x1 : (⟨Cert.ReferenceIdeal.S2x5000000, .i32⟩ : BufTy).Contents (Elt Ideal)) : FVec Ideal Cert.ReferenceIdeal.S200000x16 .f32 :=
  Host.scatterAdd (F := Ideal) Cert.ReferenceIdeal.scatter_S200000x16_S5000000x1_S5000000x16_1_0_0_1 (val_main_v17 (F := Ideal)) (val_main_v18 (F := Ideal) x1)
    (Host.gather Cert.ReferenceIdeal.gather_S200000x16_S5000000x1_S5000000x16_1_0_n_n_0_1_116 h (val_main_v15 (F := Ideal) x1))

/-- The column of reciprocals as the kernel's host code forms it: `reshape(1 / max(deg, 1))` to [200000, 1]. -/
def recipArr (x1 : (⟨Cert.ReferenceIdeal.S2x5000000, .i32⟩ : BufTy).Contents (Elt Ideal)) : FVec Ideal S200000x1 .f32 :=
  shapeCast S200000x1 (Host.divf (F := Ideal) (broadcastInDim S200000 ![] bcast_S_S200000 (constant (F := Ideal) S_ .f32 0x3F800000#32))
    (val_main_v25 (F := Ideal) x1)) shapeCasts_S200000_S200000x1

variable (m : (ℓ : Loc nD τ sig) → Buf (Elt Ideal) ℓ) (ρ : Dev nD → PrngReg)

/-! ## What each host stretch writes (its operations' results, in program order), and what it therefore keeps -/

abbrev hostOps0_W : List (Ref sig .tc) :=
  [main_v0, main_v1, main_v2, main_v3, main_cst, main_v4, main_cst_0, main_v5, main_v6, main_v7, main_cst_1, main_v8, main_v9, main_cst_2,
   main_v10, main_v11, main_v12, main_c, main_v13, main_v14, main_c_3, main_v15, main_v16, main_v17, main_v18, main_v19, main_cst_4,
   main_v20, main_v21, main_v22, main_v23, main_v24, main_v25, main_v26, main_v27, main_v28, main_v29]
abbrev hostOps1_W : List (Ref sig .tc) :=
  [main_c_5, main_v31, main_v32, main_c_6, main_v33, main_v34, main_v35, main_v36, main_v37, main_v38, main_cst_7, main_v39, main_v40,
   main_v41, main_v42, main_v43, main_v44, main_v45, main_v46, main_v47, main_v48, main_v49]
abbrev hostOps2_W : List (Ref sig .tc) :=
  [main_c_8, main_v51, main_v52, main_c_9, main_v53, main_v54, main_v55, main_v56, main_v57, main_v58, main_cst_10, main_v59, main_v60,
   main_v61, main_v62, main_v63, main_v64, main_v65, main_v66, main_v67, main_v68]
abbrev hostOps3_W : List (Ref sig .tc) :=
  [main_c_11, main_v70, main_v71, main_c_12, main_v72, main_v73, main_v74, main_v75, main_v76, main_v77, main_cst_13, main_v78, main_v79,
   main_v80, main_v81, main_v82, main_v83, main_v84, main_v85, main_v86, main_v87, main_v88]

/-- Every operation's result buffer is in the list (one operation at a time: its `writes` is the singleton of its result). -/
macro "writes_in_list" : tactic =>
  `(tactic| (simp only [List.Forall]; repeat' apply And.intro
             all_goals (simp only [StableHlo.nullary_writes, StableHlo.unary_writes, StableHlo.binary_writes, StableHlo.ternary_writes,
               StableHlo.quaternary_writes, StableHlo.reshape_writes, StableHlo.binaryIndexed_writes, StableHlo.unaryIndexed_writes,
               StableHlo.nary_writes, Finset.singleton_subset_iff, List.mem_toFinset]; exact List.mem_map_of_mem (by decide))))

theorem hostOps0_writes : (hostOps0 : List (HloOp τ sig (Elt Ideal))).Forall fun op => op.writes ⊆ (hostOps0_W.map (Proc.devRef (τ := τ) .tc)).toFinset := by
  writes_in_list
theorem hostOps1_writes : (hostOps1 : List (HloOp τ sig (Elt Ideal))).Forall fun op => op.writes ⊆ (hostOps1_W.map (Proc.devRef (τ := τ) .tc)).toFinset := by
  writes_in_list
theorem hostOps2_writes : (hostOps2 : List (HloOp τ sig (Elt Ideal))).Forall fun op => op.writes ⊆ (hostOps2_W.map (Proc.devRef (τ := τ) .tc)).toFinset := by
  writes_in_list
theorem hostOps3_writes : (hostOps3 : List (HloOp τ sig (Elt Ideal))).Forall fun op => op.writes ⊆ (hostOps3_W.map (Proc.devRef (τ := τ) .tc)).toFinset := by
  writes_in_list

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-! ## What a pallas_call keeps: every buffer that is not its output array -/

/-- pallas_call 0 changes only its output array `%30`: an array it reads ends as entered, any other buffer is not touched. -/
theorem W2_keep (c : Dev nD) (r : Ref sig .tc) (h : r ≠ main_v30) : W2 m ρ c (Proc.devRef .tc r) = W1 m ρ c (Proc.devRef .tc r) := by
  by_cases hw : ∃ w : Fin cfg0.W, Pipeline.arrRef spec0 w = r
  · obtain ⟨w, rfl⟩ := hw
    have hin : (cfg0.win w).isOut = false := by
      revert h; revert w; decide
    exact (W2_arr m ρ c w).trans (((dat0 (V1 m ρ) c).arrAt_in w hin _).trans (A_eq0 (V1 m ρ) c w))
  · exact W2_of_ne m ρ c r fun w e => hw ⟨w, e⟩

/-- pallas_call 1 changes only its output array `%50`. -/
theorem W4_keep (c : Dev nD) (r : Ref sig .tc) (h : r ≠ main_v50) : W4 m ρ c (Proc.devRef .tc r) = W3 m ρ c (Proc.devRef .tc r) := by
  by_cases hw : ∃ w : Fin cfg1.W, Pipeline.arrRef spec1 w = r
  · obtain ⟨w, rfl⟩ := hw
    have hin : (cfg1.win w).isOut = false := by
      revert h; revert w; decide
    exact (W4_arr m ρ c w).trans (((dat1 (V3 m ρ) c).arrAt_in w hin _).trans (A_eq1 (V3 m ρ) c w))
  · exact W4_of_ne m ρ c r fun w e => hw ⟨w, e⟩

/-- pallas_call 2 changes only its output array `%69`. -/
theorem W6_keep (c : Dev nD) (r : Ref sig .tc) (h : r ≠ main_v69) : W6 m ρ c (Proc.devRef .tc r) = W5 m ρ c (Proc.devRef .tc r) := by
  by_cases hw : ∃ w : Fin cfg2.W, Pipeline.arrRef spec2 w = r
  · obtain ⟨w, rfl⟩ := hw
    have hin : (cfg2.win w).isOut = false := by
      revert h; revert w; decide
    exact (W6_arr m ρ c w).trans (((dat2 (V5 m ρ) c).arrAt_in w hin _).trans (A_eq2 (V5 m ρ) c w))
  · exact W6_of_ne m ρ c r fun w e => hw ⟨w, e⟩

/-! ## The buffers every later step only reads -/

/-- The source and destination indices, the reciprocal column, and the arguments the later stretches slice. -/
abbrev carriedRefs : List (Ref sig .tc) :=
  [main_v1, main_v3, main_v12, main_arg2, main_arg3, main_arg4, main_arg5, main_arg6, main_arg7, main_arg8, main_arg9, main_arg10, main_arg11]

/-- At a boundary with contents `W`, the carried buffers hold what the first stretch left in them. -/
def Keeps (c : Dev nD) (W : Valuation τ sig (Elt Ideal)) : Prop :=
  ∀ r ∈ carriedRefs, W (Proc.devRef .tc r) = W1 m ρ c (Proc.devRef .tc r)

theorem keeps1 (c : Dev nD) : Keeps m ρ c (W1 m ρ c) := fun _ _ => rfl
theorem keeps2 (c : Dev nD) : Keeps m ρ c (W2 m ρ c) := fun r hr =>
  (W2_keep m ρ c r ((by decide : ∀ r ∈ carriedRefs, r ≠ main_v30) r hr)).trans (keeps1 m ρ c r hr)
theorem keeps3 (c : Dev nD) : Keeps m ρ c (W3 m ρ c) := fun r hr =>
  (W3_of m ρ c r ((by decide : ∀ r ∈ carriedRefs, r ∉ hostOps1_W) r hr)).trans (keeps2 m ρ c r hr)
theorem keeps4 (c : Dev nD) : Keeps m ρ c (W4 m ρ c) := fun r hr =>
  (W4_keep m ρ c r ((by decide : ∀ r ∈ carriedRefs, r ≠ main_v50) r hr)).trans (keeps3 m ρ c r hr)
theorem keeps5 (c : Dev nD) : Keeps m ρ c (W5 m ρ c) := fun r hr =>
  (W5_of m ρ c r ((by decide : ∀ r ∈ carriedRefs, r ∉ hostOps2_W) r hr)).trans (keeps4 m ρ c r hr)
theorem keeps6 (c : Dev nD) : Keeps m ρ c (W6 m ρ c) := fun r hr =>
  (W6_keep m ρ c r ((by decide : ∀ r ∈ carriedRefs, r ≠ main_v69) r hr)).trans (keeps5 m ρ c r hr)
theorem keeps7 (c : Dev nD) : Keeps m ρ c (W7 m ρ c) := fun r hr =>
  (W7_of m ρ c r ((by decide : ∀ r ∈ carriedRefs, r ∉ hostOps3_W) r hr)).trans (keeps6 m ρ c r hr)

end Cert.KernelIdeal.Walk

end
-- ==== Proof.HostValues.lean ====
/-
  The values the kernel program's host stretches compute, as the reference's stages of the same operations: the first stretch
  makes the index vectors, the reciprocal column, the first layer's neighbour sums and its sliced weights out of the launch
  memory; each later stretch makes the next layer's neighbour sums out of the features the pallas_call before it left (read
  back from bf16, the identity on the extended reals) and slices the next weights out of the arguments, which are still what
  was launched.
-/
import proofs.«414788_j17016660427424_3_alg».proof.Proof.HostWalk

set_option maxRecDepth 16384

noncomputable section

namespace Cert.KernelIdeal.Walk

open Cert.KernelIdeal Cert.KernelIdeal.Gen Cert.SageNet
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg)

/-- The launch contents of argument `main_arg0` … `main_arg11` on device `c`. -/
abbrev X0 (c : Dev nD) := m ((c.tc : Thread nD τ).loc main_arg0)
abbrev X1 (c : Dev nD) := m ((c.tc : Thread nD τ).loc main_arg1)
abbrev X2 (c : Dev nD) := m ((c.tc : Thread nD τ).loc main_arg2)
abbrev X3 (c : Dev nD) := m ((c.tc : Thread nD τ).loc main_arg3)
abbrev X4 (c : Dev nD) := m ((c.tc : Thread nD τ).loc main_arg4)
abbrev X5 (c : Dev nD) := m ((c.tc : Thread nD τ).loc main_arg5)
abbrev X6 (c : Dev nD) := m ((c.tc : Thread nD τ).loc main_arg6)
abbrev X7 (c : Dev nD) := m ((c.tc : Thread nD τ).loc main_arg7)
abbrev X8 (c : Dev nD) := m ((c.tc : Thread nD τ).loc main_arg8)
abbrev X9 (c : Dev nD) := m ((c.tc : Thread nD τ).loc main_arg9)
abbrev X10 (c : Dev nD) := m ((c.tc : Thread nD τ).loc main_arg10)
abbrev X11 (c : Dev nD) := m ((c.tc : Thread nD τ).loc main_arg11)

/-! ## After the first stretch -/

set_option maxHeartbeats 4000000 in
theorem W1_v1 (c : Dev nD) : W1 m ρ c (Proc.devRef .tc main_v1) = val_main_v1 (F := Ideal) (X1 m c) := by
  show StableHlo.after hostOps0 (W0 m ρ c) (Proc.devRef .tc main_v1) = _; after_results_simp; rfl
set_option maxHeartbeats 4000000 in
theorem W1_v3 (c : Dev nD) : W1 m ρ c (Proc.devRef .tc main_v3) = val_main_v3 (F := Ideal) (X1 m c) := by
  show StableHlo.after hostOps0 (W0 m ρ c) (Proc.devRef .tc main_v3) = _; after_results_simp; rfl
set_option maxHeartbeats 4000000 in
theorem W1_v12 (c : Dev nD) : W1 m ρ c (Proc.devRef .tc main_v12) = recipArr (X1 m c) := by
  show StableHlo.after hostOps0 (W0 m ρ c) (Proc.devRef .tc main_v12) = _; after_results_simp; rfl
set_option maxHeartbeats 4000000 in
theorem W1_v22 (c : Dev nD) : W1 m ρ c (Proc.devRef .tc main_v22) = aggOf (X0 m c) (X1 m c) := by
  show StableHlo.after hostOps0 (W0 m ρ c) (Proc.devRef .tc main_v22) = _; after_results_simp; rfl
set_option maxHeartbeats 4000000 in
theorem W1_v24 (c : Dev nD) : W1 m ρ c (Proc.devRef .tc main_v24) = val_main_v5 (F := Ideal) (X2 m c) := by
  show StableHlo.after hostOps0 (W0 m ρ c) (Proc.devRef .tc main_v24) = _; after_results_simp; rfl
set_option maxHeartbeats 4000000 in
theorem W1_v28 (c : Dev nD) : W1 m ρ c (Proc.devRef .tc main_v28) = val_main_v9 (F := Ideal) (X4 m c) := by
  show StableHlo.after hostOps0 (W0 m ρ c) (Proc.devRef .tc main_v28) = _; after_results_simp; rfl
set_option maxHeartbeats 4000000 in
theorem W1_v29 (c : Dev nD) : W1 m ρ c (Proc.devRef .tc main_v29)
    = shapeCast S1x16 (val_main_v7 (F := Ideal) (X3 m c)) shapeCasts_S16_S1x16 := by
  show StableHlo.after hostOps0 (W0 m ρ c) (Proc.devRef .tc main_v29) = _; after_results_simp; rfl
theorem W1_arg0 (c : Dev nD) : W1 m ρ c (Proc.devRef .tc main_arg0) = X0 m c := W1_of m ρ c main_arg0 (by decide)

/-! ## The carried buffers at any later boundary -/

/-- What the carried buffers hold wherever they are kept. -/
structure Vals (c : Dev nD) (W : Valuation τ sig (Elt Ideal)) : Prop where
  v1 : W (Proc.devRef .tc main_v1) = val_main_v1 (F := Ideal) (X1 m c)
  v3 : W (Proc.devRef .tc main_v3) = val_main_v3 (F := Ideal) (X1 m c)
  v12 : W (Proc.devRef .tc main_v12) = recipArr (X1 m c)
  a2 : W (Proc.devRef .tc main_arg2) = X2 m c
  a3 : W (Proc.devRef .tc main_arg3) = X3 m c
  a4 : W (Proc.devRef .tc main_arg4) = X4 m c
  a5 : W (Proc.devRef .tc main_arg5) = X5 m c
  a6 : W (Proc.devRef .tc main_arg6) = X6 m c
  a7 : W (Proc.devRef .tc main_arg7) = X7 m c
  a8 : W (Proc.devRef .tc main_arg8) = X8 m c
  a9 : W (Proc.devRef .tc main_arg9) = X9 m c
  a10 : W (Proc.devRef .tc main_arg10) = X10 m c
  a11 : W (Proc.devRef .tc main_arg11) = X11 m c

theorem vals_of_keeps (c : Dev nD) (W : Valuation τ sig (Elt Ideal)) (h : Keeps m ρ c W) : Vals m c W where
  v1 := (h main_v1 (by decide)).trans (W1_v1 m ρ c)
  v3 := (h main_v3 (by decide)).trans (W1_v3 m ρ c)
  v12 := (h main_v12 (by decide)).trans (W1_v12 m ρ c)
  a2 := (h main_arg2 (by decide)).trans (W1_of m ρ c main_arg2 (by decide))
  a3 := (h main_arg3 (by decide)).trans (W1_of m ρ c main_arg3 (by decide))
  a4 := (h main_arg4 (by decide)).trans (W1_of m ρ c main_arg4 (by decide))
  a5 := (h main_arg5 (by decide)).trans (W1_of m ρ c main_arg5 (by decide))
  a6 := (h main_arg6 (by decide)).trans (W1_of m ρ c main_arg6 (by decide))
  a7 := (h main_arg7 (by decide)).trans (W1_of m ρ c main_arg7 (by decide))
  a8 := (h main_arg8 (by decide)).trans (W1_of m ρ c main_arg8 (by decide))
  a9 := (h main_arg9 (by decide)).trans (W1_of m ρ c main_arg9 (by decide))
  a10 := (h main_arg10 (by decide)).trans (W1_of m ρ c main_arg10 (by decide))
  a11 := (h main_arg11 (by decide)).trans (W1_of m ρ c main_arg11 (by decide))

/-! ## After the second stretch (from what pallas_call 0 left) -/

set_option maxHeartbeats 4000000 in
theorem W3_v41 (c : Dev nD) : W3 m ρ c (Proc.devRef .tc main_v41) = aggOf (W2 m ρ c (Proc.devRef .tc main_v30)) (X1 m c) := by
  have hv := vals_of_keeps m ρ c _ (keeps2 m ρ c)
  show StableHlo.after hostOps1 (W2 m ρ c) (Proc.devRef .tc main_v41) = _
  after_results_simp
  rw [hv.v1, hv.v3]
  rfl
set_option maxHeartbeats 4000000 in
theorem W3_v43 (c : Dev nD) : W3 m ρ c (Proc.devRef .tc main_v43) = val_main_v39 (F := Ideal) (X2 m c) := by
  have hv := vals_of_keeps m ρ c _ (keeps2 m ρ c)
  show StableHlo.after hostOps1 (W2 m ρ c) (Proc.devRef .tc main_v43) = _
  after_results_simp; rw [hv.a2]; rfl
set_option maxHeartbeats 4000000 in
theorem W3_v47 (c : Dev nD) : W3 m ρ c (Proc.devRef .tc main_v47) = val_main_v43 (F := Ideal) (X4 m c) := by
  have hv := vals_of_keeps m ρ c _ (keeps2 m ρ c)
  show StableHlo.after hostOps1 (W2 m ρ c) (Proc.devRef .tc main_v47) = _
  after_results_simp; rw [hv.a4]; rfl
set_option maxHeartbeats 4000000 in
theorem W3_v48 (c : Dev nD) : W3 m ρ c (Proc.devRef .tc main_v48)
    = shapeCast S1x16 (val_main_v41 (F := Ideal) (X3 m c)) shapeCasts_S16_S1x16 := by
  have hv := vals_of_keeps m ρ c _ (keeps2 m ρ c)
  show StableHlo.after hostOps1 (W2 m ρ c) (Proc.devRef .tc main_v48) = _
  after_results_simp; rw [hv.a3]; rfl
set_option maxHeartbeats 4000000 in
theorem W3_v49 (c : Dev nD) : W3 m ρ c (Proc.devRef .tc main_v49) = shapeCast S1x16 (X9 m c) shapeCasts_S16_S1x16 := by
  have hv := vals_of_keeps m ρ c _ (keeps2 m ρ c)
  show StableHlo.after hostOps1 (W2 m ρ c) (Proc.devRef .tc main_v49) = _
  after_results_simp; rw [hv.a9]; rfl
theorem W3_v30 (c : Dev nD) : W3 m ρ c (Proc.devRef .tc main_v30) = W2 m ρ c (Proc.devRef .tc main_v30) :=
  W3_of m ρ c main_v30 (by decide)

/-! ## After the third stretch (from what pallas_call 1 left) -/

set_option maxHeartbeats 4000000 in
theorem W5_v61 (c : Dev nD) : W5 m ρ c (Proc.devRef .tc main_v61) = aggOf (W4 m ρ c (Proc.devRef .tc main_v50)) (X1 m c) := by
  have hv := vals_of_keeps m ρ c _ (keeps4 m ρ c)
  show StableHlo.after hostOps2 (W4 m ρ c) (Proc.devRef .tc main_v61) = _
  after_results_simp
  rw [hv.v1, hv.v3]
  rfl
set_option maxHeartbeats 4000000 in
theorem W5_v63 (c : Dev nD) : W5 m ρ c (Proc.devRef .tc main_v63) = val_main_v79 (F := Ideal) (X5 m c) := by
  have hv := vals_of_keeps m ρ c _ (keeps4 m ρ c)
  show StableHlo.after hostOps2 (W4 m ρ c) (Proc.devRef .tc main_v63) = _
  after_results_simp; rw [hv.a5]; rfl
set_option maxHeartbeats 4000000 in
theorem W5_v67 (c : Dev nD) : W5 m ρ c (Proc.devRef .tc main_v67) = val_main_v83 (F := Ideal) (X7 m c) := by
  have hv := vals_of_keeps m ρ c _ (keeps4 m ρ c)
  show StableHlo.after hostOps2 (W4 m ρ c) (Proc.devRef .tc main_v67) = _
  after_results_simp; rw [hv.a7]; rfl
set_option maxHeartbeats 4000000 in
theorem W5_v68 (c : Dev nD) : W5 m ρ c (Proc.devRef .tc main_v68)
    = shapeCast S1x16 (val_main_v81 (F := Ideal) (X6 m c)) shapeCasts_S16_S1x16 := by
  have hv := vals_of_keeps m ρ c _ (keeps4 m ρ c)
  show StableHlo.after hostOps2 (W4 m ρ c) (Proc.devRef .tc main_v68) = _
  after_results_simp; rw [hv.a6]; rfl
theorem W5_v50 (c : Dev nD) : W5 m ρ c (Proc.devRef .tc main_v50) = W4 m ρ c (Proc.devRef .tc main_v50) :=
  W5_of m ρ c main_v50 (by decide)

/-! ## After the fourth stretch (from what pallas_call 2 left) -/

set_option maxHeartbeats 4000000 in
theorem W7_v80 (c : Dev nD) : W7 m ρ c (Proc.devRef .tc main_v80) = aggOf (W6 m ρ c (Proc.devRef .tc main_v69)) (X1 m c) := by
  have hv := vals_of_keeps m ρ c _ (keeps6 m ρ c)
  show StableHlo.after hostOps3 (W6 m ρ c) (Proc.devRef .tc main_v80) = _
  after_results_simp
  rw [hv.v1, hv.v3]
  rfl
set_option maxHeartbeats 4000000 in
theorem W7_v82 (c : Dev nD) : W7 m ρ c (Proc.devRef .tc main_v82) = val_main_v113 (F := Ideal) (X5 m c) := by
  have hv := vals_of_keeps m ρ c _ (keeps6 m ρ c)
  show StableHlo.after hostOps3 (W6 m ρ c) (Proc.devRef .tc main_v82) = _
  after_results_simp; rw [hv.a5]; rfl
set_option maxHeartbeats 4000000 in
theorem W7_v86 (c : Dev nD) : W7 m ρ c (Proc.devRef .tc main_v86) = val_main_v117 (F := Ideal) (X7 m c) := by
  have hv := vals_of_keeps m ρ c _ (keeps6 m ρ c)
  show StableHlo.after hostOps3 (W6 m ρ c) (Proc.devRef .tc main_v86) = _
  after_results_simp; rw [hv.a7]; rfl
set_option maxHeartbeats 4000000 in
theorem W7_v87 (c : Dev nD) : W7 m ρ c (Proc.devRef .tc main_v87)
    = shapeCast S1x16 (val_main_v115 (F := Ideal) (X6 m c)) shapeCasts_S16_S1x16 := by
  have hv := vals_of_keeps m ρ c _ (keeps6 m ρ c)
  show StableHlo.after hostOps3 (W6 m ρ c) (Proc.devRef .tc main_v87) = _
  after_results_simp; rw [hv.a6]; rfl
set_option maxHeartbeats 4000000 in
theorem W7_v88 (c : Dev nD) : W7 m ρ c (Proc.devRef .tc main_v88) = shapeCast S1x8 (X11 m c) shapeCasts_S8_S1x8 := by
  have hv := vals_of_keeps m ρ c _ (keeps6 m ρ c)
  show StableHlo.after hostOps3 (W6 m ρ c) (Proc.devRef .tc main_v88) = _
  after_results_simp; rw [hv.a11]; rfl
theorem W7_v69 (c : Dev nD) : W7 m ρ c (Proc.devRef .tc main_v69) = W6 m ρ c (Proc.devRef .tc main_v69) :=
  W7_of m ρ c main_v69 (by decide)

end Cert.KernelIdeal.Walk

end
-- ==== Proof.RowsSage.lean ====
/-
  The layer's arithmetic in a kernel body, at one element of the output block: row `p`, output feature `q` is
  `relu(Σₖ (a[p,k]·s[p])·Wl[q,k] + b[q] + Σₖ x[p,k]·Wr[q,k])` — the row function `sageRow` of `Spec.lean`. The two products
  of a block with a transposed weight matrix into a zero accumulator are those sums; a change of float format is the
  identity on the extended reals.
-/
import proofs.«414788_j17016660427424_3_alg».proof.Proof.Gen.KernelIdeal.Skeleton
import proofs.«414788_j17016660427424_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Rows

open Cert.KernelIdeal Cert.KernelIdeal.Gen Cert.SageNet Idealize.ShloMosaic Idealize.ShloMosaic.ValueIdx

/-! ## A column broadcast along the lanes -/

/-- A `[a, 1]` column broadcast to `[a, b]` reads, at `(p, c)`, the column's entry of row `p`: the operand's second axis
    has extent one, so its coordinate there is `0`; its first axis has the result's extent, so the row is kept. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A block times a 16×16 matrix, into a zero accumulator

  The product contracts the block's second axis with the matrix's first. Its operand indices at output `(p, q)` and
  contraction coordinate `k` are `(p, k)` and `(k, q)`: four coordinate facts, one per operand axis. -/

/-- The left operand keeps the output's row. -/
theorem dotLhs_row (i : S5000x16.Idx) (c : dot_S5000x16_S16x16_S5000x16_1_0_0_1_n_n.contr.Idx) :
    (dot_S5000x16_S16x16_S5000x16_1_0_0_1_n_n.lhsIdx i c 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl

/-- The left operand's column is the contraction coordinate. -/
theorem dotLhs_col (i : S5000x16.Idx) (c : dot_S5000x16_S16x16_S5000x16_1_0_0_1_n_n.contr.Idx) :
    (dot_S5000x16_S16x16_S5000x16_1_0_0_1_n_n.lhsIdx i c 1).val = (c ⟨0, by decide⟩).val :=
  dot_S5000x16_S16x16_S5000x16_1_0_0_1_n_n.lhsIdx_val_of_single rfl i c

/-- The right operand's row is the contraction coordinate. -/
theorem dotRhs_row (i : S5000x16.Idx) (c : dot_S5000x16_S16x16_S5000x16_1_0_0_1_n_n.contr.Idx) :
    (dot_S5000x16_S16x16_S5000x16_1_0_0_1_n_n.rhsIdx i c 0).val = (c ⟨0, by decide⟩).val :=
  dot_S5000x16_S16x16_S5000x16_1_0_0_1_n_n.rhsIdx_val_of_single rfl i c

/-- The right operand keeps the output's column. -/
theorem dotRhs_col (i : S5000x16.Idx) (c : dot_S5000x16_S16x16_S5000x16_1_0_0_1_n_n.contr.Idx) :
    (dot_S5000x16_S16x16_S5000x16_1_0_0_1_n_n.rhsIdx i c 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- The product of a block `l` with a matrix `r`, accumulated into zero, at `(p, q)`: `Σₖ l[p,k]·r[k,q]`. The sum over
    the one-axis contraction index is carried to a sum over `k : Fin 16` along the bijection between them. -/
theorem matmul_zero_ix2 (l : FVec Ideal S5000x16 .bf16) (r : FVec Ideal S16x16 .bf16) (p : Fin 5000) (q : Fin 16) :
    matmul dot_S5000x16_S16x16_S5000x16_1_0_0_1_n_n none l r (constant S5000x16 .f32 0x00000000#32) (ix2 p q)
      = ∑ k : Fin 16, l (ix2 p k) * r (ix2 k q) := by
  simp only [matmul]
  rw [Ideal.matmul_constant_zero_apply,
    ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p q)
      ((ValueIdx.contrEquiv1 dot_S5000x16_S16x16_S5000x16_1_0_0_1_n_n 16 rfl rfl).symm k) = ix2 p k :=
    funext fun a => Fin.ext (by
      match a with
      | ⟨0, _⟩ => exact dotLhs_row _ _
      | ⟨1, _⟩ => exact (dotLhs_col _ _).trans hk)
  have er : dot_S5000x16_S16x16_S5000x16_1_0_0_1_n_n.rhsIdx (ix2 p q)
      ((ValueIdx.contrEquiv1 dot_S5000x16_S16x16_S5000x16_1_0_0_1_n_n 16 rfl rfl).symm k) = ix2 k q :=
    funext fun a => Fin.ext (by
      match a with
      | ⟨0, _⟩ => exact (dotRhs_row _ _).trans hk
      | ⟨1, _⟩ => exact dotRhs_col _ _)
  rw [el, er]

/-! ## The transposed weight matrix, and the relu's zero -/

/-- A 16×16 matrix transposed reads, at `(j, i)`, the matrix at `(i, j)` (the general statement at this literal shape;
    the column `i` comes first so that it can be fixed where the row `j` is a summation variable). -/
theorem transpose16_apply (i : Fin 16) (x : FVec Ideal S16x16 .bf16) (j : Fin 16) :
    transpose S16x16 [1, 0] x transposes_S16x16_p1_0_S16x16 (ix2 j i) = x (ix2 i j) :=
  transpose_ix2_apply x transposes_S16x16_p1_0_S16x16 j i

/-- The all-zero 32-bit word, read as a float on the extended reals, is `0`. -/
theorem zeroWord_f32 : (FloatOps.ofBits (F := Ideal) .f32 0x00000000#32 : EReal) = 0 :=
  Ideal.ofBits_zero_f32

/-- Region 0's body (own features stored as f32) at one element. Operands: `v0` neighbour sums, `v2` reciprocal column,
    `v7` own features, `v9` = Wl, `v12` = Wr, `v17` bias row. -/
theorem sage0_apply (v0 : Vec Ideal S5000x16 .f32) (v2 : Vec Ideal S5000x1 .f32) (v7 : Vec Ideal S5000x16 .f32)
    (v9 v12 : Vec Ideal S16x16 .f32) (v17 : Vec Ideal S1x16 .f32) (p : Fin 5000) (q : Fin 16) :
    (k0_pay1 (F := Ideal) v0 v2 v7 v9 v12 v17 : S5000x16.Idx → EReal) (ix2 p q)
      = sageRow (fun k => (v0 (ix2 p k) : EReal) * (v2 (ix2 p 0) : EReal)) (fun k => (v7 (ix2 p k) : EReal))
          v9 v12 (fun j => (v17 (ix2 0 j) : EReal)) q := by
  -- Read the chain of values from the last one back: format changes and same-shape casts are identities, the column
  -- and the bias row are read at their own coordinate, each product with a transposed weight matrix is Σₖ ·[p,k]·W[q,k].
  unfold k0_pay1 sageRow
  simp only [shapeCast_self, truncf_apply, maximumf_apply, addf_apply, mulf_apply, broadcast_apply,
    matmul_zero_ix2, broadcastTo_a1_ab_apply, broadcastTo_1b_ab_apply, transpose16_apply q, zeroWord_f32]

/-- Regions 1, 2 and 3 share this layer body (own features stored as bf16): the same arithmetic. -/
theorem sage2_apply (v0 : Vec Ideal S5000x16 .f32) (v2 : Vec Ideal S5000x1 .f32) (v7 : Vec Ideal S5000x16 .bf16)
    (v9 v12 : Vec Ideal S16x16 .f32) (v17 : Vec Ideal S1x16 .f32) (p : Fin 5000) (q : Fin 16) :
    (k2_pay1 (F := Ideal) v0 v2 v7 v9 v12 v17 : S5000x16.Idx → EReal) (ix2 p q)
      = sageRow (fun k => (v0 (ix2 p k) : EReal) * (v2 (ix2 p 0) : EReal)) (fun k => (v7 (ix2 p k) : EReal))
          v9 v12 (fun j => (v17 (ix2 0 j) : EReal)) q := by
  -- The same reading; the own features arrive already in the narrow format, through a same-shape cast.
  unfold k2_pay1 sageRow
  simp only [shapeCast_self, truncf_apply, maximumf_apply, addf_apply, mulf_apply, broadcast_apply,
    matmul_zero_ix2, broadcastTo_a1_ab_apply, broadcastTo_1b_ab_apply, transpose16_apply q, zeroWord_f32]

end Cert.KernelIdeal.Rows

end
-- ==== Proof.RowsTail.lean ====
/-
  What regions 1 and 3 do AFTER the layer, at one element of the output block. Their bodies begin with exactly the layer
  body of region 2 (`k2_pay1`, up to a change of float format, the identity on the extended reals); region 1 then applies the
  dense 16→16 layer with relu, region 3 restricts to the first 8 features, applies the dense 8→8 layer with relu, and the
  softmax over the 8 features (row maximum, exponentials, their sum, the quotient).
-/
import proofs.«414788_j17016660427424_3_alg».proof.Proof.Gen.KernelIdeal.Skeleton
import proofs.«414788_j17016660427424_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Rows

open Cert.KernelIdeal Cert.KernelIdeal.Gen Cert.SageNet Idealize.ShloMosaic Idealize.ShloMosaic.ValueIdx

/-! ## A block times a small square matrix, read at one element

The contraction runs over the one shared axis; its index set is identified with `Fin n` and the two operands' indices are
read off coordinate by coordinate. -/

/-- Row coordinate of the left operand's index: the output's row. -/
theorem prod16_lhs_row (i : S5000x16.Idx) (c : dot_S5000x16_S16x16_S5000x16_1_0_0_1_n_n.contr.Idx) :
    (dot_S5000x16_S16x16_S5000x16_1_0_0_1_n_n.lhsIdx i c 0).val = (i 0).val := by
  unfold DotDims.lhsIdx
  rw [dif_neg (show ¬(0 : Fin S5000x16.rank) ∈ dot_S5000x16_S16x16_S5000x16_1_0_0_1_n_n.lhsBatch by decide),
    dif_pos (show (0 : Fin S5000x16.rank) ∈ dot_S5000x16_S16x16_S5000x16_1_0_0_1_n_n.lhsNonContracting by decide)]
  rfl

/-- Column coordinate of the left operand's index: the contraction position. -/
theorem prod16_lhs_col (i : S5000x16.Idx) (c : dot_S5000x16_S16x16_S5000x16_1_0_0_1_n_n.contr.Idx) :
    (dot_S5000x16_S16x16_S5000x16_1_0_0_1_n_n.lhsIdx i c 1).val = (c ⟨0, by decide⟩).val :=
  dot_S5000x16_S16x16_S5000x16_1_0_0_1_n_n.lhsIdx_val_of_single rfl i c

/-- Row coordinate of the right operand's index: the contraction position. -/
theorem prod16_rhs_row (i : S5000x16.Idx) (c : dot_S5000x16_S16x16_S5000x16_1_0_0_1_n_n.contr.Idx) :
    (dot_S5000x16_S16x16_S5000x16_1_0_0_1_n_n.rhsIdx i c 0).val = (c ⟨0, by decide⟩).val :=
  dot_S5000x16_S16x16_S5000x16_1_0_0_1_n_n.rhsIdx_val_of_single rfl i c

/-- Column coordinate of the right operand's index: the output's column. -/
theorem prod16_rhs_col (i : S5000x16.Idx) (c : dot_S5000x16_S16x16_S5000x16_1_0_0_1_n_n.contr.Idx) :
    (dot_S5000x16_S16x16_S5000x16_1_0_0_1_n_n.rhsIdx i c 1).val = (i 1).val := by
  unfold DotDims.rhsIdx
  rw [dif_neg (show ¬(1 : Fin S16x16.rank) ∈ dot_S5000x16_S16x16_S5000x16_1_0_0_1_n_n.rhsBatch by decide),
    dif_pos (show (1 : Fin S16x16.rank) ∈ dot_S5000x16_S16x16_S5000x16_1_0_0_1_n_n.rhsNonContracting by decide)]
  rfl

/-- A 5000×16 block times a 16×16 matrix, accumulated into zero, at element (p, q): Σₖ l[p,k]·r[k,q]. -/
theorem prod16_apply (l : FVec Ideal S5000x16 .bf16) (r : FVec Ideal S16x16 .bf16) (p : Fin 5000) (q : Fin 16) :
    (matmul dot_S5000x16_S16x16_S5000x16_1_0_0_1_n_n none l r (constant (F := Ideal) S5000x16 .f32 0x00000000#32) : FVec Ideal S5000x16 .f32) (ix2 p q)
      = ∑ k : Fin 16, l (ix2 p k) * r (ix2 k q) := by
  refine (Ideal.matmul_constant_zero_apply dot_S5000x16_S16x16_S5000x16_1_0_0_1_n_n none l r (ix2 p q)).trans ?_
  rw [← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ix2 p q) ((ValueIdx.contrEquiv1 dot_S5000x16_S16x16_S5000x16_1_0_0_1_n_n 16 rfl rfl).symm k) = ix2 p k :=
    funext fun a => Fin.ext (by
      match a with
      | ⟨0, _⟩ => exact prod16_lhs_row _ _
      | ⟨1, _⟩ => exact (prod16_lhs_col _ _).trans hk)
  have er : dot_S5000x16_S16x16_S5000x16_1_0_0_1_n_n.rhsIdx (ix2 p q) ((ValueIdx.contrEquiv1 dot_S5000x16_S16x16_S5000x16_1_0_0_1_n_n 16 rfl rfl).symm k) = ix2 k q :=
    funext fun a => Fin.ext (by
      match a with
      | ⟨0, _⟩ => exact (prod16_rhs_row _ _).trans hk
      | ⟨1, _⟩ => exact prod16_rhs_col _ _)
  rw [el, er]

/-- Row coordinate of the left operand's index: the output's row. -/
theorem prod8_lhs_row (i : S5000x8.Idx) (c : dot_S5000x8_S8x8_S5000x8_1_0_0_1_n_n.contr.Idx) :
    (dot_S5000x8_S8x8_S5000x8_1_0_0_1_n_n.lhsIdx i c 0).val = (i 0).val := by
  unfold DotDims.lhsIdx
  rw [dif_neg (show ¬(0 : Fin S5000x8.rank) ∈ dot_S5000x8_S8x8_S5000x8_1_0_0_1_n_n.lhsBatch by decide),
    dif_pos (show (0 : Fin S5000x8.rank) ∈ dot_S5000x8_S8x8_S5000x8_1_0_0_1_n_n.lhsNonContracting by decide)]
  rfl

/-- Column coordinate of the left operand's index: the contraction position. -/
theorem prod8_lhs_col (i : S5000x8.Idx) (c : dot_S5000x8_S8x8_S5000x8_1_0_0_1_n_n.contr.Idx) :
    (dot_S5000x8_S8x8_S5000x8_1_0_0_1_n_n.lhsIdx i c 1).val = (c ⟨0, by decide⟩).val :=
  dot_S5000x8_S8x8_S5000x8_1_0_0_1_n_n.lhsIdx_val_of_single rfl i c

/-- Row coordinate of the right operand's index: the contraction position. -/
theorem prod8_rhs_row (i : S5000x8.Idx) (c : dot_S5000x8_S8x8_S5000x8_1_0_0_1_n_n.contr.Idx) :
    (dot_S5000x8_S8x8_S5000x8_1_0_0_1_n_n.rhsIdx i c 0).val = (c ⟨0, by decide⟩).val :=
  dot_S5000x8_S8x8_S5000x8_1_0_0_1_n_n.rhsIdx_val_of_single rfl i c

/-- Column coordinate of the right operand's index: the output's column. -/
theorem prod8_rhs_col (i : S5000x8.Idx) (c : dot_S5000x8_S8x8_S5000x8_1_0_0_1_n_n.contr.Idx) :
    (dot_S5000x8_S8x8_S5000x8_1_0_0_1_n_n.rhsIdx i c 1).val = (i 1).val := by
  unfold DotDims.rhsIdx
  rw [dif_neg (show ¬(1 : Fin S8x8.rank) ∈ dot_S5000x8_S8x8_S5000x8_1_0_0_1_n_n.rhsBatch by decide),
    dif_pos (show (1 : Fin S8x8.rank) ∈ dot_S5000x8_S8x8_S5000x8_1_0_0_1_n_n.rhsNonContracting by decide)]
  rfl

/-- A 5000×8 block times an 8×8 matrix, accumulated into zero, at element (p, q): Σₖ l[p,k]·r[k,q]. -/
theorem prod8_apply (l : FVec Ideal S5000x8 .bf16) (r : FVec Ideal S8x8 .bf16) (p : Fin 5000) (q : Fin 8) :
    (matmul dot_S5000x8_S8x8_S5000x8_1_0_0_1_n_n none l r (constant (F := Ideal) S5000x8 .f32 0x00000000#32) : FVec Ideal S5000x8 .f32) (ix2 p q)
      = ∑ k : Fin 8, l (ix2 p k) * r (ix2 k q) := by
  refine (Ideal.matmul_constant_zero_apply dot_S5000x8_S8x8_S5000x8_1_0_0_1_n_n none l r (ix2 p q)).trans ?_
  rw [← Equiv.sum_comp (ValueIdx.contrEquiv1 dot_S5000x8_S8x8_S5000x8_1_0_0_1_n_n 8 rfl rfl).symm]
  refine Finset.sum_congr rfl fun k _ => ?_
  have hk := ValueIdx.contrEquiv1_symm_val dot_S5000x8_S8x8_S5000x8_1_0_0_1_n_n 8 rfl rfl k
  have el : dot_S5000x8_S8x8_S5000x8_1_0_0_1_n_n.lhsIdx (ix2 p q) ((ValueIdx.contrEquiv1 dot_S5000x8_S8x8_S5000x8_1_0_0_1_n_n 8 rfl rfl).symm k) = ix2 p k :=
    funext fun a => Fin.ext (by
      match a with
      | ⟨0, _⟩ => exact prod8_lhs_row _ _
      | ⟨1, _⟩ => exact (prod8_lhs_col _ _).trans hk)
  have er : dot_S5000x8_S8x8_S5000x8_1_0_0_1_n_n.rhsIdx (ix2 p q) ((ValueIdx.contrEquiv1 dot_S5000x8_S8x8_S5000x8_1_0_0_1_n_n 8 rfl rfl).symm k) = ix2 k q :=
    funext fun a => Fin.ext (by
      match a with
      | ⟨0, _⟩ => exact (prod8_rhs_row _ _).trans hk
      | ⟨1, _⟩ => exact prod8_rhs_col _ _)
  rw [el, er]

/-! ## The dense 16→16 layer with relu on a block of rows -/

/-- What region 1 does to the block `h` the layer leaves: the product with the transposed weights, the bias row added to
    every row, and the maximum with zero (the two changes of float format are the identity here). -/
def denseTail (h : FVec Ideal S5000x16 .bf16) (W : Vec Ideal S16x16 .f32) (b : Vec Ideal S1x16 .f32) : FVec Ideal S5000x16 .bf16 :=
  truncf .bf16
    (maximumf
      (addf
        (matmul dot_S5000x16_S16x16_S5000x16_1_0_0_1_n_n none h
          (transpose S16x16 [1, 0] (truncf .bf16 W bitsLt_bf16_f32) transposes_S16x16_p1_0_S16x16)
          (constant S5000x16 .f32 0x00000000#32))
        (broadcastTo S5000x16 (shapeCast S1x16 b shapeCasts_S1x16_S1x16) broadcasts_S1x16_S5000x16))
      (broadcast S5000x16 (Scalar.ofBits .f32 0x00000000#32)))
    bitsLt_bf16_f32

/-- Region 1's body is that tail applied to region 2's body: the two bodies share their first part word for word. -/
theorem k1_pay1_eq_denseTail (v0 : Vec Ideal S5000x16 .f32) (v2 : Vec Ideal S5000x1 .f32) (v7 : Vec Ideal S5000x16 .bf16)
    (v9 v12 : Vec Ideal S16x16 .f32) (v17 : Vec Ideal S1x16 .f32) (v27 : Vec Ideal S16x16 .f32) (v31 : Vec Ideal S1x16 .f32) :
    k1_pay1 (F := Ideal) v0 v2 v7 v9 v12 v17 v27 v31 = denseTail (k2_pay1 (F := Ideal) v0 v2 v7 v9 v12 v17) v27 v31 := rfl

/-- The transposed weights at (k, q) are the weights at (q, k). -/
theorem transposed16_apply (W : Vec Ideal S16x16 .f32) (k q : Fin 16) :
    (transpose S16x16 [1, 0] (truncf .bf16 W bitsLt_bf16_f32) transposes_S16x16_p1_0_S16x16 : FVec Ideal S16x16 .bf16) (ix2 k q)
      = W (ix2 q k) :=
  transpose_apply [1, 0] (truncf .bf16 W bitsLt_bf16_f32 : FVec Ideal S16x16 .bf16) transposes_S16x16_p1_0_S16x16 (ix2 k q) (ix2 q k)
    (fun a => match a with
      | ⟨0, _⟩ => rfl
      | ⟨1, _⟩ => rfl)

/-- The bias row, spread over the 5000 rows, at (p, q) is the bias at q. -/
theorem biasRow16_apply (b : Vec Ideal S1x16 .f32) (p : Fin 5000) (q : Fin 16) :
    (broadcastTo S5000x16 (shapeCast S1x16 b shapeCasts_S1x16_S1x16) broadcasts_S1x16_S5000x16 : FVec Ideal S5000x16 .f32) (ix2 p q)
      = b (ix2 0 q) := by
  rw [shapeCast_self]
  exact broadcastTo_1b_ab_apply b broadcasts_S1x16_S5000x16 p q

/-- The tail at element (p, q): max(Σₖ h[p,k]·W[q,k] + b[q], 0). -/
theorem denseTail_apply (h : FVec Ideal S5000x16 .bf16) (W : Vec Ideal S16x16 .f32) (b : Vec Ideal S1x16 .f32)
    (p : Fin 5000) (q : Fin 16) :
    denseTail h W b (ix2 p q) = dense16Row (fun k => h (ix2 p k)) W (fun j => (b (ix2 0 j) : EReal)) q := by
  unfold denseTail dense16Row
  rw [truncf_apply, maximumf_apply, addf_apply, broadcast_apply, prod16_apply, biasRow16_apply]
  rw [show (Scalar.ofBits .f32 0x00000000#32 : Ideal .f32) = 0 from Ideal.ofBits_zero_f32]
  refine congrArg (fun s => max (s + b (ix2 0 q)) 0) (Finset.sum_congr rfl fun k _ => ?_)
  rw [transposed16_apply]
/-- Region 1's body at one element: the dense 16→16 layer (`v27` weights, `v31` bias row) with relu, of row `p` of the layer body. -/
theorem dense_tail_apply (v0 : Vec Ideal S5000x16 .f32) (v2 : Vec Ideal S5000x1 .f32) (v7 : Vec Ideal S5000x16 .bf16)
    (v9 v12 : Vec Ideal S16x16 .f32) (v17 : Vec Ideal S1x16 .f32) (v27 : Vec Ideal S16x16 .f32) (v31 : Vec Ideal S1x16 .f32)
    (p : Fin 5000) (q : Fin 16) :
    (k1_pay1 (F := Ideal) v0 v2 v7 v9 v12 v17 v27 v31 : S5000x16.Idx → EReal) (ix2 p q)
      = dense16Row (fun k => (k2_pay1 (F := Ideal) v0 v2 v7 v9 v12 v17 : S5000x16.Idx → EReal) (ix2 p k))
          v27 (fun j => (v31 (ix2 0 j) : EReal)) q := by
  rw [k1_pay1_eq_denseTail]
  exact denseTail_apply _ v27 v31 p q

/-! ## The first 8 features, the dense 8→8 layer with relu, and the softmax -/

/-- What region 3 does to the block `h` the layer leaves, before the softmax: the first 8 columns, the product with the
    transposed weights, the bias row added to every row, and the maximum with zero. -/
def headDense (h : FVec Ideal S5000x16 .f32) (W : Vec Ideal S8x8 .f32) (b : Vec Ideal S1x8 .f32) : FVec Ideal S5000x8 .f32 :=
  maximumf
    (addf
      (matmul dot_S5000x8_S8x8_S5000x8_1_0_0_1_n_n none
        (truncf .bf16 (extractStridedSlice S5000x8 ![0, 0] h slices_S5000x16_o0_0_S5000x8) bitsLt_bf16_f32)
        (transpose S8x8 [1, 0] (truncf .bf16 W bitsLt_bf16_f32) transposes_S8x8_p1_0_S8x8)
        (constant S5000x8 .f32 0x00000000#32))
      (broadcastTo S5000x8 (shapeCast S1x8 b shapeCasts_S1x8_S1x8) broadcasts_S1x8_S5000x8))
    (broadcast S5000x8 (Scalar.ofBits .f32 0x00000000#32))

/-- Region 3's first part is that map applied to region 2's body (whose last step, a change of float format, is the
    identity on the extended reals). -/
theorem k3_pay2_eq_headDense (v0 : Vec Ideal S5000x16 .f32) (v2 : Vec Ideal S5000x1 .f32) (v7 : Vec Ideal S5000x16 .bf16)
    (v9 v12 : Vec Ideal S16x16 .f32) (v17 : Vec Ideal S1x16 .f32) (v28 : Vec Ideal S8x8 .f32) (v32 : Vec Ideal S1x8 .f32) :
    k3_pay2 (F := Ideal) v0 v2 v7 v9 v12 v17 v28 v32 = headDense (k2_pay1 (F := Ideal) v0 v2 v7 v9 v12 v17) v28 v32 := rfl

/-- The transposed 8×8 weights at (k, q) are the weights at (q, k). -/
theorem transposed8_apply (W : Vec Ideal S8x8 .f32) (k q : Fin 8) :
    (transpose S8x8 [1, 0] (truncf .bf16 W bitsLt_bf16_f32) transposes_S8x8_p1_0_S8x8 : FVec Ideal S8x8 .bf16) (ix2 k q)
      = W (ix2 q k) :=
  transpose_apply [1, 0] (truncf .bf16 W bitsLt_bf16_f32 : FVec Ideal S8x8 .bf16) transposes_S8x8_p1_0_S8x8 (ix2 k q) (ix2 q k)
    (fun a => match a with
      | ⟨0, _⟩ => rfl
      | ⟨1, _⟩ => rfl)

/-- The 8-feature bias row, spread over the 5000 rows, at (p, q) is the bias at q. -/
theorem biasRow8_apply (b : Vec Ideal S1x8 .f32) (p : Fin 5000) (q : Fin 8) :
    (broadcastTo S5000x8 (shapeCast S1x8 b shapeCasts_S1x8_S1x8) broadcasts_S1x8_S5000x8 : FVec Ideal S5000x8 .f32) (ix2 p q)
      = b (ix2 0 q) := by
  rw [shapeCast_self]
  exact broadcastTo_1b_ab_apply b broadcasts_S1x8_S5000x8 p q

/-- The first 8 columns of a block at (p, k): the block at (p, k), with k read as one of the 16 columns. -/
theorem firstCols_apply (h : FVec Ideal S5000x16 .f32) (p : Fin 5000) (k : Fin 8) :
    (truncf .bf16 (extractStridedSlice S5000x8 ![0, 0] h slices_S5000x16_o0_0_S5000x8) bitsLt_bf16_f32 : FVec Ideal S5000x8 .bf16) (ix2 p k)
      = first8 (fun c => h (ix2 p c)) k := by
  rw [truncf_apply]
  exact extractStridedSlice_apply ![0, 0] h slices_S5000x16_o0_0_S5000x8 (ix2 p k) (ix2 p (Fin.castLE (by decide) k))
    (fun a => match a with
      | ⟨0, _⟩ => by show p.val = 0 + p.val; omega
      | ⟨1, _⟩ => by show k.val = 0 + k.val; omega)

/-- That map at element (p, q): max(Σₖ h[p,k]·W[q,k] + b[q], 0), k over the first 8 columns. -/
theorem headDense_apply (h : FVec Ideal S5000x16 .f32) (W : Vec Ideal S8x8 .f32) (b : Vec Ideal S1x8 .f32)
    (p : Fin 5000) (q : Fin 8) :
    headDense h W b (ix2 p q) = dense8Row (first8 (fun c => h (ix2 p c))) W (fun j => (b (ix2 0 j) : EReal)) q := by
  unfold headDense dense8Row
  rw [maximumf_apply, addf_apply, broadcast_apply, prod8_apply, biasRow8_apply]
  rw [show (Scalar.ofBits .f32 0x00000000#32 : Ideal .f32) = 0 from Ideal.ofBits_zero_f32]
  refine congrArg (fun s => max (s + b (ix2 0 q)) 0) (Finset.sum_congr rfl fun k _ => ?_)
  rw [transposed8_apply, firstCols_apply]

/-! ## The softmax over a row's 8 values -/

/-- A column [a, 1] spread over b columns reads, at (p, c), the column at p. -/
theorem columnBroadcast8_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One number per row, written as a column and spread over the 8 columns, at (p, q) is the number of row p. -/
theorem perRow_apply (v : FVec Ideal S5000 .f32) (p : Fin 5000) (q : Fin 8) :
    (broadcastTo S5000x8 (shapeCast S5000x1 v shapeCasts_S5000_S5000x1) broadcasts_S5000x1_S5000x8 : FVec Ideal S5000x8 .f32) (ix2 p q)
      = v (ix1 p) := by
  refine (columnBroadcast8_apply (shapeCast S5000x1 v shapeCasts_S5000_S5000x1) broadcasts_S5000x1_S5000x8 p q).trans ?_
  refine shapeCast_apply v shapeCasts_S5000_S5000x1 (ix2 p (0 : Fin 1)) (ix1 p) ?_
  rw [Shape.rowMajor_val_one, Shape.rowMajor_val_two]
  show p.val = p.val * 1 + 0
  omega

/-- The index over row p with column k put back in. -/
theorem lift_row (p : Fin 5000) (k : Fin 8) : reduces_S5000x8_S5000.lift (ix1 p) k = ix2 p k :=
  funext fun c => Fin.ext (match c with
    | ⟨0, _⟩ => rfl
    | ⟨1, _⟩ => rfl)

/-- The word the maximum starts from is -∞. -/
theorem negInf_word : (FloatOps.ofBits .f32 0xFF800000#32 : Ideal .f32) = (⊥ : EReal) := by
  show Ideal.ofBits .f32 0xFF800000#32 = ⊥
  simp [Ideal.ofBits, Ideal.ieee]

/-- The maximum over the columns, at row p, is the row's largest value. -/
theorem rowMax_read (z : FVec Ideal S5000x8 .f32) (hφ : FKind.Formats .f32)
    (hacc : (0xFF800000#32 : BitVec 32) = FKind.maximumf.neutral .f32 hφ) (p : Fin 5000) :
    multiReduction .maximumf [1] S5000 z 0xFF800000#32 reduces_S5000x8_S5000 hφ hacc (ix1 p)
      = rowMax (fun k => z (ix2 p k)) := by
  rw [Ideal.multiReduction_maximumf_single, negInf_word]
  unfold rowMax
  refine congrArg (fun f => (Finset.univ : Finset (Fin 8)).fold max (⊥ : EReal) f) (funext fun k => ?_)
  exact congrArg z (lift_row p k)

/-- The sum over the columns, at row p, is the sum of the row's 8 values. -/
theorem rowSum_read (z : FVec Ideal S5000x8 .f32) (hφ : FKind.Formats .f32)
    (hacc : (0x00000000#32 : BitVec 32) = FKind.add.neutral .f32 hφ) (p : Fin 5000) :
    multiReduction .add [1] S5000 z 0x00000000#32 reduces_S5000x8_S5000 hφ hacc (ix1 p)
      = ∑ k : Fin 8, z (ix2 p k) := by
  rw [Ideal.multiReduction_add_single]
  refine Finset.sum_congr rfl fun k _ => ?_
  exact congrArg z (lift_row p k)

/-- The exponentials of a block's values less their row's maximum. -/
def expShift (z : FVec Ideal S5000x8 .f32) : FVec Ideal S5000x8 .f32 :=
  exp (subf z (broadcastTo S5000x8
    (shapeCast S5000x1 (multiReduction .maximumf [1] S5000 z 0xFF800000#32 reduces_S5000x8_S5000 (.inl rfl) rfl) shapeCasts_S5000_S5000x1)
    broadcasts_S5000x1_S5000x8))

/-- Those exponentials at element (p, q): exp(z[p,q] − the largest value of row p). -/
theorem expShift_apply (z : FVec Ideal S5000x8 .f32) (p : Fin 5000) (q : Fin 8) :
    expShift z (ix2 p q) = Ideal.exp (z (ix2 p q) - rowMax (fun k => z (ix2 p k))) := by
  unfold expShift
  show Ideal.exp (z (ix2 p q) - (broadcastTo S5000x8
    (shapeCast S5000x1 (multiReduction .maximumf [1] S5000 z 0xFF800000#32 reduces_S5000x8_S5000 (.inl rfl) rfl) shapeCasts_S5000_S5000x1)
    broadcasts_S5000x1_S5000x8 : FVec Ideal S5000x8 .f32) (ix2 p q)) = _
  rw [perRow_apply]
  exact congrArg (fun m => Ideal.exp (z (ix2 p q) - m)) (rowMax_read z _ _ p)

/-- Region 3's last part is the quotient of those exponentials by their row sums. -/
theorem k3_pay1_eq (z : FVec Ideal S5000x8 .f32) :
    k3_pay1 (F := Ideal) z = divf (expShift z) (broadcastTo S5000x8
      (shapeCast S5000x1 (multiReduction .add [1] S5000 (expShift z) 0x00000000#32 reduces_S5000x8_S5000 (.inl rfl) rfl) shapeCasts_S5000_S5000x1)
      broadcasts_S5000x1_S5000x8) := rfl

/-- The softmax at element (p, q). -/
theorem softmax_apply (z : FVec Ideal S5000x8 .f32) (p : Fin 5000) (q : Fin 8) :
    k3_pay1 (F := Ideal) z (ix2 p q) = softmaxRow (fun k => z (ix2 p k)) q := by
  rw [k3_pay1_eq, divf_apply, perRow_apply]
  refine (congrArg (fun s => Ideal.div (expShift z (ix2 p q)) s) (rowSum_read (expShift z) _ _ p)).trans ?_
  rw [expShift_apply]
  unfold softmaxRow
  refine congrArg (fun s => Ideal.div (Ideal.exp (z (ix2 p q) - rowMax (fun k => z (ix2 p k)))) s)
    (Finset.sum_congr rfl fun k _ => ?_)
  rw [expShift_apply]
/-- Region 3's body at one element: the first 8 features of row `p` of the layer body, the dense 8→8 layer (`v28` weights, `v32` bias
    row) with relu, and the softmax over the 8 features. -/
theorem head_tail_apply (v0 : Vec Ideal S5000x16 .f32) (v2 : Vec Ideal S5000x1 .f32) (v7 : Vec Ideal S5000x16 .bf16)
    (v9 v12 : Vec Ideal S16x16 .f32) (v17 : Vec Ideal S1x16 .f32) (v28 : Vec Ideal S8x8 .f32) (v32 : Vec Ideal S1x8 .f32)
    (p : Fin 5000) (q : Fin 8) :
    (k3_pay1 (F := Ideal) (k3_pay2 (F := Ideal) v0 v2 v7 v9 v12 v17 v28 v32) : S5000x8.Idx → EReal) (ix2 p q)
      = softmaxRow (dense8Row (first8 (fun k => (k2_pay1 (F := Ideal) v0 v2 v7 v9 v12 v17 : S5000x16.Idx → EReal) (ix2 p k)))
          v28 (fun j => (v32 (ix2 0 j) : EReal))) q := by
  rw [softmax_apply, k3_pay2_eq_headDense]
  refine congrArg (fun z => softmaxRow z q) (funext fun j => ?_)
  exact headDense_apply _ v28 v32 p j

end Cert.KernelIdeal.Rows

end
-- ==== Proof.Rows.lean ====
/-
  The four kernel bodies at one element of their output blocks, in the vocabulary of `Spec.lean`: the layer's row function
  for regions 0 and 2, the layer followed by the dense layer for region 1, the layer followed by the 8-feature head and the
  softmax for region 3 (the layer part and the parts after it are read in the two modules this one joins).
-/
import proofs.«414788_j17016660427424_3_alg».proof.Proof.RowsSage
import proofs.«414788_j17016660427424_3_alg».proof.Proof.RowsTail

noncomputable section

open scoped BigOperators

namespace Cert.KernelIdeal.Rows

open Cert.KernelIdeal Cert.KernelIdeal.Gen Cert.SageNet Idealize.ShloMosaic Idealize.ShloMosaic.ValueIdx

/-- Region 1's body: the layer, then the dense 16→16 layer with relu. -/
theorem sageDense_apply (v0 : Vec Ideal S5000x16 .f32) (v2 : Vec Ideal S5000x1 .f32) (v7 : Vec Ideal S5000x16 .bf16)
    (v9 v12 : Vec Ideal S16x16 .f32) (v17 : Vec Ideal S1x16 .f32) (v27 : Vec Ideal S16x16 .f32) (v31 : Vec Ideal S1x16 .f32)
    (p : Fin 5000) (q : Fin 16) :
    (k1_pay1 (F := Ideal) v0 v2 v7 v9 v12 v17 v27 v31 : S5000x16.Idx → EReal) (ix2 p q)
      = dense16Row (sageRow (fun k => (v0 (ix2 p k) : EReal) * (v2 (ix2 p 0) : EReal)) (fun k => (v7 (ix2 p k) : EReal))
          v9 v12 (fun j => (v17 (ix2 0 j) : EReal))) v27 (fun j => (v31 (ix2 0 j) : EReal)) q := by
  rw [dense_tail_apply]
  exact congrArg (fun h => dense16Row h v27 (fun j => (v31 (ix2 0 j) : EReal)) q) (funext fun k => sage2_apply v0 v2 v7 v9 v12 v17 p k)

/-- Region 3's body: the layer, its first 8 features, the dense 8→8 layer with relu, the softmax. -/
theorem sageHead_apply (v0 : Vec Ideal S5000x16 .f32) (v2 : Vec Ideal S5000x1 .f32) (v7 : Vec Ideal S5000x16 .bf16)
    (v9 v12 : Vec Ideal S16x16 .f32) (v17 : Vec Ideal S1x16 .f32) (v28 : Vec Ideal S8x8 .f32) (v32 : Vec Ideal S1x8 .f32)
    (p : Fin 5000) (q : Fin 8) :
    (k3_pay1 (F := Ideal) (k3_pay2 (F := Ideal) v0 v2 v7 v9 v12 v17 v28 v32) : S5000x8.Idx → EReal) (ix2 p q)
      = softmaxRow (dense8Row (first8 (sageRow (fun k => (v0 (ix2 p k) : EReal) * (v2 (ix2 p 0) : EReal))
          (fun k => (v7 (ix2 p k) : EReal)) v9 v12 (fun j => (v17 (ix2 0 j) : EReal)))) v28 (fun j => (v32 (ix2 0 j) : EReal))) q := by
  rw [head_tail_apply]
  exact congrArg (fun h => softmaxRow (dense8Row (first8 h) v28 (fun j => (v32 (ix2 0 j) : EReal))) q)
    (funext fun k => sage2_apply v0 v2 v7 v9 v12 v17 p k)

end Cert.KernelIdeal.Rows

end
-- ==== Proof.Arrays.lean ====
/-
  What each pallas_call leaves in its output array, as ONE function of the arrays it finds: grid point `t` (of 40) holds rows
  5000·t … 5000·t + 4999 of every row-blocked operand and the whole of every small one, its body writes the layer's
  row function of those rows into the same rows of the output, and the 40 blocks tile the 200000 rows. So the output
  array is the layer of `Spec.lean` applied to the input arrays, whatever those arrays hold when the call is entered.
-/
import proofs.«414788_j17016660427424_3_alg».proof.Proof.Gen.KernelIdeal.Frame
import proofs.«414788_j17016660427424_3_alg».proof.Proof.Rows
import Idealize.ShloMosaic.Lib.Pipeline.Value

set_option maxRecDepth 16384

noncomputable section

open scoped BigOperators

namespace Cert.KernelIdeal.Arrays

open Cert.KernelIdeal Cert.KernelIdeal.Gen Cert.SageNet Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two zero offsets of a whole-block rectangle, spelt as the constant function. -/
theorem zeroOffsets : (![0, 0] : Fin 2 → Nat) = fun _ => 0 := funext fun a => by fin_cases a <;> rfl

/-- Block indices of the first call's seven windows at grid point `t`: the row-blocked ones sit at block row `t`,
    column block 0; the weights and the bias row at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the block of neighbour sums at point `t` is row `5000·t + p` of the array. -/
theorem sums0_block (c : Dev nD) (t : Fin cfg0.N) (p : Fin 5000) (k : Fin 16) (h : 5000 * t.val + p.val < 200000) :
    (iblk0 (F := Ideal) V c 0 t : S5000x16.Idx → EReal) (ix2 p k)
      = (V c main_v22 : S200000x16.Idx → EReal) (ix2 ⟨5000 * t.val + p.val, h⟩ k) := by
  obtain ⟨e0, e1, -⟩ := blockIndex0 t
  unfold iblk0
  rw [View.read_apply]
  show (V c main_v22 : S200000x16.Idx → EReal) _ = _
  refine congrArg _ ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 16 + 1 * k.val = k.val; rw [e1]; omega

/-- Row `p` of the block of own features at point `t` is row `5000·t + p` of the array. -/
theorem feat0_block (c : Dev nD) (t : Fin cfg0.N) (p : Fin 5000) (k : Fin 16) (h : 5000 * t.val + p.val < 200000) :
    (iblk0 (F := Ideal) V c 1 t : S5000x16.Idx → EReal) (ix2 p k)
      = (V c main_arg0 : S200000x16.Idx → EReal) (ix2 ⟨5000 * t.val + p.val, h⟩ k) := by
  obtain ⟨-, -, e0, e1, -⟩ := blockIndex0 t
  unfold iblk0
  rw [View.read_apply]
  show (V c main_arg0 : S200000x16.Idx → EReal) _ = _
  refine congrArg _ ?_
  funext a
  apply Fin.ext
  match a with
  | ⟨0, _⟩ => show win0_1.index t (0 : Fin 2) * 5000 + 1 * p.val = 5000 * t.val + p.val; rw [e0]; omega
  | ⟨1, _⟩ => show win0_1.index t (1 : Fin 2) * 16 + 1 * k.val = k.val; rw [e1]; omega

/-- Entry `p` of the block of the reciprocal column at point `t` is entry `5000·t + p` of the column. -/
theorem recip0_block (c : Dev nD) (t : Fin cfg0.N) (p : Fin 5000) (k : Fin 1) (h : 5000 * t.val + p.val < 200000) :
    (iblk0 (F := Ideal) V c 2 t : S5000x1.Idx → EReal) (ix2 p k)
      = (V c main_v12 : S200000x1.Idx → EReal) (ix2 ⟨5000 * t.val + p.val, h⟩ k) := by
  obtain ⟨-, -, -, -, e0, e1, -⟩ := blockIndex0 t
  unfold iblk0
  rw [View.read_apply]
  show (V c main_v12 : S200000x1.Idx → EReal) _ = _
  refine congrArg _ ?_
  funext a
  apply Fin.ext
  match a with
  | ⟨0, _⟩ => show win0_2.index t (0 : Fin 2) * 5000 + 1 * p.val = 5000 * t.val + p.val; rw [e0]; omega
  | ⟨1, _⟩ => show win0_2.index t (1 : Fin 2) * 1 + 1 * k.val = k.val; rw [e1]; omega

/-- The block of the neighbour weights is the whole 16×16 array at every point. -/
theorem wl0_block (c : Dev nD) (t : Fin cfg0.N) :
    (iblk0 (F := Ideal) V c 3 t : S16x16.Idx → EReal) = (V c main_v24 : S16x16.Idx → EReal) := by
  obtain ⟨-, -, -, -, -, -, e0, e1, -⟩ := blockIndex0 t
  funext j
  unfold iblk0
  rw [View.read_apply]
  show (V c main_v24 : S16x16.Idx → EReal) _ = _
  refine congrArg _ ?_
  funext a
  apply Fin.ext
  match a with
  | ⟨0, _⟩ => show win0_3.index t (0 : Fin 2) * 16 + 1 * (j 0).val = (j 0).val; rw [e0]; omega
  | ⟨1, _⟩ => show win0_3.index t (1 : Fin 2) * 16 + 1 * (j 1).val = (j 1).val; rw [e1]; omega

/-- The block of the bias row is the whole 1×16 array at every point. -/
theorem bias0_block (c : Dev nD) (t : Fin cfg0.N) :
    (iblk0 (F := Ideal) V c 4 t : S1x16.Idx → EReal) = (V c main_v29 : S1x16.Idx → EReal) := by
  obtain ⟨-, -, -, -, -, -, -, -, e0, e1, -⟩ := blockIndex0 t
  funext j
  unfold iblk0
  rw [View.read_apply]
  show (V c main_v29 : S1x16.Idx → EReal) _ = _
  refine congrArg _ ?_
  funext a
  apply Fin.ext
  match a with
  | ⟨0, _⟩ => show win0_4.index t (0 : Fin 2) * 1 + 1 * (j 0).val = (j 0).val; rw [e0]; omega
  | ⟨1, _⟩ => show win0_4.index t (1 : Fin 2) * 16 + 1 * (j 1).val = (j 1).val; rw [e1]; omega

/-- The block of the own-feature weights is the whole 16×16 array at every point. -/
theorem wr0_block (c : Dev nD) (t : Fin cfg0.N) :
    (iblk0 (F := Ideal) V c 5 t : S16x16.Idx → EReal) = (V c main_v28 : S16x16.Idx → EReal) := by
  obtain ⟨-, -, -, -, -, -, -, -, -, -, e0, e1, -⟩ := blockIndex0 t
  funext j
  unfold iblk0
  rw [View.read_apply]
  show (V c main_v28 : S16x16.Idx → EReal) _ = _
  refine congrArg _ ?_
  funext a
  apply Fin.ext
  match a with
  | ⟨0, _⟩ => show win0_5.index t (0 : Fin 2) * 16 + 1 * (j 0).val = (j 0).val; rw [e0]; omega
  | ⟨1, _⟩ => show win0_5.index t (1 : Fin 2) * 16 + 1 * (j 1).val = (j 1).val; rw [e1]; omega

/-- Where entry (p, q) of the output block at point `t` lies in the output array: row `5000·t + p`, column `q`. -/
theorem out0_place (t : Fin cfg0.N) (p : Fin 5000) (q : Fin 16) (h : 5000 * t.val + p.val < 200000) :
    (((cfg0.win 6).blk t).view.emb (ix2 p q) : S200000x16.Idx) = ix2 ⟨5000 * t.val + p.val, h⟩ q := by
  obtain ⟨-, -, -, -, -, -, -, -, -, -, -, -, e0, e1⟩ := blockIndex0 t
  funext a
  apply Fin.ext
  match a with
  | ⟨0, _⟩ => show win0_6.index t (0 : Fin 2) * 5000 + 1 * p.val = 5000 * t.val + p.val; rw [e0]; omega
  | ⟨1, _⟩ => show win0_6.index t (1 : Fin 2) * 16 + 1 * q.val = q.val; rw [e1]; omega

/-- What the first call leaves in its output array: the layer of the arrays it finds. -/
abbrev layerOut0 (c : Dev nD) : S200000x16.Idx → EReal :=
  layer (meanMul (V c main_v22) (V c main_v12)) (V c main_arg0) (V c main_v24) (V c main_v28)
    (fun j => (V c main_v29 : S1x16.Idx → EReal) (ix2 0 j))

/-- A grid point below 40 and a block row below 5000 name an array row below 200000. -/
theorem row_lt (t : Fin cfg0.N) (p : Fin 5000) : 5000 * t.val + p.val < 200000 := by
  have ht : t.val < 40 := Nat.lt_of_lt_of_eq t.isLt N_0
  have hp := p.isLt
  omega

/-- What point `t` writes back is block `t` of the layer's output. -/
theorem flushed0 (c : Dev nD) (t : Fin cfg0.N) :
    (dat0 (F := Ideal) V c).flushed 6 t = ((cfg0.win 6).blk t).view.read (Elt Ideal) (layerOut0 V c) := by
  show (cfg0.win 6).cut (grid0.coords t) ((dat0 (F := Ideal) V c).after 6 t) = _
  rw [after0_6]
  unfold out0_6
  rw [View.canon_unit_zero zeroOffsets]
  simp only [View.ld_unit_zero (S := S5000x16) zeroOffsets, View.ld_unit_zero (S := S5000x1) zeroOffsets,
    View.ld_unit_zero (S := S16x16) zeroOffsets, View.ld_unit_zero (S := S1x16) zeroOffsets]
  funext j
  obtain ⟨p, q, rfl⟩ : ∃ (p : Fin 5000) (q : Fin 16), j = ix2 p q := ⟨j 0, j 1, eq_ix2 j⟩
  refine (Rows.sage0_apply _ _ _ _ _ _ p q).trans ?_
  refine Eq.trans ?_ (congrArg (layerOut0 V c) (out0_place t p q (row_lt t p))).symm
  rw [wl0_block, wr0_block, bias0_block]
  simp only [sums0_block V c t p _ (row_lt t p), feat0_block V c t p _ (row_lt t p), recip0_block V c t p _ (row_lt t p)]
  rfl

/-- An index of the output array is in point `t`'s block iff each coordinate is in the block's range on its axis. -/
theorem mem_outBlock0 (t : Fin cfg0.N) (i : S200000x16.Idx) :
    i ∈ ((cfg0.win 6).blk t).view.set ↔ ∀ a : Fin 2, win0_6.index t a * S5000x16.size a ≤ (i a).val
      ∧ (i a).val < win0_6.index t a * S5000x16.size a + S5000x16.size a := by
  show i ∈ ((View.whole main_v30).slice (win0_6.rect t)).set ↔ _
  rw [View.set_slice_whole, Rect.mem_set_unit]
  exact Iff.rfl

/-- The 40 blocks tile the rows: row `r` is in the block of point `r / 5000`, and every point writes its block back. -/
theorem cover0 (i : S200000x16.Idx) :
    ∃ t : Fin cfg0.N, (cfg0.win 6).flush t = true ∧ i ∈ ((cfg0.win 6).blk t).view.set := by
  have hi0 : (i 0).val < 200000 := idx2_lt0 i
  have hi1 : (i 1).val < 16 := idx2_lt1 i
  obtain ⟨t, ht⟩ : ∃ t : Fin cfg0.N, t.val = (i 0).val / 5000 :=
    ⟨⟨(i 0).val / 5000, Nat.lt_of_lt_of_eq (by omega : (i 0).val / 5000 < 40) N_0.symm⟩, rfl⟩
  obtain ⟨-, -, -, -, -, -, -, -, -, -, -, -, e0, e1⟩ := blockIndex0 t
  refine ⟨t, flush0_6 t, ?_⟩
  rw [mem_outBlock0]
  intro a
  match a with
  | ⟨0, _⟩ =>
    show win0_6.index t (0 : Fin 2) * 5000 ≤ (i 0).val ∧ (i 0).val < win0_6.index t (0 : Fin 2) * 5000 + 5000
    rw [e0]; omega
  | ⟨1, _⟩ =>
    show win0_6.index t (1 : Fin 2) * 16 ≤ (i 1).val ∧ (i 1).val < win0_6.index t (1 : Fin 2) * 16 + 16
    rw [e1]; omega

/-- pallas_call 0 (first layer of the first stack): its output array `%30` from `%22` (neighbour sums), `%arg0` (own
    features), `%12` (reciprocal column), `%24` / `%28` (Wl / Wr) and `%29` (bias row). -/
theorem region0_array (c : Dev nD) :
    ((dat0 (F := Ideal) V c).arrAt 6 cfg0.N : S200000x16.Idx → EReal)
      = layer (meanMul (V c main_v22) (V c main_v12)) (V c main_arg0) (V c main_v24) (V c main_v28)
          (fun j => (V c main_v29 : S1x16.Idx → EReal) (ix2 0 j)) := by
  show (dat0 (F := Ideal) V c).arrAt 6 cfg0.N = _
  exact (dat0 (F := Ideal) V c).arrAt_eq_of_cover 6 (layerOut0 V c) (fun t _ => flushed0 V c t) cover0

/-! ## The second call: the layer, then the dense 16→16 layer -/

/-- Block indices of the second call's nine windows at grid point `t`: neighbour sums, own features, the reciprocal
    column and the output sit at block row `t`; the five small operands at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- In the second call too a point below 40 and a block row below 5000 name an array row below 200000. -/
theorem row_lt1 (t : Fin cfg1.N) (p : Fin 5000) : 5000 * t.val + p.val < 200000 := by
  have ht : t.val < 40 := Nat.lt_of_lt_of_eq t.isLt N_1
  have hp := p.isLt
  omega

/-- Row `p` of the second call's block of neighbour sums at point `t` is row `5000·t + p` of the array. -/
theorem sums1_block (c : Dev nD) (t : Fin cfg1.N) (p : Fin 5000) (k : Fin 16) (h : 5000 * t.val + p.val < 200000) :
    (iblk1 (F := Ideal) V c 0 t : S5000x16.Idx → EReal) (ix2 p k)
      = (V c main_v41 : S200000x16.Idx → EReal) (ix2 ⟨5000 * t.val + p.val, h⟩ k) := by
  obtain ⟨e0, e1, -⟩ := blockIndex1 t
  unfold iblk1
  rw [View.read_apply]
  show (V c main_v41 : S200000x16.Idx → EReal) _ = _
  refine congrArg _ ?_
  funext a
  apply Fin.ext
  match a with
  | ⟨0, _⟩ => show win1_0.index t (0 : Fin 2) * 5000 + 1 * p.val = 5000 * t.val + p.val; rw [e0]; omega
  | ⟨1, _⟩ => show win1_0.index t (1 : Fin 2) * 16 + 1 * k.val = k.val; rw [e1]; omega

/-- Row `p` of its block of own features (the first call's output) is row `5000·t + p` of that array. -/
theorem feat1_block (c : Dev nD) (t : Fin cfg1.N) (p : Fin 5000) (k : Fin 16) (h : 5000 * t.val + p.val < 200000) :
    (iblk1 (F := Ideal) V c 1 t : S5000x16.Idx → EReal) (ix2 p k)
      = (V c main_v30 : S200000x16.Idx → EReal) (ix2 ⟨5000 * t.val + p.val, h⟩ k) := by
  obtain ⟨-, -, e0, e1, -⟩ := blockIndex1 t
  unfold iblk1
  rw [View.read_apply]
  show (V c main_v30 : S200000x16.Idx → EReal) _ = _
  refine congrArg _ ?_
  funext a
  apply Fin.ext
  match a with
  | ⟨0, _⟩ => show win1_1.index t (0 : Fin 2) * 5000 + 1 * p.val = 5000 * t.val + p.val; rw [e0]; omega
  | ⟨1, _⟩ => show win1_1.index t (1 : Fin 2) * 16 + 1 * k.val = k.val; rw [e1]; omega

/-- Entry `p` of its block of the reciprocal column is entry `5000·t + p` of the column. -/
theorem recip1_block (c : Dev nD) (t : Fin cfg1.N) (p : Fin 5000) (k : Fin 1) (h : 5000 * t.val + p.val < 200000) :
    (iblk1 (F := Ideal) V c 2 t : S5000x1.Idx → EReal) (ix2 p k)
      = (V c main_v12 : S200000x1.Idx → EReal) (ix2 ⟨5000 * t.val + p.val, h⟩ k) := by
  obtain ⟨-, -, -, -, e0, e1, -⟩ := blockIndex1 t
  unfold iblk1
  rw [View.read_apply]
  show (V c main_v12 : S200000x1.Idx → EReal) _ = _
  refine congrArg _ ?_
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * k.val = k.val; rw [e1]; omega

/-- Its block of the neighbour weights is the whole 16×16 array. -/
theorem wl1_block (c : Dev nD) (t : Fin cfg1.N) :
    (iblk1 (F := Ideal) V c 3 t : S16x16.Idx → EReal) = (V c main_v43 : S16x16.Idx → EReal) := by
  obtain ⟨-, -, -, -, -, -, e0, e1, -⟩ := blockIndex1 t
  funext j
  unfold iblk1
  rw [View.read_apply]
  show (V c main_v43 : S16x16.Idx → EReal) _ = _
  refine congrArg _ ?_
  funext a
  apply Fin.ext
  match a with
  | ⟨0, _⟩ => show win1_3.index t (0 : Fin 2) * 16 + 1 * (j 0).val = (j 0).val; rw [e0]; omega
  | ⟨1, _⟩ => show win1_3.index t (1 : Fin 2) * 16 + 1 * (j 1).val = (j 1).val; rw [e1]; omega

/-- Its block of the layer's bias row is the whole 1×16 array. -/
theorem bias1_block (c : Dev nD) (t : Fin cfg1.N) :
    (iblk1 (F := Ideal) V c 4 t : S1x16.Idx → EReal) = (V c main_v48 : S1x16.Idx → EReal) := by
  obtain ⟨-, -, -, -, -, -, -, -, e0, e1, -⟩ := blockIndex1 t
  funext j
  unfold iblk1
  rw [View.read_apply]
  show (V c main_v48 : S1x16.Idx → EReal) _ = _
  refine congrArg _ ?_
  funext a
  apply Fin.ext
  match a with
  | ⟨0, _⟩ => show win1_4.index t (0 : Fin 2) * 1 + 1 * (j 0).val = (j 0).val; rw [e0]; omega
  | ⟨1, _⟩ => show win1_4.index t (1 : Fin 2) * 16 + 1 * (j 1).val = (j 1).val; rw [e1]; omega

/-- Its block of the own-feature weights is the whole 16×16 array. -/
theorem wr1_block (c : Dev nD) (t : Fin cfg1.N) :
    (iblk1 (F := Ideal) V c 5 t : S16x16.Idx → EReal) = (V c main_v47 : S16x16.Idx → EReal) := by
  obtain ⟨-, -, -, -, -, -, -, -, -, -, e0, e1, -⟩ := blockIndex1 t
  funext j
  unfold iblk1
  rw [View.read_apply]
  show (V c main_v47 : S16x16.Idx → EReal) _ = _
  refine congrArg _ ?_
  funext a
  apply Fin.ext
  match a with
  | ⟨0, _⟩ => show win1_5.index t (0 : Fin 2) * 16 + 1 * (j 0).val = (j 0).val; rw [e0]; omega
  | ⟨1, _⟩ => show win1_5.index t (1 : Fin 2) * 16 + 1 * (j 1).val = (j 1).val; rw [e1]; omega

/-- Its block of the dense layer's weights is the whole 16×16 array. -/
theorem denseW1_block (c : Dev nD) (t : Fin cfg1.N) :
    (iblk1 (F := Ideal) V c 6 t : S16x16.Idx → EReal) = (V c main_arg8 : S16x16.Idx → EReal) := by
  obtain ⟨-, -, -, -, -, -, -, -, -, -, -, -, e0, e1, -⟩ := blockIndex1 t
  funext j
  unfold iblk1
  rw [View.read_apply]
  show (V c main_arg8 : S16x16.Idx → EReal) _ = _
  refine congrArg _ ?_
  funext a
  apply Fin.ext
  match a with
  | ⟨0, _⟩ => show win1_6.index t (0 : Fin 2) * 16 + 1 * (j 0).val = (j 0).val; rw [e0]; omega
  | ⟨1, _⟩ => show win1_6.index t (1 : Fin 2) * 16 + 1 * (j 1).val = (j 1).val; rw [e1]; omega

/-- Its block of the dense layer's bias row is the whole 1×16 array. -/
theorem denseBias1_block (c : Dev nD) (t : Fin cfg1.N) :
    (iblk1 (F := Ideal) V c 7 t : S1x16.Idx → EReal) = (V c main_v49 : S1x16.Idx → EReal) := by
  obtain ⟨-, -, -, -, -, -, -, -, -, -, -, -, -, -, e0, e1, -⟩ := blockIndex1 t
  funext j
  unfold iblk1
  rw [View.read_apply]
  show (V c main_v49 : S1x16.Idx → EReal) _ = _
  refine congrArg _ ?_
  funext a
  apply Fin.ext
  match a with
  | ⟨0, _⟩ => show win1_7.index t (0 : Fin 2) * 1 + 1 * (j 0).val = (j 0).val; rw [e0]; omega
  | ⟨1, _⟩ => show win1_7.index t (1 : Fin 2) * 16 + 1 * (j 1).val = (j 1).val; rw [e1]; omega

/-- Entry (p, q) of the second call's output block at point `t` lies at row `5000·t + p`, column `q` of its array. -/
theorem out1_place (t : Fin cfg1.N) (p : Fin 5000) (q : Fin 16) (h : 5000 * t.val + p.val < 200000) :
    (((cfg1.win 8).blk t).view.emb (ix2 p q) : S200000x16.Idx) = ix2 ⟨5000 * t.val + p.val, h⟩ q := by
  obtain ⟨-, -, -, -, -, -, -, -, -, -, -, -, -, -, -, -, e0, e1⟩ := blockIndex1 t
  funext a
  apply Fin.ext
  match a with
  | ⟨0, _⟩ => show win1_8.index t (0 : Fin 2) * 5000 + 1 * p.val = 5000 * t.val + p.val; rw [e0]; omega
  | ⟨1, _⟩ => show win1_8.index t (1 : Fin 2) * 16 + 1 * q.val = q.val; rw [e1]; omega

/-- What the second call leaves in its output array: the layer and the dense layer of the arrays it finds. -/
abbrev layerOut1 (c : Dev nD) : S200000x16.Idx → EReal :=
  layerDense (meanMul (V c main_v41) (V c main_v12)) (V c main_v30) (V c main_v43) (V c main_v47)
    (fun j => (V c main_v48 : S1x16.Idx → EReal) (ix2 0 j)) (V c main_arg8)
    (fun j => (V c main_v49 : S1x16.Idx → EReal) (ix2 0 j))

/-- What point `t` of the second call writes back is block `t` of that array. -/
theorem flushed1 (c : Dev nD) (t : Fin cfg1.N) :
    (dat1 (F := Ideal) V c).flushed 8 t = ((cfg1.win 8).blk t).view.read (Elt Ideal) (layerOut1 V c) := by
  show (cfg1.win 8).cut (grid1.coords t) ((dat1 (F := Ideal) V c).after 8 t) = _
  rw [after1_8]
  unfold out1_8
  rw [View.canon_unit_zero zeroOffsets]
  simp only [View.ld_unit_zero (S := S5000x16) zeroOffsets, View.ld_unit_zero (S := S5000x1) zeroOffsets,
    View.ld_unit_zero (S := S16x16) zeroOffsets, View.ld_unit_zero (S := S1x16) zeroOffsets]
  funext j
  obtain ⟨p, q, rfl⟩ : ∃ (p : Fin 5000) (q : Fin 16), j = ix2 p q := ⟨j 0, j 1, eq_ix2 j⟩
  refine (Rows.sageDense_apply _ _ _ _ _ _ _ _ p q).trans ?_
  refine Eq.trans ?_ (congrArg (layerOut1 V c) (out1_place t p q (row_lt1 t p))).symm
  rw [wl1_block, wr1_block, bias1_block, denseW1_block, denseBias1_block]
  simp only [sums1_block V c t p _ (row_lt1 t p), feat1_block V c t p _ (row_lt1 t p), recip1_block V c t p _ (row_lt1 t p)]
  rfl

/-- An index of the second call's output array is in point `t`'s block iff each coordinate is in the block's range. -/
theorem mem_outBlock1 (t : Fin cfg1.N) (i : S200000x16.Idx) :
    i ∈ ((cfg1.win 8).blk t).view.set ↔ ∀ a : Fin 2, win1_8.index t a * S5000x16.size a ≤ (i a).val
      ∧ (i a).val < win1_8.index t a * S5000x16.size a + S5000x16.size a := by
  show i ∈ ((View.whole main_v50).slice (win1_8.rect t)).set ↔ _
  rw [View.set_slice_whole, Rect.mem_set_unit]
  exact Iff.rfl

/-- The second call's 40 output blocks tile the rows, and every point writes its block back. -/
theorem cover1 (i : S200000x16.Idx) :
    ∃ t : Fin cfg1.N, (cfg1.win 8).flush t = true ∧ i ∈ ((cfg1.win 8).blk t).view.set := by
  have hi0 : (i 0).val < 200000 := idx2_lt0 i
  have hi1 : (i 1).val < 16 := idx2_lt1 i
  obtain ⟨t, ht⟩ : ∃ t : Fin cfg1.N, t.val = (i 0).val / 5000 :=
    ⟨⟨(i 0).val / 5000, Nat.lt_of_lt_of_eq (by omega : (i 0).val / 5000 < 40) N_1.symm⟩, rfl⟩
  obtain ⟨-, -, -, -, -, -, -, -, -, -, -, -, -, -, -, -, e0, e1⟩ := blockIndex1 t
  refine ⟨t, flush1_8 t, ?_⟩
  rw [mem_outBlock1]
  intro a
  match a with
  | ⟨0, _⟩ =>
    show win1_8.index t (0 : Fin 2) * 5000 ≤ (i 0).val ∧ (i 0).val < win1_8.index t (0 : Fin 2) * 5000 + 5000
    rw [e0]; omega
  | ⟨1, _⟩ =>
    show win1_8.index t (1 : Fin 2) * 16 ≤ (i 1).val ∧ (i 1).val < win1_8.index t (1 : Fin 2) * 16 + 16
    rw [e1]; omega

/-- pallas_call 1 (second layer of the first stack, then the dense 16→16 layer): `%50` from `%41`, `%30`, `%12`, `%43` /
    `%47`, `%48`, and the dense layer's `%arg8`, `%49`. -/
theorem region1_array (c : Dev nD) :
    ((dat1 (F := Ideal) V c).arrAt 8 cfg1.N : S200000x16.Idx → EReal)
      = layerDense (meanMul (V c main_v41) (V c main_v12)) (V c main_v30) (V c main_v43) (V c main_v47)
          (fun j => (V c main_v48 : S1x16.Idx → EReal) (ix2 0 j)) (V c main_arg8)
          (fun j => (V c main_v49 : S1x16.Idx → EReal) (ix2 0 j)) := by
  show (dat1 (F := Ideal) V c).arrAt 8 cfg1.N = _
  exact (dat1 (F := Ideal) V c).arrAt_eq_of_cover 8 (layerOut1 V c) (fun t _ => flushed1 V c t) cover1

/-! ## The third call: the first layer of the second stack -/

/-- Block indices of the third call's seven windows at grid point `t`: the row-blocked ones at block row `t`, the
    weights and the bias row at block (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The third call's points and block rows name array rows below 200000. -/
theorem row_lt2 (t : Fin cfg2.N) (p : Fin 5000) : 5000 * t.val + p.val < 200000 := by
  have ht : t.val < 40 := Nat.lt_of_lt_of_eq t.isLt N_2
  have hp := p.isLt
  omega

/-- Row `p` of the third call's block of neighbour sums at point `t` is row `5000·t + p` of the array. -/
theorem sums2_block (c : Dev nD) (t : Fin cfg2.N) (p : Fin 5000) (k : Fin 16) (h : 5000 * t.val + p.val < 200000) :
    (iblk2 (F := Ideal) V c 0 t : S5000x16.Idx → EReal) (ix2 p k)
      = (V c main_v61 : S200000x16.Idx → EReal) (ix2 ⟨5000 * t.val + p.val, h⟩ k) := by
  obtain ⟨e0, e1, -⟩ := blockIndex2 t
  unfold iblk2
  rw [View.read_apply]
  show (V c main_v61 : S200000x16.Idx → EReal) _ = _
  refine congrArg _ ?_
  funext a
  apply Fin.ext
  match a with
  | ⟨0, _⟩ => show win2_0.index t (0 : Fin 2) * 5000 + 1 * p.val = 5000 * t.val + p.val; rw [e0]; omega
  | ⟨1, _⟩ => show win2_0.index t (1 : Fin 2) * 16 + 1 * k.val = k.val; rw [e1]; omega

/-- Row `p` of its block of own features (the second call's output) is row `5000·t + p` of that array. -/
theorem feat2_block (c : Dev nD) (t : Fin cfg2.N) (p : Fin 5000) (k : Fin 16) (h : 5000 * t.val + p.val < 200000) :
    (iblk2 (F := Ideal) V c 1 t : S5000x16.Idx → EReal) (ix2 p k)
      = (V c main_v50 : S200000x16.Idx → EReal) (ix2 ⟨5000 * t.val + p.val, h⟩ k) := by
  obtain ⟨-, -, e0, e1, -⟩ := blockIndex2 t
  unfold iblk2
  rw [View.read_apply]
  show (V c main_v50 : S200000x16.Idx → EReal) _ = _
  refine congrArg _ ?_
  funext a
  apply Fin.ext
  match a with
  | ⟨0, _⟩ => show win2_1.index t (0 : Fin 2) * 5000 + 1 * p.val = 5000 * t.val + p.val; rw [e0]; omega
  | ⟨1, _⟩ => show win2_1.index t (1 : Fin 2) * 16 + 1 * k.val = k.val; rw [e1]; omega

/-- Entry `p` of its block of the reciprocal column is entry `5000·t + p` of the column. -/
theorem recip2_block (c : Dev nD) (t : Fin cfg2.N) (p : Fin 5000) (k : Fin 1) (h : 5000 * t.val + p.val < 200000) :
    (iblk2 (F := Ideal) V c 2 t : S5000x1.Idx → EReal) (ix2 p k)
      = (V c main_v12 : S200000x1.Idx → EReal) (ix2 ⟨5000 * t.val + p.val, h⟩ k) := by
  obtain ⟨-, -, -, -, e0, e1, -⟩ := blockIndex2 t
  unfold iblk2
  rw [View.read_apply]
  show (V c main_v12 : S200000x1.Idx → EReal) _ = _
  refine congrArg _ ?_
  funext a
  apply Fin.ext
  match a with
  | ⟨0, _⟩ => show win2_2.index t (0 : Fin 2) * 5000 + 1 * p.val = 5000 * t.val + p.val; rw [e0]; omega
  | ⟨1, _⟩ => show win2_2.index t (1 : Fin 2) * 1 + 1 * k.val = k.val; rw [e1]; omega

/-- Its block of the neighbour weights is the whole 16×16 array. -/
theorem wl2_block (c : Dev nD) (t : Fin cfg2.N) :
    (iblk2 (F := Ideal) V c 3 t : S16x16.Idx → EReal) = (V c main_v63 : S16x16.Idx → EReal) := by
  obtain ⟨-, -, -, -, -, -, e0, e1, -⟩ := blockIndex2 t
  funext j
  unfold iblk2
  rw [View.read_apply]
  show (V c main_v63 : S16x16.Idx → EReal) _ = _
  refine congrArg _ ?_
  funext a
  apply Fin.ext
  match a with
  | ⟨0, _⟩ => show win2_3.index t (0 : Fin 2) * 16 + 1 * (j 0).val = (j 0).val; rw [e0]; omega
  | ⟨1, _⟩ => show win2_3.index t (1 : Fin 2) * 16 + 1 * (j 1).val = (j 1).val; rw [e1]; omega

/-- Its block of the bias row is the whole 1×16 array. -/
theorem bias2_block (c : Dev nD) (t : Fin cfg2.N) :
    (iblk2 (F := Ideal) V c 4 t : S1x16.Idx → EReal) = (V c main_v68 : S1x16.Idx → EReal) := by
  obtain ⟨-, -, -, -, -, -, -, -, e0, e1, -⟩ := blockIndex2 t
  funext j
  unfold iblk2
  rw [View.read_apply]
  show (V c main_v68 : S1x16.Idx → EReal) _ = _
  refine congrArg _ ?_
  funext a
  apply Fin.ext
  match a with
  | ⟨0, _⟩ => show win2_4.index t (0 : Fin 2) * 1 + 1 * (j 0).val = (j 0).val; rw [e0]; omega
  | ⟨1, _⟩ => show win2_4.index t (1 : Fin 2) * 16 + 1 * (j 1).val = (j 1).val; rw [e1]; omega

/-- Its block of the own-feature weights is the whole 16×16 array. -/
theorem wr2_block (c : Dev nD) (t : Fin cfg2.N) :
    (iblk2 (F := Ideal) V c 5 t : S16x16.Idx → EReal) = (V c main_v67 : S16x16.Idx → EReal) := by
  obtain ⟨-, -, -, -, -, -, -, -, -, -, e0, e1, -⟩ := blockIndex2 t
  funext j
  unfold iblk2
  rw [View.read_apply]
  show (V c main_v67 : S16x16.Idx → EReal) _ = _
  refine congrArg _ ?_
  funext a
  apply Fin.ext
  match a with
  | ⟨0, _⟩ => show win2_5.index t (0 : Fin 2) * 16 + 1 * (j 0).val = (j 0).val; rw [e0]; omega
  | ⟨1, _⟩ => show win2_5.index t (1 : Fin 2) * 16 + 1 * (j 1).val = (j 1).val; rw [e1]; omega

/-- Entry (p, q) of the third call's output block at point `t` lies at row `5000·t + p`, column `q` of its array. -/
theorem out2_place (t : Fin cfg2.N) (p : Fin 5000) (q : Fin 16) (h : 5000 * t.val + p.val < 200000) :
    (((cfg2.win 6).blk t).view.emb (ix2 p q) : S200000x16.Idx) = ix2 ⟨5000 * t.val + p.val, h⟩ q := by
  obtain ⟨-, -, -, -, -, -, -, -, -, -, -, -, e0, e1⟩ := blockIndex2 t
  funext a
  apply Fin.ext
  match a with
  | ⟨0, _⟩ => show win2_6.index t (0 : Fin 2) * 5000 + 1 * p.val = 5000 * t.val + p.val; rw [e0]; omega
  | ⟨1, _⟩ => show win2_6.index t (1 : Fin 2) * 16 + 1 * q.val = q.val; rw [e1]; omega

/-- What the third call leaves in its output array: the layer of the arrays it finds. -/
abbrev layerOut2 (c : Dev nD) : S200000x16.Idx → EReal :=
  layer (meanMul (V c main_v61) (V c main_v12)) (V c main_v50) (V c main_v63) (V c main_v67)
    (fun j => (V c main_v68 : S1x16.Idx → EReal) (ix2 0 j))

/-- What point `t` of the third call writes back is block `t` of that array. -/
theorem flushed2 (c : Dev nD) (t : Fin cfg2.N) :
    (dat2 (F := Ideal) V c).flushed 6 t = ((cfg2.win 6).blk t).view.read (Elt Ideal) (layerOut2 V c) := by
  show (cfg2.win 6).cut (grid2.coords t) ((dat2 (F := Ideal) V c).after 6 t) = _
  rw [after2_6]
  unfold out2_6
  rw [View.canon_unit_zero zeroOffsets]
  simp only [View.ld_unit_zero (S := S5000x16) zeroOffsets, View.ld_unit_zero (S := S5000x1) zeroOffsets,
    View.ld_unit_zero (S := S16x16) zeroOffsets, View.ld_unit_zero (S := S1x16) zeroOffsets]
  funext j
  obtain ⟨p, q, rfl⟩ : ∃ (p : Fin 5000) (q : Fin 16), j = ix2 p q := ⟨j 0, j 1, eq_ix2 j⟩
  refine (Rows.sage2_apply _ _ _ _ _ _ p q).trans ?_
  refine Eq.trans ?_ (congrArg (layerOut2 V c) (out2_place t p q (row_lt2 t p))).symm
  rw [wl2_block, wr2_block, bias2_block]
  simp only [sums2_block V c t p _ (row_lt2 t p), feat2_block V c t p _ (row_lt2 t p), recip2_block V c t p _ (row_lt2 t p)]
  rfl

/-- An index of the third call's output array is in point `t`'s block iff each coordinate is in the block's range. -/
theorem mem_outBlock2 (t : Fin cfg2.N) (i : S200000x16.Idx) :
    i ∈ ((cfg2.win 6).blk t).view.set ↔ ∀ a : Fin 2, win2_6.index t a * S5000x16.size a ≤ (i a).val
      ∧ (i a).val < win2_6.index t a * S5000x16.size a + S5000x16.size a := by
  show i ∈ ((View.whole main_v69).slice (win2_6.rect t)).set ↔ _
  rw [View.set_slice_whole, Rect.mem_set_unit]
  exact Iff.rfl

/-- The third call's 40 output blocks tile the rows, and every point writes its block back. -/
theorem cover2 (i : S200000x16.Idx) :
    ∃ t : Fin cfg2.N, (cfg2.win 6).flush t = true ∧ i ∈ ((cfg2.win 6).blk t).view.set := by
  have hi0 : (i 0).val < 200000 := idx2_lt0 i
  have hi1 : (i 1).val < 16 := idx2_lt1 i
  obtain ⟨t, ht⟩ : ∃ t : Fin cfg2.N, t.val = (i 0).val / 5000 :=
    ⟨⟨(i 0).val / 5000, Nat.lt_of_lt_of_eq (by omega : (i 0).val / 5000 < 40) N_2.symm⟩, rfl⟩
  obtain ⟨-, -, -, -, -, -, -, -, -, -, -, -, e0, e1⟩ := blockIndex2 t
  refine ⟨t, flush2_6 t, ?_⟩
  rw [mem_outBlock2]
  intro a
  match a with
  | ⟨0, _⟩ =>
    show win2_6.index t (0 : Fin 2) * 5000 ≤ (i 0).val ∧ (i 0).val < win2_6.index t (0 : Fin 2) * 5000 + 5000
    rw [e0]; omega
  | ⟨1, _⟩ =>
    show win2_6.index t (1 : Fin 2) * 16 ≤ (i 1).val ∧ (i 1).val < win2_6.index t (1 : Fin 2) * 16 + 16
    rw [e1]; omega

/-- pallas_call 2 (first layer of the second stack): `%69` from `%61`, `%50`, `%12`, `%63` / `%67`, `%68`. -/
theorem region2_array (c : Dev nD) :
    ((dat2 (F := Ideal) V c).arrAt 6 cfg2.N : S200000x16.Idx → EReal)
      = layer (meanMul (V c main_v61) (V c main_v12)) (V c main_v50) (V c main_v63) (V c main_v67)
          (fun j => (V c main_v68 : S1x16.Idx → EReal) (ix2 0 j)) := by
  show (dat2 (F := Ideal) V c).arrAt 6 cfg2.N = _
  exact (dat2 (F := Ideal) V c).arrAt_eq_of_cover 6 (layerOut2 V c) (fun t _ => flushed2 V c t) cover2

/-! ## The fourth call: the second layer of the second stack, its first 8 features, the dense 8→8 layer, the softmax -/

/-- Block indices of the fourth call's nine windows at grid point `t`: neighbour sums, own features, the reciprocal
    column and the 8-column output at block row `t`; the five small operands at block (0, 0). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- The fourth call's points and block rows name array rows below 200000. -/
theorem row_lt3 (t : Fin cfg3.N) (p : Fin 5000) : 5000 * t.val + p.val < 200000 := by
  have ht : t.val < 40 := Nat.lt_of_lt_of_eq t.isLt N_3
  have hp := p.isLt
  omega

/-- Row `p` of the fourth call's block of neighbour sums at point `t` is row `5000·t + p` of the array. -/
theorem sums3_block (c : Dev nD) (t : Fin cfg3.N) (p : Fin 5000) (k : Fin 16) (h : 5000 * t.val + p.val < 200000) :
    (iblk3 (F := Ideal) V c 0 t : S5000x16.Idx → EReal) (ix2 p k)
      = (V c main_v80 : S200000x16.Idx → EReal) (ix2 ⟨5000 * t.val + p.val, h⟩ k) := by
  obtain ⟨e0, e1, -⟩ := blockIndex3 t
  unfold iblk3
  rw [View.read_apply]
  show (V c main_v80 : S200000x16.Idx → EReal) _ = _
  refine congrArg _ ?_
  funext a
  apply Fin.ext
  match a with
  | ⟨0, _⟩ => show win3_0.index t (0 : Fin 2) * 5000 + 1 * p.val = 5000 * t.val + p.val; rw [e0]; omega
  | ⟨1, _⟩ => show win3_0.index t (1 : Fin 2) * 16 + 1 * k.val = k.val; rw [e1]; omega

/-- Row `p` of its block of own features (the third call's output) is row `5000·t + p` of that array. -/
theorem feat3_block (c : Dev nD) (t : Fin cfg3.N) (p : Fin 5000) (k : Fin 16) (h : 5000 * t.val + p.val < 200000) :
    (iblk3 (F := Ideal) V c 1 t : S5000x16.Idx → EReal) (ix2 p k)
      = (V c main_v69 : S200000x16.Idx → EReal) (ix2 ⟨5000 * t.val + p.val, h⟩ k) := by
  obtain ⟨-, -, e0, e1, -⟩ := blockIndex3 t
  unfold iblk3
  rw [View.read_apply]
  show (V c main_v69 : S200000x16.Idx → EReal) _ = _
  refine congrArg _ ?_
  funext a
  apply Fin.ext
  match a with
  | ⟨0, _⟩ => show win3_1.index t (0 : Fin 2) * 5000 + 1 * p.val = 5000 * t.val + p.val; rw [e0]; omega
  | ⟨1, _⟩ => show win3_1.index t (1 : Fin 2) * 16 + 1 * k.val = k.val; rw [e1]; omega

/-- Entry `p` of its block of the reciprocal column is entry `5000·t + p` of the column. -/
theorem recip3_block (c : Dev nD) (t : Fin cfg3.N) (p : Fin 5000) (k : Fin 1) (h : 5000 * t.val + p.val < 200000) :
    (iblk3 (F := Ideal) V c 2 t : S5000x1.Idx → EReal) (ix2 p k)
      = (V c main_v12 : S200000x1.Idx → EReal) (ix2 ⟨5000 * t.val + p.val, h⟩ k) := by
  obtain ⟨-, -, -, -, e0, e1, -⟩ := blockIndex3 t
  unfold iblk3
  rw [View.read_apply]
  show (V c main_v12 : S200000x1.Idx → EReal) _ = _
  refine congrArg _ ?_
  funext a
  apply Fin.ext
  match a with
  | ⟨0, _⟩ => show win3_2.index t (0 : Fin 2) * 5000 + 1 * p.val = 5000 * t.val + p.val; rw [e0]; omega
  | ⟨1, _⟩ => show win3_2.index t (1 : Fin 2) * 1 + 1 * k.val = k.val; rw [e1]; omega

/-- Its block of the neighbour weights is the whole 16×16 array. -/
theorem wl3_block (c : Dev nD) (t : Fin cfg3.N) :
    (iblk3 (F := Ideal) V c 3 t : S16x16.Idx → EReal) = (V c main_v82 : S16x16.Idx → EReal) := by
  obtain ⟨-, -, -, -, -, -, e0, e1, -⟩ := blockIndex3 t
  funext j
  unfold iblk3
  rw [View.read_apply]
  show (V c main_v82 : S16x16.Idx → EReal) _ = _
  refine congrArg _ ?_
  funext a
  apply Fin.ext
  match a with
  | ⟨0, _⟩ => show win3_3.index t (0 : Fin 2) * 16 + 1 * (j 0).val = (j 0).val; rw [e0]; omega
  | ⟨1, _⟩ => show win3_3.index t (1 : Fin 2) * 16 + 1 * (j 1).val = (j 1).val; rw [e1]; omega

/-- Its block of the layer's bias row is the whole 1×16 array. -/
theorem bias3_block (c : Dev nD) (t : Fin cfg3.N) :
    (iblk3 (F := Ideal) V c 4 t : S1x16.Idx → EReal) = (V c main_v87 : S1x16.Idx → EReal) := by
  obtain ⟨-, -, -, -, -, -, -, -, e0, e1, -⟩ := blockIndex3 t
  funext j
  unfold iblk3
  rw [View.read_apply]
  show (V c main_v87 : S1x16.Idx → EReal) _ = _
  refine congrArg _ ?_
  funext a
  apply Fin.ext
  match a with
  | ⟨0, _⟩ => show win3_4.index t (0 : Fin 2) * 1 + 1 * (j 0).val = (j 0).val; rw [e0]; omega
  | ⟨1, _⟩ => show win3_4.index t (1 : Fin 2) * 16 + 1 * (j 1).val = (j 1).val; rw [e1]; omega

/-- Its block of the own-feature weights is the whole 16×16 array. -/
theorem wr3_block (c : Dev nD) (t : Fin cfg3.N) :
    (iblk3 (F := Ideal) V c 5 t : S16x16.Idx → EReal) = (V c main_v86 : S16x16.Idx → EReal) := by
  obtain ⟨-, -, -, -, -, -, -, -, -, -, e0, e1, -⟩ := blockIndex3 t
  funext j
  unfold iblk3
  rw [View.read_apply]
  show (V c main_v86 : S16x16.Idx → EReal) _ = _
  refine congrArg _ ?_
  funext a
  apply Fin.ext
  match a with
  | ⟨0, _⟩ => show win3_5.index t (0 : Fin 2) * 16 + 1 * (j 0).val = (j 0).val; rw [e0]; omega
  | ⟨1, _⟩ => show win3_5.index t (1 : Fin 2) * 16 + 1 * (j 1).val = (j 1).val; rw [e1]; omega

/-- Its block of the head's weights is the whole 8×8 array. -/
theorem headW3_block (c : Dev nD) (t : Fin cfg3.N) :
    (iblk3 (F := Ideal) V c 6 t : S8x8.Idx → EReal) = (V c main_arg10 : S8x8.Idx → EReal) := by
  obtain ⟨-, -, -, -, -, -, -, -, -, -, -, -, e0, e1, -⟩ := blockIndex3 t
  funext j
  unfold iblk3
  rw [View.read_apply]
  show (V c main_arg10 : S8x8.Idx → EReal) _ = _
  refine congrArg _ ?_
  funext a
  apply Fin.ext
  match a with
  | ⟨0, _⟩ => show win3_6.index t (0 : Fin 2) * 8 + 1 * (j 0).val = (j 0).val; rw [e0]; omega
  | ⟨1, _⟩ => show win3_6.index t (1 : Fin 2) * 8 + 1 * (j 1).val = (j 1).val; rw [e1]; omega

/-- Its block of the head's bias row is the whole 1×8 array. -/
theorem headBias3_block (c : Dev nD) (t : Fin cfg3.N) :
    (iblk3 (F := Ideal) V c 7 t : S1x8.Idx → EReal) = (V c main_v88 : S1x8.Idx → EReal) := by
  obtain ⟨-, -, -, -, -, -, -, -, -, -, -, -, -, -, e0, e1, -⟩ := blockIndex3 t
  funext j
  unfold iblk3
  rw [View.read_apply]
  show (V c main_v88 : S1x8.Idx → EReal) _ = _
  refine congrArg _ ?_
  funext a
  apply Fin.ext
  match a with
  | ⟨0, _⟩ => show win3_7.index t (0 : Fin 2) * 1 + 1 * (j 0).val = (j 0).val; rw [e0]; omega
  | ⟨1, _⟩ => show win3_7.index t (1 : Fin 2) * 8 + 1 * (j 1).val = (j 1).val; rw [e1]; omega

/-- Entry (p, q) of the fourth call's 8-column output block at point `t` lies at row `5000·t + p`, column `q`. -/
theorem out3_place (t : Fin cfg3.N) (p : Fin 5000) (q : Fin 8) (h : 5000 * t.val + p.val < 200000) :
    (((cfg3.win 8).blk t).view.emb (ix2 p q) : S200000x8.Idx) = ix2 ⟨5000 * t.val + p.val, h⟩ q := by
  obtain ⟨-, -, -, -, -, -, -, -, -, -, -, -, -, -, -, -, e0, e1⟩ := blockIndex3 t
  funext a
  apply Fin.ext
  match a with
  | ⟨0, _⟩ => show win3_8.index t (0 : Fin 2) * 5000 + 1 * p.val = 5000 * t.val + p.val; rw [e0]; omega
  | ⟨1, _⟩ => show win3_8.index t (1 : Fin 2) * 8 + 1 * q.val = q.val; rw [e1]; omega

/-- What the fourth call leaves in its output array: the layer, the 8-feature head and the softmax of the arrays it
    finds. -/
abbrev layerOut3 (c : Dev nD) : S200000x8.Idx → EReal :=
  layerHead (meanMul (V c main_v80) (V c main_v12)) (V c main_v69) (V c main_v82) (V c main_v86)
    (fun j => (V c main_v87 : S1x16.Idx → EReal) (ix2 0 j)) (V c main_arg10)
    (fun j => (V c main_v88 : S1x8.Idx → EReal) (ix2 0 j))

/-- What point `t` of the fourth call writes back is block `t` of that array. -/
theorem flushed3 (c : Dev nD) (t : Fin cfg3.N) :
    (dat3 (F := Ideal) V c).flushed 8 t = ((cfg3.win 8).blk t).view.read (Elt Ideal) (layerOut3 V c) := by
  show (cfg3.win 8).cut (grid3.coords t) ((dat3 (F := Ideal) V c).after 8 t) = _
  rw [after3_8]
  unfold out3_8
  rw [View.canon_unit_zero zeroOffsets]
  simp only [View.ld_unit_zero (S := S5000x16) zeroOffsets, View.ld_unit_zero (S := S5000x1) zeroOffsets,
    View.ld_unit_zero (S := S16x16) zeroOffsets, View.ld_unit_zero (S := S1x16) zeroOffsets,
    View.ld_unit_zero (S := S8x8) zeroOffsets, View.ld_unit_zero (S := S1x8) zeroOffsets]
  funext j
  obtain ⟨p, q, rfl⟩ : ∃ (p : Fin 5000) (q : Fin 8), j = ix2 p q := ⟨j 0, j 1, eq_ix2 j⟩
  refine (Rows.sageHead_apply _ _ _ _ _ _ _ _ p q).trans ?_
  refine Eq.trans ?_ (congrArg (layerOut3 V c) (out3_place t p q (row_lt3 t p))).symm
  rw [wl3_block, wr3_block, bias3_block, headW3_block, headBias3_block]
  simp only [sums3_block V c t p _ (row_lt3 t p), feat3_block V c t p _ (row_lt3 t p), recip3_block V c t p _ (row_lt3 t p)]
  rfl

/-- An index of the fourth call's output array is in point `t`'s block iff each coordinate is in the block's range. -/
theorem mem_outBlock3 (t : Fin cfg3.N) (i : S200000x8.Idx) :
    i ∈ ((cfg3.win 8).blk t).view.set ↔ ∀ a : Fin 2, win3_8.index t a * S5000x8.size a ≤ (i a).val
      ∧ (i a).val < win3_8.index t a * S5000x8.size a + S5000x8.size a := by
  show i ∈ ((View.whole main_v89).slice (win3_8.rect t)).set ↔ _
  rw [View.set_slice_whole, Rect.mem_set_unit]
  exact Iff.rfl

/-- The fourth call's 40 output blocks tile the rows, and every point writes its block back. -/
theorem cover3 (i : S200000x8.Idx) :
    ∃ t : Fin cfg3.N, (cfg3.win 8).flush t = true ∧ i ∈ ((cfg3.win 8).blk t).view.set := by
  have hi0 : (i 0).val < 200000 := idx2_lt0 i
  have hi1 : (i 1).val < 8 := idx2_lt1 i
  obtain ⟨t, ht⟩ : ∃ t : Fin cfg3.N, t.val = (i 0).val / 5000 :=
    ⟨⟨(i 0).val / 5000, Nat.lt_of_lt_of_eq (by omega : (i 0).val / 5000 < 40) N_3.symm⟩, rfl⟩
  obtain ⟨-, -, -, -, -, -, -, -, -, -, -, -, -, -, -, -, e0, e1⟩ := blockIndex3 t
  refine ⟨t, flush3_8 t, ?_⟩
  rw [mem_outBlock3]
  intro a
  match a with
  | ⟨0, _⟩ =>
    show win3_8.index t (0 : Fin 2) * 5000 ≤ (i 0).val ∧ (i 0).val < win3_8.index t (0 : Fin 2) * 5000 + 5000
    rw [e0]; omega
  | ⟨1, _⟩ =>
    show win3_8.index t (1 : Fin 2) * 8 ≤ (i 1).val ∧ (i 1).val < win3_8.index t (1 : Fin 2) * 8 + 8
    rw [e1]; omega

/-- pallas_call 3 (second layer of the second stack, first 8 features, dense 8→8, softmax): `%89` from `%80`, `%69`, `%12`,
    `%82` / `%86`, `%87`, and the head's `%arg10`, `%88`. -/
theorem region3_array (c : Dev nD) :
    ((dat3 (F := Ideal) V c).arrAt 8 cfg3.N : S200000x8.Idx → EReal)
      = layerHead (meanMul (V c main_v80) (V c main_v12)) (V c main_v69) (V c main_v82) (V c main_v86)
          (fun j => (V c main_v87 : S1x16.Idx → EReal) (ix2 0 j)) (V c main_arg10)
          (fun j => (V c main_v88 : S1x8.Idx → EReal) (ix2 0 j)) := by
  show (dat3 (F := Ideal) V c).arrAt 8 cfg3.N = _
  exact (dat3 (F := Ideal) V c).arrAt_eq_of_cover 8 (layerOut3 V c) (fun t _ => flushed3 V c t) cover3

end Cert.KernelIdeal.Arrays

end
-- ==== Proof.RefSage.lean ====
/-
  The reference's four graph layers `relu(mean @ Wlᵀ + b + x @ Wrᵀ)`, each read one element at a time: the stage's value at node
  `r`, feature `j` is the row function `sageRow` of `Spec.lean` of row `r` of the means (the neighbour sums divided by
  max(deg, 1)), row `r` of the previous stage's features, and the layer's sliced weights and bias.
-/
import proofs.«414788_j17016660427424_3_alg».proof.Proof.Gen.ReferenceIdeal.Read
import proofs.«414788_j17016660427424_3_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Layers

open Cert.ReferenceIdeal Cert.ReferenceIdeal.Read Cert.SageNet Idealize.ShloMosaic Idealize.ShloMosaic.ValueIdx

variable (x0 : (⟨S200000x16, .f32⟩ : BufTy).Contents (Elt Ideal)) (x1 : (⟨S2x5000000, .i32⟩ : BufTy).Contents (Elt Ideal))
  (x2 : (⟨S2x16x16, .f32⟩ : BufTy).Contents (Elt Ideal)) (x3 : (⟨S2x16, .f32⟩ : BufTy).Contents (Elt Ideal))
  (x4 x5 : (⟨S2x16x16, .f32⟩ : BufTy).Contents (Elt Ideal)) (x6 : (⟨S2x16, .f32⟩ : BufTy).Contents (Elt Ideal))
  (x7 : (⟨S2x16x16, .f32⟩ : BufTy).Contents (Elt Ideal)) (x8 : (⟨S16x16, .f32⟩ : BufTy).Contents (Elt Ideal))
  (x9 : (⟨S16, .f32⟩ : BufTy).Contents (Elt Ideal)) (x10 : (⟨S8x8, .f32⟩ : BufTy).Contents (Elt Ideal))
  (x11 : (⟨S8, .f32⟩ : BufTy).Contents (Elt Ideal))

/-! ## One element of a layer, written out -/

/-- A layer over the divided neighbour sums at node `r`, feature `j`: the relu of
    `Σₖ (A[r,k] / D[r])·Wl[j,k] + b[j] + Σₖ X[r,k]·Wr[j,k]`. -/
theorem layer_meanDiv_apply (A X : SN16.Idx → EReal) (D : SN.Idx → EReal) (Wl Wr : SW16.Idx → EReal) (b : Fin 16 → EReal)
    (r : Fin 200000) (j : Fin 16) :
    layer (meanDiv A D) X Wl Wr b (ix2 r j)
      = max (((∑ k : Fin 16, Ideal.div (A (ix2 r k)) (D (ix1 r)) * Wl (ix2 j k)) + b j) + ∑ k : Fin 16, X (ix2 r k) * Wr (ix2 j k)) 0 := rfl

/-- Two such elements with the same bias are equal once their two sums agree term by term. -/
theorem relu_affine_congr {f f' g g' : Fin 16 → EReal} (c : EReal) (hf : ∀ k, f k = f' k) (hg : ∀ k, g k = g' k) :
    max (((∑ k : Fin 16, f k) + c) + ∑ k : Fin 16, g k) 0 = max (((∑ k : Fin 16, f' k) + c) + ∑ k : Fin 16, g' k) 0 := by
  rw [Finset.sum_congr rfl fun k _ => hf k, Finset.sum_congr rfl fun k _ => hg k]

/-! ### Where the first layer reads its operands

At node `r`, output feature `j` and summation position `k`: the left factor of the neighbour product is read at (r, k),
its divisor (a per-node value spread over a column and then over the row) at node r, the transposed weights at (j, k),
the bias (a vector spread over one row and then over all rows) at feature j. -/

theorem sumsAt1 (r : Fin 200000) (j k : Fin 16) : lidx_main_v30 (ix2 r j) k = ix2 r k :=
  funext fun a => Fin.ext (by match a with | ⟨0, _⟩ => rfl | ⟨1, _⟩ => rfl)
theorem divisorAt1 (r : Fin 200000) (k : Fin 16) : idx_main_v26 (idx_main_v27 (ix2 r k)) = ix1 r :=
  funext fun a => Fin.ext (by match a with | ⟨0, _⟩ => rfl)
theorem neighbourWeightAt1 (r : Fin 200000) (j k : Fin 16) : idx_main_v29 (ridx_main_v30 (ix2 r j) k) = ix2 j k :=
  funext fun a => Fin.ext (by match a with | ⟨0, _⟩ => rfl | ⟨1, _⟩ => rfl)
theorem biasAt1 (r : Fin 200000) (j : Fin 16) : idx_main_v31 (idx_main_v32 (ix2 r j)) = ix1 j :=
  funext fun a => Fin.ext (by match a with | ⟨0, _⟩ => rfl)
theorem ownAt1 (r : Fin 200000) (j k : Fin 16) : lidx_main_v35 (ix2 r j) k = ix2 r k :=
  funext fun a => Fin.ext (by match a with | ⟨0, _⟩ => rfl | ⟨1, _⟩ => rfl)
theorem ownWeightAt1 (r : Fin 200000) (j k : Fin 16) : idx_main_v34 (ridx_main_v35 (ix2 r j) k) = ix2 j k :=
  funext fun a => Fin.ext (by match a with | ⟨0, _⟩ => rfl | ⟨1, _⟩ => rfl)

/-! ### Where the second layer reads its operands

At node `r`, output feature `j` and summation position `k`: the left factor of the neighbour product is read at (r, k),
its divisor (a per-node value spread over a column and then over the row) at node r, the transposed weights at (j, k),
the bias (a vector spread over one row and then over all rows) at feature j. -/

theorem sumsAt2 (r : Fin 200000) (j k : Fin 16) : lidx_main_v64 (ix2 r j) k = ix2 r k :=
  funext fun a => Fin.ext (by match a with | ⟨0, _⟩ => rfl | ⟨1, _⟩ => rfl)
theorem divisorAt2 (r : Fin 200000) (k : Fin 16) : idx_main_v60 (idx_main_v61 (ix2 r k)) = ix1 r :=
  funext fun a => Fin.ext (by match a with | ⟨0, _⟩ => rfl)
theorem neighbourWeightAt2 (r : Fin 200000) (j k : Fin 16) : idx_main_v63 (ridx_main_v64 (ix2 r j) k) = ix2 j k :=
  funext fun a => Fin.ext (by match a with | ⟨0, _⟩ => rfl | ⟨1, _⟩ => rfl)
theorem biasAt2 (r : Fin 200000) (j : Fin 16) : idx_main_v65 (idx_main_v66 (ix2 r j)) = ix1 j :=
  funext fun a => Fin.ext (by match a with | ⟨0, _⟩ => rfl)
theorem ownAt2 (r : Fin 200000) (j k : Fin 16) : lidx_main_v69 (ix2 r j) k = ix2 r k :=
  funext fun a => Fin.ext (by match a with | ⟨0, _⟩ => rfl | ⟨1, _⟩ => rfl)
theorem ownWeightAt2 (r : Fin 200000) (j k : Fin 16) : idx_main_v68 (ridx_main_v69 (ix2 r j) k) = ix2 j k :=
  funext fun a => Fin.ext (by match a with | ⟨0, _⟩ => rfl | ⟨1, _⟩ => rfl)

/-! ### Where the third layer reads its operands

At node `r`, output feature `j` and summation position `k`: the left factor of the neighbour product is read at (r, k),
its divisor (a per-node value spread over a column and then over the row) at node r, the transposed weights at (j, k),
the bias (a vector spread over one row and then over all rows) at feature j. -/

theorem sumsAt3 (r : Fin 200000) (j k : Fin 16) : lidx_main_v104 (ix2 r j) k = ix2 r k :=
  funext fun a => Fin.ext (by match a with | ⟨0, _⟩ => rfl | ⟨1, _⟩ => rfl)
theorem divisorAt3 (r : Fin 200000) (k : Fin 16) : idx_main_v100 (idx_main_v101 (ix2 r k)) = ix1 r :=
  funext fun a => Fin.ext (by match a with | ⟨0, _⟩ => rfl)
theorem neighbourWeightAt3 (r : Fin 200000) (j k : Fin 16) : idx_main_v103 (ridx_main_v104 (ix2 r j) k) = ix2 j k :=
  funext fun a => Fin.ext (by match a with | ⟨0, _⟩ => rfl | ⟨1, _⟩ => rfl)
theorem biasAt3 (r : Fin 200000) (j : Fin 16) : idx_main_v105 (idx_main_v106 (ix2 r j)) = ix1 j :=
  funext fun a => Fin.ext (by match a with | ⟨0, _⟩ => rfl)
theorem ownAt3 (r : Fin 200000) (j k : Fin 16) : lidx_main_v109 (ix2 r j) k = ix2 r k :=
  funext fun a => Fin.ext (by match a with | ⟨0, _⟩ => rfl | ⟨1, _⟩ => rfl)
theorem ownWeightAt3 (r : Fin 200000) (j k : Fin 16) : idx_main_v108 (ridx_main_v109 (ix2 r j) k) = ix2 j k :=
  funext fun a => Fin.ext (by match a with | ⟨0, _⟩ => rfl | ⟨1, _⟩ => rfl)

/-! ### Where the fourth layer reads its operands

At node `r`, output feature `j` and summation position `k`: the left factor of the neighbour product is read at (r, k),
its divisor (a per-node value spread over a column and then over the row) at node r, the transposed weights at (j, k),
the bias (a vector spread over one row and then over all rows) at feature j. -/

theorem sumsAt4 (r : Fin 200000) (j k : Fin 16) : lidx_main_v138 (ix2 r j) k = ix2 r k :=
  funext fun a => Fin.ext (by match a with | ⟨0, _⟩ => rfl | ⟨1, _⟩ => rfl)
theorem divisorAt4 (r : Fin 200000) (k : Fin 16) : idx_main_v134 (idx_main_v135 (ix2 r k)) = ix1 r :=
  funext fun a => Fin.ext (by match a with | ⟨0, _⟩ => rfl)
theorem neighbourWeightAt4 (r : Fin 200000) (j k : Fin 16) : idx_main_v137 (ridx_main_v138 (ix2 r j) k) = ix2 j k :=
  funext fun a => Fin.ext (by match a with | ⟨0, _⟩ => rfl | ⟨1, _⟩ => rfl)
theorem biasAt4 (r : Fin 200000) (j : Fin 16) : idx_main_v139 (idx_main_v140 (ix2 r j)) = ix1 j :=
  funext fun a => Fin.ext (by match a with | ⟨0, _⟩ => rfl)
theorem ownAt4 (r : Fin 200000) (j k : Fin 16) : lidx_main_v143 (ix2 r j) k = ix2 r k :=
  funext fun a => Fin.ext (by match a with | ⟨0, _⟩ => rfl | ⟨1, _⟩ => rfl)
theorem ownWeightAt4 (r : Fin 200000) (j k : Fin 16) : idx_main_v142 (ridx_main_v143 (ix2 r j) k) = ix2 j k :=
  funext fun a => Fin.ext (by match a with | ⟨0, _⟩ => rfl | ⟨1, _⟩ => rfl)

/-! ## The four layers -/

/-- `%37`: the first layer of the first stack, from the neighbour sums `%19`, the degrees `%25`, the input features and the slices `%5`, `%7`, `%9`. -/
theorem sage1 :
    ((val_main_v37 (F := Ideal) x0 x1 x2 x3 x4) : S200000x16.Idx → EReal)
      = layer (meanDiv (val_main_v19 (F := Ideal) x0 x1) (val_main_v25 (F := Ideal) x1)) x0
          (val_main_v5 (F := Ideal) x2) (val_main_v9 (F := Ideal) x4) (fun j => ((val_main_v7 (F := Ideal) x3) : S16.Idx → EReal) (ix1 j)) := by
  funext i
  obtain ⟨r, j, rfl⟩ : ∃ (r : Fin 200000) (j : Fin 16), i = ix2 r j := ⟨i 0, i 1, eq_ix2 i⟩
  -- the element is relu of (neighbour product + bias) + own product; the relu's zero is a constant spread over the array
  rw [layer_meanDiv_apply, val_main_v37_apply, val_main_v36_apply, val_main_v33_apply, val_main_v30_apply,
    val_main_v35_apply, val_main_v32_apply, val_main_v31_apply, val_main_call0_v0_apply, val_main_call0_cst_apply,
    biasAt1, Ideal.maximumf_def, Ideal.addf_def, Ideal.addf_def, Ideal.ofBits_def, Ideal.ofBits_zero_f32]
  refine relu_affine_congr _ (fun k => ?_) (fun k => ?_)
  · -- a term of the neighbour product: the quotient at (r, k) times the weight at (j, k)
    rw [val_main_v28_apply, val_main_v27_apply, val_main_v26_apply, val_main_v29_apply, sumsAt1, divisorAt1,
      neighbourWeightAt1, Ideal.hostDivf_def]
  · -- a term of the own product: the feature at (r, k) times the weight at (j, k)
    rw [val_main_v34_apply, ownAt1, ownWeightAt1]

/-- `%71`: the second layer of the first stack, from `%53`, `%59`, the first layer's `%37` and the slices `%39`, `%41`, `%43`. -/
theorem sage2 :
    ((val_main_v71 (F := Ideal) x0 x1 x2 x3 x4) : S200000x16.Idx → EReal)
      = layer (meanDiv (val_main_v53 (F := Ideal) x0 x1 x2 x3 x4) (val_main_v59 (F := Ideal) x1)) (val_main_v37 (F := Ideal) x0 x1 x2 x3 x4)
          (val_main_v39 (F := Ideal) x2) (val_main_v43 (F := Ideal) x4) (fun j => ((val_main_v41 (F := Ideal) x3) : S16.Idx → EReal) (ix1 j)) := by
  funext i
  obtain ⟨r, j, rfl⟩ : ∃ (r : Fin 200000) (j : Fin 16), i = ix2 r j := ⟨i 0, i 1, eq_ix2 i⟩
  -- the element is relu of (neighbour product + bias) + own product; the relu's zero is a constant spread over the array
  rw [layer_meanDiv_apply, val_main_v71_apply, val_main_v70_apply, val_main_v67_apply, val_main_v64_apply,
    val_main_v69_apply, val_main_v66_apply, val_main_v65_apply, val_main_call1_v0_apply, val_main_call1_cst_apply,
    biasAt2, Ideal.maximumf_def, Ideal.addf_def, Ideal.addf_def, Ideal.ofBits_def, Ideal.ofBits_zero_f32]
  refine relu_affine_congr _ (fun k => ?_) (fun k => ?_)
  · -- a term of the neighbour product: the quotient at (r, k) times the weight at (j, k)
    rw [val_main_v62_apply, val_main_v61_apply, val_main_v60_apply, val_main_v63_apply, sumsAt2, divisorAt2,
      neighbourWeightAt2, Ideal.hostDivf_def]
  · -- a term of the own product: the feature at (r, k) times the weight at (j, k)
    rw [val_main_v68_apply, ownAt2, ownWeightAt2]

/-- `%111`: the first layer of the second stack, from `%93`, `%99`, the dense layer's `%77` and the slices `%79`, `%81`, `%83`. -/
theorem sage3 :
    ((val_main_v111 (F := Ideal) x0 x1 x2 x3 x4 x5 x6 x7 x8 x9) : S200000x16.Idx → EReal)
      = layer (meanDiv (val_main_v93 (F := Ideal) x0 x1 x2 x3 x4 x8 x9) (val_main_v99 (F := Ideal) x1)) (val_main_v77 (F := Ideal) x0 x1 x2 x3 x4 x8 x9)
          (val_main_v79 (F := Ideal) x5) (val_main_v83 (F := Ideal) x7) (fun j => ((val_main_v81 (F := Ideal) x6) : S16.Idx → EReal) (ix1 j)) := by
  funext i
  obtain ⟨r, j, rfl⟩ : ∃ (r : Fin 200000) (j : Fin 16), i = ix2 r j := ⟨i 0, i 1, eq_ix2 i⟩
  -- the element is relu of (neighbour product + bias) + own product; the relu's zero is a constant spread over the array
  rw [layer_meanDiv_apply, val_main_v111_apply, val_main_v110_apply, val_main_v107_apply, val_main_v104_apply,
    val_main_v109_apply, val_main_v106_apply, val_main_v105_apply, val_main_call3_v0_apply, val_main_call3_cst_apply,
    biasAt3, Ideal.maximumf_def, Ideal.addf_def, Ideal.addf_def, Ideal.ofBits_def, Ideal.ofBits_zero_f32]
  refine relu_affine_congr _ (fun k => ?_) (fun k => ?_)
  · -- a term of the neighbour product: the quotient at (r, k) times the weight at (j, k)
    rw [val_main_v102_apply, val_main_v101_apply, val_main_v100_apply, val_main_v103_apply, sumsAt3, divisorAt3,
      neighbourWeightAt3, Ideal.hostDivf_def]
  · -- a term of the own product: the feature at (r, k) times the weight at (j, k)
    rw [val_main_v108_apply, ownAt3, ownWeightAt3]

/-- `%145`: the second layer of the second stack, from `%127`, `%133`, `%111` and the slices `%113`, `%115`, `%117`. -/
theorem sage4 :
    ((val_main_v145 (F := Ideal) x0 x1 x2 x3 x4 x5 x6 x7 x8 x9) : S200000x16.Idx → EReal)
      = layer (meanDiv (val_main_v127 (F := Ideal) x0 x1 x2 x3 x4 x5 x6 x7 x8 x9) (val_main_v133 (F := Ideal) x1)) (val_main_v111 (F := Ideal) x0 x1 x2 x3 x4 x5 x6 x7 x8 x9)
          (val_main_v113 (F := Ideal) x5) (val_main_v117 (F := Ideal) x7) (fun j => ((val_main_v115 (F := Ideal) x6) : S16.Idx → EReal) (ix1 j)) := by
  funext i
  obtain ⟨r, j, rfl⟩ : ∃ (r : Fin 200000) (j : Fin 16), i = ix2 r j := ⟨i 0, i 1, eq_ix2 i⟩
  -- the element is relu of (neighbour product + bias) + own product; the relu's zero is a constant spread over the array
  rw [layer_meanDiv_apply, val_main_v145_apply, val_main_v144_apply, val_main_v141_apply, val_main_v138_apply,
    val_main_v143_apply, val_main_v140_apply, val_main_v139_apply, val_main_call4_v0_apply, val_main_call4_cst_apply,
    biasAt4, Ideal.maximumf_def, Ideal.addf_def, Ideal.addf_def, Ideal.ofBits_def, Ideal.ofBits_zero_f32]
  refine relu_affine_congr _ (fun k => ?_) (fun k => ?_)
  · -- a term of the neighbour product: the quotient at (r, k) times the weight at (j, k)
    rw [val_main_v136_apply, val_main_v135_apply, val_main_v134_apply, val_main_v137_apply, sumsAt4, divisorAt4,
      neighbourWeightAt4, Ideal.hostDivf_def]
  · -- a term of the own product: the feature at (r, k) times the weight at (j, k)
    rw [val_main_v142_apply, ownAt4, ownWeightAt4]

end Cert.ReferenceIdeal.Layers

end
-- ==== Proof.RefTail.lean ====
/-
  What the reference applies after its second and fourth graph layers, read one element at a time: after `%71` the dense
  16→16 layer with relu (`%77`); after `%145` the restriction to the first 8 features, the dense 8→8 layer with relu, and the softmax
  over the 8 features (`%163`: the row maximum, folded once more with -∞, the exponentials of the differences, their sum, the quotient).
-/
import proofs.«414788_j17016660427424_3_alg».proof.Proof.Gen.ReferenceIdeal.Read
import proofs.«414788_j17016660427424_3_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.Layers

open Cert.ReferenceIdeal Cert.ReferenceIdeal.Read Cert.SageNet Idealize.ShloMosaic Idealize.ShloMosaic.ValueIdx

variable (x0 : (⟨S200000x16, .f32⟩ : BufTy).Contents (Elt Ideal)) (x1 : (⟨S2x5000000, .i32⟩ : BufTy).Contents (Elt Ideal))
  (x2 : (⟨S2x16x16, .f32⟩ : BufTy).Contents (Elt Ideal)) (x3 : (⟨S2x16, .f32⟩ : BufTy).Contents (Elt Ideal))
  (x4 x5 : (⟨S2x16x16, .f32⟩ : BufTy).Contents (Elt Ideal)) (x6 : (⟨S2x16, .f32⟩ : BufTy).Contents (Elt Ideal))
  (x7 : (⟨S2x16x16, .f32⟩ : BufTy).Contents (Elt Ideal)) (x8 : (⟨S16x16, .f32⟩ : BufTy).Contents (Elt Ideal))
  (x9 : (⟨S16, .f32⟩ : BufTy).Contents (Elt Ideal)) (x10 : (⟨S8x8, .f32⟩ : BufTy).Contents (Elt Ideal))
  (x11 : (⟨S8, .f32⟩ : BufTy).Contents (Elt Ideal))

/-! ## The dense 16→16 layer

  The product `%71 · Wᵀ` at (r, j) sums over the contracted feature k; the left factor is read at (r, k) and the
  transposed weight at (k, j), which is the weight itself at (j, k). The bias is broadcast along the nodes, so at
  (r, j) it is read at j. -/

/-- The left factor of the product at (r, j), summand k, sits at (r, k). -/
theorem lidx73_ix2 (r : Fin 200000) (j k : Fin 16) : lidx_main_v73 (ix2 r j) k = ix2 r k :=
  funext fun a => Fin.ext (by match a with | ⟨0, _⟩ => rfl | ⟨1, _⟩ => rfl)

/-- The transposed weight at (k, j) is the weight at (j, k). -/
theorem ridx73_ix2 (r : Fin 200000) (j k : Fin 16) : idx_main_v72 (ridx_main_v73 (ix2 r j) k) = ix2 j k :=
  funext fun a => Fin.ext (by match a with | ⟨0, _⟩ => rfl | ⟨1, _⟩ => rfl)

/-- The bias broadcast to every node is read, at (r, j), at j. -/
theorem idx75_ix2 (r : Fin 200000) (j : Fin 16) : idx_main_v74 (idx_main_v75 (ix2 r j)) = ix1 j :=
  funext fun a => Fin.ext (by match a with | ⟨0, _⟩ => rfl)

/-- `%77 = relu(%71 @ fc1_Wᵀ + fc1_b)` at node `i 0`, feature `i 1`. -/
theorem dense_tail :
    ((val_main_v77 (F := Ideal) x0 x1 x2 x3 x4 x8 x9) : S200000x16.Idx → EReal)
      = fun i => dense16Row (rowOf (val_main_v71 (F := Ideal) x0 x1 x2 x3 x4) (i 0)) x8 (fun j => (x9 : S16.Idx → EReal) (ix1 j)) (i 1) := by
  funext i
  obtain ⟨r, j, rfl⟩ : ∃ (r : Fin 200000) (j : Fin 16), i = ix2 r j := ⟨i 0, i 1, eq_ix2 i⟩
  -- the maximum with 0 of (the product's element plus the bias's), each stage read at its index
  rw [val_main_v77_apply, val_main_v76_apply, val_main_v73_apply, val_main_v75_apply, val_main_v74_apply,
    val_main_call2_v0_apply, val_main_call2_cst_apply]
  simp only [val_main_v72_apply, lidx73_ix2, ridx73_ix2, idx75_ix2]
  -- on the extended reals the operations are max and +, and the constant word 0 is the number 0
  simp only [Ideal.maximumf_def, Ideal.addf_def, Ideal.ofBits_def, Ideal.ofBits_zero_f32]
  rfl

/-! ## The head: first 8 features, dense 8→8 layer, softmax

  The slice keeps the first 8 features of a node, so feature k of the slice is feature k of `%145` (k read in Fin 16).
  The 8→8 product, its bias and its relu are read as for the 16→16 layer above. -/

/-- The left factor of the 8→8 product at (r, q), summand k: the slice at (r, k), which is `%145` at (r, k). -/
theorem lidx148_ix2 (r : Fin 200000) (q k : Fin 8) :
    idx_main_v146 (lidx_main_v148 (ix2 r q) k) = ix2 r (Fin.castLE (by decide) k) :=
  funext fun a => Fin.ext (by match a with | ⟨0, _⟩ => rfl | ⟨1, _⟩ => rfl)

/-- The transposed 8×8 weight at (k, q) is the weight at (q, k). -/
theorem ridx148_ix2 (r : Fin 200000) (q k : Fin 8) : idx_main_v147 (ridx_main_v148 (ix2 r q) k) = ix2 q k :=
  funext fun a => Fin.ext (by match a with | ⟨0, _⟩ => rfl | ⟨1, _⟩ => rfl)

/-- The 8-feature bias broadcast to every node is read, at (r, q), at q. -/
theorem idx150_ix2 (r : Fin 200000) (q : Fin 8) : idx_main_v149 (idx_main_v150 (ix2 r q)) = ix1 q :=
  funext fun a => Fin.ext (by match a with | ⟨0, _⟩ => rfl)

/-- `%152` at (r, q): output feature q of the dense 8→8 layer with relu on the first 8 features of row r of `%145`. -/
theorem relu8_at (r : Fin 200000) (q : Fin 8) :
    ((val_main_v152 (F := Ideal) x0 x1 x2 x3 x4 x5 x6 x7 x8 x9 x10 x11) : S200000x8.Idx → EReal) (ix2 r q)
      = dense8Row (first8 (rowOf (val_main_v145 (F := Ideal) x0 x1 x2 x3 x4 x5 x6 x7 x8 x9) r)) x10
          (fun j => (x11 : S8.Idx → EReal) (ix1 j)) q := by
  rw [val_main_v152_apply, val_main_v151_apply, val_main_v148_apply, val_main_v150_apply, val_main_v149_apply,
    val_main_call5_v0_apply, val_main_call5_cst_apply]
  simp only [val_main_v146_apply, val_main_v147_apply, lidx148_ix2, ridx148_ix2, idx150_ix2]
  simp only [Ideal.maximumf_def, Ideal.addf_def, Ideal.ofBits_def, Ideal.ofBits_zero_f32]
  rfl

/-! ### The row maximum

  A maximum over the feature axis from -∞ is, at node r, the fold of max from -∞ over the 8 features of row r: max is
  commutative and associative, so the order in which the row is folded does not matter. -/

/-- The constant word of the fold's start is -∞. -/
theorem negInf_word : Ideal.ofBits .f32 0xFF800000#32 = (⊥ : EReal) := by simp [Ideal.ofBits, Ideal.ieee]

/-- Inserting feature k into the node index r gives (r, k). -/
theorem lift_row (h : S200000x8.Reduces [1] S200000) (r : Fin 200000) (k : Fin (S200000x8.size 1)) :
    h.lift (ix1 r) k = (ix2 r (k : Fin 8) : S200000x8.Idx) :=
  funext fun a => Fin.ext (by match a with | ⟨0, _⟩ => rfl | ⟨1, _⟩ => rfl)

/-- The max-reduce of any array `y` over the features, from -∞, at node r: the largest of row r. -/
theorem reduce_max_row (y : S200000x8.Idx → EReal) (r : Fin 200000) :
    Host.reduce (max : EReal → EReal → EReal) y
        (fun _ : S_.Idx => Ideal.ofBits .f32 0xFF800000#32) Gen.reducesTo_S200000x8_S200000_d1 Gen.h_S_ (ix1 r)
      = rowMax (fun q => y (ix2 r q)) := by
  have h : S200000x8.Reduces [1] S200000 := by decide
  rw [Host.reduce_eq_fold_single (max : EReal → EReal → EReal) y _ Gen.reducesTo_S200000x8_S200000_d1 h Gen.h_S_ (ix1 r), negInf_word]
  have e : (y ∘ h.lift (ix1 r)) = fun q : Fin (S200000x8.size 1) => y (ix2 r (q : Fin 8)) :=
    funext fun q => congrArg y (lift_row h r q)
  rw [e]
  rfl

/-- `%153` at node r: the largest of row r of `%152`. -/
theorem rowmax153_at (r : Fin 200000) :
    ((val_main_v153 (F := Ideal) x0 x1 x2 x3 x4 x5 x6 x7 x8 x9 x10 x11) : S200000.Idx → EReal) (ix1 r)
      = rowMax (fun q => ((val_main_v152 (F := Ideal) x0 x1 x2 x3 x4 x5 x6 x7 x8 x9 x10 x11) : S200000x8.Idx → EReal) (ix2 r q)) := by
  unfold val_main_v153
  generalize val_main_v152 (F := Ideal) x0 x1 x2 x3 x4 x5 x6 x7 x8 x9 x10 x11 = y
  exact reduce_max_row y r

/-- `%155` at node r: the row maximum again (a further max with -∞ changes nothing), of the dense 8→8 layer's row. -/
theorem rowmax_at (r : Fin 200000) :
    ((val_main_v155 (F := Ideal) x0 x1 x2 x3 x4 x5 x6 x7 x8 x9 x10 x11) : S200000.Idx → EReal) (ix1 r)
      = rowMax (dense8Row (first8 (rowOf (val_main_v145 (F := Ideal) x0 x1 x2 x3 x4 x5 x6 x7 x8 x9) r)) x10
          (fun j => (x11 : S8.Idx → EReal) (ix1 j))) := by
  rw [val_main_v155_apply, val_main_v154_apply, val_main_cst_23_apply, rowmax153_at]
  simp only [relu8_at]
  simp only [Ideal.maximumf_def, Ideal.ofBits_def, negInf_word]
  exact max_eq_right bot_le

/-! ### The softmax

  The row maximum and the row's sum of exponentials are each one number per node, broadcast back along the features: at
  (r, j) both are read at r. The sum over the features at node r runs over (r, k). -/

/-- A per-node number broadcast to the 8 features (the maximum) is read, at (r, j), at r. -/
theorem idx157_ix2 (r : Fin 200000) (j : Fin 8) : idx_main_v156 (idx_main_v157 (ix2 r j)) = ix1 r :=
  funext fun a => Fin.ext (by match a with | ⟨0, _⟩ => rfl)

/-- A per-node number broadcast to the 8 features (the sum) is read, at (r, j), at r. -/
theorem idx162_ix2 (r : Fin 200000) (j : Fin 8) : idx_main_v161 (idx_main_v162 (ix2 r j)) = ix1 r :=
  funext fun a => Fin.ext (by match a with | ⟨0, _⟩ => rfl)

/-- Summand k of the sum over the features at node r sits at (r, k). -/
theorem idx160_ix1 (r : Fin 200000) (k : Fin 8) : idx_main_v160 (ix1 r) k = ix2 r k :=
  funext fun a => Fin.ext (by match a with | ⟨0, _⟩ => rfl | ⟨1, _⟩ => rfl)

/-- `%159` at (r, q): the exponential of the dense layer's value at q minus the largest value of its row. -/
theorem exp_at (r : Fin 200000) (q : Fin 8) :
    ((val_main_v159 (F := Ideal) x0 x1 x2 x3 x4 x5 x6 x7 x8 x9 x10 x11) : S200000x8.Idx → EReal) (ix2 r q)
      = Ideal.exp ((dense8Row (first8 (rowOf (val_main_v145 (F := Ideal) x0 x1 x2 x3 x4 x5 x6 x7 x8 x9) r)) x10
          (fun j => (x11 : S8.Idx → EReal) (ix1 j))) q
          - rowMax (dense8Row (first8 (rowOf (val_main_v145 (F := Ideal) x0 x1 x2 x3 x4 x5 x6 x7 x8 x9) r)) x10
          (fun j => (x11 : S8.Idx → EReal) (ix1 j)))) := by
  rw [val_main_v159_apply, val_main_v158_apply, val_main_v157_apply, val_main_v156_apply, idx157_ix2, rowmax_at, relu8_at]
  simp only [Ideal.hostUnary_exp_def, Ideal.subf_def]

/-- `%160` at node r: the sum over the 8 features of those exponentials (the sum starts from the number 0). -/
theorem expsum_at (r : Fin 200000) :
    ((val_main_v160 (F := Ideal) x0 x1 x2 x3 x4 x5 x6 x7 x8 x9 x10 x11) : S200000.Idx → EReal) (ix1 r)
      = ∑ k : Fin 8, Ideal.exp ((dense8Row (first8 (rowOf (val_main_v145 (F := Ideal) x0 x1 x2 x3 x4 x5 x6 x7 x8 x9) r)) x10
          (fun j => (x11 : S8.Idx → EReal) (ix1 j))) k
          - rowMax (dense8Row (first8 (rowOf (val_main_v145 (F := Ideal) x0 x1 x2 x3 x4 x5 x6 x7 x8 x9) r)) x10
          (fun j => (x11 : S8.Idx → EReal) (ix1 j)))) := by
  rw [val_main_v160_apply, val_main_cst_24_apply]
  simp only [Ideal.ofBits_def, Ideal.ofBits_zero_f32, zero_add]
  refine Finset.sum_congr rfl fun k _ => ?_
  rw [idx160_ix1, exp_at]

/-- `%163 = softmax(relu(%145[:, :8] @ fc2_Wᵀ + fc2_b))` at node `i 0`, feature `i 1`. -/
theorem head_tail :
    ((val_main_v163 (F := Ideal) x0 x1 x2 x3 x4 x5 x6 x7 x8 x9 x10 x11) : S200000x8.Idx → EReal)
      = fun i => softmaxRow (dense8Row (first8 (rowOf (val_main_v145 (F := Ideal) x0 x1 x2 x3 x4 x5 x6 x7 x8 x9) (i 0))) x10 (fun j => (x11 : S8.Idx → EReal) (ix1 j))) (i 1) := by
  funext i
  obtain ⟨r, j, rfl⟩ : ∃ (r : Fin 200000) (j : Fin 8), i = ix2 r j := ⟨i 0, i 1, eq_ix2 i⟩
  -- the quotient of the exponential at (r, j) by the sum, over the features, of the exponentials at node r
  rw [val_main_v163_apply, val_main_v162_apply, val_main_v161_apply, idx162_ix2, expsum_at, exp_at]
  simp only [Ideal.hostDivf_def]
  -- what is left is the definition of the softmax of that row; the layer's input enters both sides as one unknown array
  generalize val_main_v145 (F := Ideal) x0 x1 x2 x3 x4 x5 x6 x7 x8 x9 = A
  rfl

end Cert.ReferenceIdeal.Layers

end
-- ==== Proof.RefLayers.lean ====
/-
  The reference's four stages in the vocabulary of `Spec.lean`: a layer; a layer and the dense 16→16 layer; a layer; a layer and
  the 8-feature head with its softmax — each applied to the means (neighbour sums divided by max(deg, 1)), the previous
  stage's features and the sliced weights.
-/
import proofs.«414788_j17016660427424_3_alg».proof.Proof.RefSage
import proofs.«414788_j17016660427424_3_alg».proof.Proof.RefTail

noncomputable section

open scoped BigOperators

namespace Cert.ReferenceIdeal.Layers

open Cert.ReferenceIdeal Cert.ReferenceIdeal.Read Cert.SageNet Idealize.ShloMosaic Idealize.ShloMosaic.ValueIdx

variable (x0 : (⟨S200000x16, .f32⟩ : BufTy).Contents (Elt Ideal)) (x1 : (⟨S2x5000000, .i32⟩ : BufTy).Contents (Elt Ideal))
  (x2 : (⟨S2x16x16, .f32⟩ : BufTy).Contents (Elt Ideal)) (x3 : (⟨S2x16, .f32⟩ : BufTy).Contents (Elt Ideal))
  (x4 x5 : (⟨S2x16x16, .f32⟩ : BufTy).Contents (Elt Ideal)) (x6 : (⟨S2x16, .f32⟩ : BufTy).Contents (Elt Ideal))
  (x7 : (⟨S2x16x16, .f32⟩ : BufTy).Contents (Elt Ideal)) (x8 : (⟨S16x16, .f32⟩ : BufTy).Contents (Elt Ideal))
  (x9 : (⟨S16, .f32⟩ : BufTy).Contents (Elt Ideal)) (x10 : (⟨S8x8, .f32⟩ : BufTy).Contents (Elt Ideal))
  (x11 : (⟨S8, .f32⟩ : BufTy).Contents (Elt Ideal))

/-- Row `r` of a layer's output is the row function of row `r` of its inputs. -/
theorem rowOf_layer (M X : SN16.Idx → EReal) (Wl Wr : SW16.Idx → EReal) (b : Fin 16 → EReal) (r : Fin 200000) :
    rowOf (layer M X Wl Wr b) r = sageRow (rowOf M r) (rowOf X r) Wl Wr b := rfl

/-- `%37`: the first layer of the first stack. -/
theorem layer1 :
    ((val_main_v37 (F := Ideal) x0 x1 x2 x3 x4) : S200000x16.Idx → EReal)
      = layer (meanDiv (val_main_v19 (F := Ideal) x0 x1) (val_main_v25 (F := Ideal) x1)) x0
          (val_main_v5 (F := Ideal) x2) (val_main_v9 (F := Ideal) x4) (fun j => ((val_main_v7 (F := Ideal) x3) : S16.Idx → EReal) (ix1 j)) :=
  sage1 x0 x1 x2 x3 x4

/-- `%77`: the second layer of the first stack and the dense 16→16 layer after it. -/
theorem layer2 :
    ((val_main_v77 (F := Ideal) x0 x1 x2 x3 x4 x8 x9) : S200000x16.Idx → EReal)
      = layerDense (meanDiv (val_main_v53 (F := Ideal) x0 x1 x2 x3 x4) (val_main_v59 (F := Ideal) x1)) (val_main_v37 (F := Ideal) x0 x1 x2 x3 x4)
          (val_main_v39 (F := Ideal) x2) (val_main_v43 (F := Ideal) x4) (fun j => ((val_main_v41 (F := Ideal) x3) : S16.Idx → EReal) (ix1 j))
          x8 (fun j => (x9 : S16.Idx → EReal) (ix1 j)) := by
  rw [dense_tail, sage2]
  rfl

/-- `%111`: the first layer of the second stack. -/
theorem layer3 :
    ((val_main_v111 (F := Ideal) x0 x1 x2 x3 x4 x5 x6 x7 x8 x9) : S200000x16.Idx → EReal)
      = layer (meanDiv (val_main_v93 (F := Ideal) x0 x1 x2 x3 x4 x8 x9) (val_main_v99 (F := Ideal) x1)) (val_main_v77 (F := Ideal) x0 x1 x2 x3 x4 x8 x9)
          (val_main_v79 (F := Ideal) x5) (val_main_v83 (F := Ideal) x7) (fun j => ((val_main_v81 (F := Ideal) x6) : S16.Idx → EReal) (ix1 j)) :=
  sage3 x0 x1 x2 x3 x4 x5 x6 x7 x8 x9

/-- `%163`: the second layer of the second stack, its first 8 features, the dense 8→8 layer and the softmax. -/
theorem layer4 :
    ((val_main_v163 (F := Ideal) x0 x1 x2 x3 x4 x5 x6 x7 x8 x9 x10 x11) : S200000x8.Idx → EReal)
      = layerHead (meanDiv (val_main_v127 (F := Ideal) x0 x1 x2 x3 x4 x5 x6 x7 x8 x9) (val_main_v133 (F := Ideal) x1)) (val_main_v111 (F := Ideal) x0 x1 x2 x3 x4 x5 x6 x7 x8 x9)
          (val_main_v113 (F := Ideal) x5) (val_main_v117 (F := Ideal) x7) (fun j => ((val_main_v115 (F := Ideal) x6) : S16.Idx → EReal) (ix1 j))
          x10 (fun j => (x11 : S8.Idx → EReal) (ix1 j)) := by
  rw [head_tail, sage4]
  rfl

end Cert.ReferenceIdeal.Layers

end
-- ==== Proof.KernelValue.lean ====
/-
  The kernel program's result is the reference's. Going through the program once: each pallas_call's output array is the layer
  of `Spec.lean` applied to the arrays it finds (`Arrays.lean`); those arrays are the reference's stages of the same host
  operations, on the features the call before left (`HostValues.lean`); the kernel's mean `sums · (1 / max(deg, 1))` is the
  reference's `sums / max(deg, 1)` because max(deg, 1) is never zero; and the reference's own stages are the same layers of
  the same inputs (`RefLayers.lean`). So pallas_call 0 leaves the reference's `%37`, call 1 its `%77`, call 2 its `%111` and call 3 its
  result `%163`.
-/
import proofs.«414788_j17016660427424_3_alg».proof.Proof.HostValues
import proofs.«414788_j17016660427424_3_alg».proof.Proof.Arrays
import proofs.«414788_j17016660427424_3_alg».proof.Proof.RefLayers
import Idealize.ShloMosaic.Lib.ValueLayout

set_option maxRecDepth 16384

noncomputable section

namespace Cert.KernelIdeal.Walk

open Cert.KernelIdeal Cert.KernelIdeal.Gen Cert.SageNet Cert.KernelIdeal.Arrays
open Idealize.ShloMosaic Idealize.ShloMosaic.TcCoe Idealize.SL.Sem Idealize.ShloMosaic.StableHlo Idealize.ShloMosaic.ValueIdx
open Cert.ReferenceIdeal.Read Cert.ReferenceIdeal.Layers

/-! ## Small facts about the shared host terms -/

/-- The f32 word of 1.0 is the real 1. -/
theorem one_f32 : Ideal.ofBits .f32 0x3F800000#32 = 1 := by
  simp [Ideal.ofBits, Ideal.ieee]
  norm_cast
  norm_num

/-- A [200000] vector reshaped to a [200000, 1] column reads, at `(r, 0)`, the vector at `r`. -/
theorem col_apply (v : (⟨1, ![200000]⟩ : Shape).Idx → EReal) (h : (⟨1, ![200000]⟩ : Shape).ShapeCasts ⟨2, ![200000, 1]⟩)
    (r : Fin 200000) (z : Fin 1) : shapeCast ⟨2, ![200000, 1]⟩ v h (ix2 r z) = v (ix1 r) :=
  shapeCast_apply v h _ _ (by
    have hz : z.val = 0 := by omega
    rw [Shape.rowMajor_val_one, Shape.rowMajor_val_two]
    show r.val = r.val * 1 + z.val
    rw [hz, Nat.mul_one, Nat.add_zero])

/-- The host's quotient of two vectors, at an index. -/
theorem hostDivf_at {s : Shape} {φ : FTy} (a b : FVec Ideal s φ) (i : s.Idx) : Host.divf a b i = Ideal.div (a i) (b i) := rfl

/-- The reciprocal column the kernel's host code forms is `1 / max(deg, 1)`, node by node. -/
theorem recipArr_eq (x1 : (⟨Cert.ReferenceIdeal.S2x5000000, .i32⟩ : BufTy).Contents (Elt Ideal)) :
    (recipArr x1 : SN1.Idx → EReal) = recipCol (val_main_v25 (F := Ideal) x1) := by
  funext i
  obtain ⟨r, z, rfl⟩ : ∃ (r : Fin 200000) (z : Fin 1), i = ix2 r z := ⟨i 0, i 1, eq_ix2 i⟩
  have hb : broadcastInDim S200000 ![] bcast_S_S200000 (constant (F := Ideal) S_ .f32 0x3F800000#32) (ix1 r) = (1 : EReal) :=
    (broadcastInDim_apply _ bcast_S_S200000 (constant (F := Ideal) S_ .f32 0x3F800000#32) (ix1 r) ix0 (fun a => a.elim0)).trans one_f32
  unfold recipArr recipCol
  rw [col_apply, hostDivf_at, hb]

/-- The reference's divisor max(deg, 1) is never zero. -/
theorem deg_ne (x1 : (⟨Cert.ReferenceIdeal.S2x5000000, .i32⟩ : BufTy).Contents (Elt Ideal)) (r : SN.Idx) :
    (val_main_v25 (F := Ideal) x1 : SN.Idx → EReal) r ≠ 0 := by
  rw [val_main_v25_apply, val_main_v24_apply, val_main_cst_3_apply]
  show max _ (Ideal.ofBits .f32 0x3F800000#32) ≠ 0
  rw [one_f32]
  exact max_one_ne_zero _

/-- A [16] bias reshaped to a [1, 16] row reads, at `(0, j)`, the bias at `j`. -/
theorem biasRow16 (b : (⟨1, ![16]⟩ : Shape).Idx → EReal) (h : (⟨1, ![16]⟩ : Shape).ShapeCasts ⟨2, ![1, 16]⟩) :
    (fun j : Fin 16 => shapeCast ⟨2, ![1, 16]⟩ b h (ix2 (0 : Fin 1) j)) = fun j => b (ix1 j) :=
  funext fun j => shapeCast_a_1a_apply b h 0 j
/-- The same for the [8] bias. -/
theorem biasRow8 (b : (⟨1, ![8]⟩ : Shape).Idx → EReal) (h : (⟨1, ![8]⟩ : Shape).ShapeCasts ⟨2, ![1, 8]⟩) :
    (fun j : Fin 8 => shapeCast ⟨2, ![1, 8]⟩ b h (ix2 (0 : Fin 1) j)) = fun j => b (ix1 j) :=
  funext fun j => shapeCast_a_1a_apply b h 0 j

section RefStages

variable (x0 : (⟨Cert.ReferenceIdeal.S200000x16, .f32⟩ : BufTy).Contents (Elt Ideal)) (x1 : (⟨Cert.ReferenceIdeal.S2x5000000, .i32⟩ : BufTy).Contents (Elt Ideal))
  (x2 : (⟨Cert.ReferenceIdeal.S2x16x16, .f32⟩ : BufTy).Contents (Elt Ideal)) (x3 : (⟨Cert.ReferenceIdeal.S2x16, .f32⟩ : BufTy).Contents (Elt Ideal))
  (x4 x5 : (⟨Cert.ReferenceIdeal.S2x16x16, .f32⟩ : BufTy).Contents (Elt Ideal)) (x6 : (⟨Cert.ReferenceIdeal.S2x16, .f32⟩ : BufTy).Contents (Elt Ideal))
  (x7 : (⟨Cert.ReferenceIdeal.S2x16x16, .f32⟩ : BufTy).Contents (Elt Ideal)) (x8 : (⟨Cert.ReferenceIdeal.S16x16, .f32⟩ : BufTy).Contents (Elt Ideal))
  (x9 : (⟨Cert.ReferenceIdeal.S16, .f32⟩ : BufTy).Contents (Elt Ideal))

/-- The reference's neighbour sums at each layer are `aggOf` of that layer's input features (it repeats the index operations per layer;
    they are the same operations of the same argument). -/
theorem agg1 : val_main_v19 (F := Ideal) x0 x1 = aggOf x0 x1 := rfl
theorem agg2 : val_main_v53 (F := Ideal) x0 x1 x2 x3 x4 = aggOf (val_main_v37 (F := Ideal) x0 x1 x2 x3 x4) x1 := rfl
theorem agg3 : val_main_v93 (F := Ideal) x0 x1 x2 x3 x4 x8 x9 = aggOf (val_main_v77 (F := Ideal) x0 x1 x2 x3 x4 x8 x9) x1 := rfl
theorem agg4 : val_main_v127 (F := Ideal) x0 x1 x2 x3 x4 x5 x6 x7 x8 x9 = aggOf (val_main_v111 (F := Ideal) x0 x1 x2 x3 x4 x5 x6 x7 x8 x9) x1 := rfl
/-- and its divisor at each layer is the first layer's. -/
theorem deg2 : val_main_v59 (F := Ideal) x1 = val_main_v25 (F := Ideal) x1 := rfl
theorem deg3 : val_main_v99 (F := Ideal) x1 = val_main_v25 (F := Ideal) x1 := rfl
theorem deg4 : val_main_v133 (F := Ideal) x1 = val_main_v25 (F := Ideal) x1 := rfl

end RefStages

variable (m : (ℓ : Loc nD τ sig) → Buf (Elt Ideal) ℓ) (ρ : Dev nD → PrngReg)

/-! ## The four pallas_calls' outputs -/

/-- pallas_call 0 leaves the reference's first-layer features `%37`. -/
theorem out0 (c : Dev nD) : W2 m ρ c (Proc.devRef .tc main_v30)
    = val_main_v37 (F := Ideal) (X0 m c) (X1 m c) (X2 m c) (X3 m c) (X4 m c) := by
  refine (W2_arr m ρ c 6).trans ((region0_array (V1 m ρ) c).trans ?_)
  dsimp only [V1]
  rw [W1_v22, W1_v12, W1_arg0, W1_v24, W1_v28, W1_v29, recipArr_eq, biasRow16, meanMul_recipCol _ _ (deg_ne _), ← agg1]
  exact (layer1 _ _ _ _ _).symm

set_option maxHeartbeats 2000000 in
/-- pallas_call 1 leaves the reference's `%77` (second layer of the first stack, then the dense 16→16 layer). -/
theorem out1 (c : Dev nD) : W4 m ρ c (Proc.devRef .tc main_v50)
    = val_main_v77 (F := Ideal) (X0 m c) (X1 m c) (X2 m c) (X3 m c) (X4 m c) (X8 m c) (X9 m c) := by
  have hv := vals_of_keeps m ρ c _ (keeps3 m ρ c)
  refine (W4_arr m ρ c 8).trans ((region1_array (V3 m ρ) c).trans ?_)
  dsimp only [V3]
  rw [W3_v41, hv.v12, W3_v30, out0, W3_v43, W3_v47, W3_v48, hv.a8, W3_v49, recipArr_eq, biasRow16, biasRow16,
    meanMul_recipCol _ _ (deg_ne _), layer2, agg2, deg2]

set_option maxHeartbeats 2000000 in
/-- pallas_call 2 leaves the reference's `%111` (first layer of the second stack). -/
theorem out2 (c : Dev nD) : W6 m ρ c (Proc.devRef .tc main_v69)
    = val_main_v111 (F := Ideal) (X0 m c) (X1 m c) (X2 m c) (X3 m c) (X4 m c) (X5 m c) (X6 m c) (X7 m c) (X8 m c) (X9 m c) := by
  have hv := vals_of_keeps m ρ c _ (keeps5 m ρ c)
  refine (W6_arr m ρ c 6).trans ((region2_array (V5 m ρ) c).trans ?_)
  dsimp only [V5]
  rw [W5_v61, hv.v12, W5_v50, out1, W5_v63, W5_v67, W5_v68, recipArr_eq, biasRow16,
    meanMul_recipCol _ _ (deg_ne _), layer3, agg3, deg3]

set_option maxHeartbeats 2000000 in
/-- pallas_call 3 leaves the reference's result `%163`. -/
theorem out3 (c : Dev nD) : W8 m ρ c (Proc.devRef .tc main_v89)
    = val_main_v163 (F := Ideal) (X0 m c) (X1 m c) (X2 m c) (X3 m c) (X4 m c) (X5 m c) (X6 m c) (X7 m c) (X8 m c) (X9 m c) (X10 m c) (X11 m c) := by
  have hv := vals_of_keeps m ρ c _ (keeps7 m ρ c)
  refine (W8_arr m ρ c 8).trans ((region3_array (V7 m ρ) c).trans ?_)
  dsimp only [V7]
  rw [W7_v80, hv.v12, W7_v69, out2, W7_v82, W7_v86, W7_v87, hv.a10, W7_v88, recipArr_eq, biasRow16, biasRow8,
    meanMul_recipCol _ _ (deg_ne _), layer4, agg4, deg4]

end Cert.KernelIdeal.Walk

end
-- ==== Proof.lean ====
/-
  The certificate of a two-stack GraphSAGE network with a dense head and a softmax, computed by a program of four pallas_calls
  among host gathers and scatter-adds, against the plain reference.

  The three frames: the two kernel programs' are the generated frame certificates of their four regions; the reference's is its
  generated run with the result dropped. The idealization rewrote no operation, so `preserves` is `True`.

  The algebraic claim. On the extended reals both programs compute, node by node, four layers
  `relu(μ·Wlᵀ + b + x·Wrᵀ)` (μ the mean of the in-neighbours' features, x the node's own), a dense 16→16 layer with relu after
  the second, and after the fourth the first 8 features, a dense 8→8 layer with relu and a softmax. The kernel program forms μ as
  the neighbour sum times the reciprocal `1 / max(deg, 1)`, the reference as the neighbour sum divided by `max(deg, 1)`: equal,
  because a quotient by a nonzero extended real is the product with its inverse and `max(deg, 1) ≥ 1`. Everything else — the
  gathers and scatter-adds, the slices of the weights, the order of the sums — is the same on both sides; a change of float
  format is the identity. The kernel's run ends with its result array at the last pallas_call's output (`KernelRun.lean`), which
  is the reference's last stage applied to the same arguments (`KernelValue.lean`); the reference's run ends at that stage.
-/
import proofs.«414788_j17016660427424_3_alg».proof.Defs
import proofs.«414788_j17016660427424_3_alg».proof.Proof.Gen.Kernel
import proofs.«414788_j17016660427424_3_alg».proof.Proof.Gen.Kernel.Frame
import proofs.«414788_j17016660427424_3_alg».proof.Proof.Gen.KernelIdeal
import proofs.«414788_j17016660427424_3_alg».proof.Proof.Gen.KernelIdeal.Frame
import proofs.«414788_j17016660427424_3_alg».proof.Proof.Gen.ReferenceIdeal
import proofs.«414788_j17016660427424_3_alg».proof.Proof.Gen.ReferenceIdeal.Run
import proofs.«414788_j17016660427424_3_alg».proof.Proof.Gen.ReferenceIdeal.Read
import proofs.«414788_j17016660427424_3_alg».proof.Proof.Gen.Pre_finite_inputs
import proofs.«414788_j17016660427424_3_alg».proof.Proof.KernelRun
import proofs.«414788_j17016660427424_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the arguments the two idealized programs end with the same result array: the kernel program's last
    pallas_call leaves the reference's last stage of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W8 m ρ c (Proc.devRef .tc Cert.KernelIdeal.main_v89), Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v163_eq, h0, h1, h2, h3, h4, h5, h6, h7, h8, h9, h10, h11]
  exact (Cert.KernelIdeal.Walk.out3 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
